-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S16416x4096 : Shape := ⟨2, ![16416, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16416x4096 : S_.BroadcastsInDim S16416x4096 (![] : Fin 0 → Fin S16416x4096.rank)
  reducesTo_S16416x4096_S_d0_1 : S16416x4096.ReducesTo [0, 1] S_

variable [Facts]

def fn_part1 {F : FTy → Type} [FloatOps F] (main_arg4 : FVec F S16416x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S16416x4096 .f32 := Host.absf main_arg4
  let main_cst_6 : FVec F S_ .f32 := constant S_ .f32 0x7F800000#32
  let main_v20 : FVec F S16416x4096 .f32 := broadcastInDim S16416x4096 ![] bcast_S_S16416x4096 main_cst_6
  let main_v21 : IVec S16416x4096 1 := cmpf .olt main_v19 main_v20
  let main_c_7 : IVec S_ 1 := constantI S_ 1 1#1
  let main_v22 : IVec S_ 1 := (fun x v => Host.reduce IntOp.andi x v reducesTo_S16416x4096_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096 .f32) (main_arg4 : FVec F S16416x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S16416x4096 : Shape := ⟨2, ![16416, 4096]⟩
abbrev S16384x4096 : Shape := ⟨2, ![16384, 4096]⟩
abbrev S32x4096 : Shape := ⟨2, ![32, 4096]⟩
abbrev S4096x32 : Shape := ⟨2, ![4096, 32]⟩
abbrev S1x4096 : Shape := ⟨2, ![1, 4096]⟩
abbrev S8192x32 : Shape := ⟨2, ![8192, 32]⟩
abbrev S1024x256 : Shape := ⟨2, ![1024, 256]⟩
abbrev S256x4096 : Shape := ⟨2, ![256, 4096]⟩
abbrev S1024x4096 : Shape := ⟨2, ![1024, 4096]⟩
abbrev S1024x32 : Shape := ⟨2, ![1024, 32]⟩
abbrev S1024 : Shape := ⟨1, ![1024]⟩
abbrev S1024x1 : Shape := ⟨2, ![1024, 1]⟩
abbrev S8192x16384 : Shape := ⟨2, ![8192, 16384]⟩
abbrev S1024x1024 : Shape := ⟨2, ![1024, 1024]⟩

abbrev nBuf : Space → Nat
  | .hbm => 17
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S16416x4096, .f32⟩
  | .hbm, ⟨5, _⟩ => ⟨S4096x4096, .f32⟩
  | .hbm, ⟨6, _⟩ => ⟨S4096x4096, .bf16⟩
  | .hbm, ⟨7, _⟩ => ⟨S16384x4096, .f32⟩
  | .hbm, ⟨8, _⟩ => ⟨S16384x4096, .bf16⟩
  | .hbm, ⟨9, _⟩ => ⟨S32x4096, .f32⟩
  | .hbm, ⟨10, _⟩ => ⟨S4096x32, .f32⟩
  | .hbm, ⟨11, _⟩ => ⟨S4096x32, .bf16⟩
  | .hbm, ⟨12, _⟩ => ⟨S1x4096, .f32⟩
  | .hbm, ⟨13, _⟩ => ⟨S1x4096, .f32⟩
  | .hbm, ⟨14, _⟩ => ⟨S8192x4096, .bf16⟩
  | .hbm, ⟨15, _⟩ => ⟨S8192x32, .f32⟩
  | .hbm, ⟨16, _⟩ => ⟨S8192x16384, .f32⟩
  | .local _ .vmem, ⟨0, _⟩ => ⟨S1024x256, .f32⟩
  | .local _ .vmem, ⟨1, _⟩ => ⟨S1024x256, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S4096x32, .bf16⟩
  | .local _ .vmem, ⟨7, _⟩ => ⟨S1024x4096, .bf16⟩
  | .local _ .vmem, ⟨8, _⟩ => ⟨S1024x4096, .bf16⟩
  | .local _ .vmem, ⟨9, _⟩ => ⟨S1024x32, .f32⟩
  | .local _ .vmem, ⟨10, _⟩ => ⟨S1024x32, .f32⟩
  | .local _ .vmem, ⟨11, _⟩ => ⟨S1024x4096, .f32⟩
  | .local _ .vmem, ⟨12, _⟩ => ⟨S1024x4096, .bf16⟩
  | .local _ .vmem, ⟨13, _⟩ => ⟨S1024x4096, .bf16⟩
  | .local _ .vmem, ⟨14, _⟩ => ⟨S1024x4096, .bf16⟩
  | .local _ .vmem, ⟨15, _⟩ => ⟨S1024x4096, .bf16⟩
  | .local _ .vmem, ⟨16, _⟩ => ⟨S1024x1024, .f32⟩
  | .local _ .vmem, ⟨17, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  transposes_S4096x4096_S4096x4096_1_0 : S4096x4096.Transposes [1, 0] S4096x4096
  bitsLt_bf16_f32 : FTy.bits .bf16 < FTy.bits .f32
  slices_S16416x4096_S16384x4096_0_0 : S16416x4096.Slices ![0, 0] S16384x4096
  slices_S16416x4096_S32x4096_16384_0 : S16416x4096.Slices ![16384, 0] S32x4096
  transposes_S32x4096_S4096x32_1_0 : S32x4096.Transposes [1, 0] S4096x32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x256_S1024x256_0_0 : ∀ a, (![0, 0] : Fin 2 → Nat) a + S1024x256.size a ≤ S1024x256.size a
  h_S1024x256 : 0 < S1024x256.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S1024x4096_S1024 : S1024x4096.Reduces [1] S1024
  shapeCasts_S1024_S1024x1 : S1024.ShapeCasts S1024x1
  broadcasts_S1024x1_S1024x4096 : S1024x1.Broadcasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  packedbf16_S1024x4096_S1024x4096_0_0 : (Rect.unit (s := S1024x4096) ![0, 0] S1024x4096.size inb_S1024x4096_S1024x4096_0_0).PackedRows (EltTy.packing .bf16)
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S1024x32_S1024x32_0_0 : ∀ a, (![0, 0] : Fin 2 → Nat) a + S1024x32.size a ≤ S1024x32.size a
  h_S1024x32 : 0 < S1024x32.numel
  inb_S1024x1024_S1024x1024_0_0 : ∀ a, (![0, 0] : Fin 2 → Nat) a + S1024x1024.size a ≤ S1024x1024.size a
  h_S1024x1024 : 0 < S1024x1024.numel
  dot_S1024x256_S256x4096_S1024x4096_1_0_0_1_n_n_wf : DotDims.WF S1024x256 S256x4096 S1024x4096 [1] [0] [0] [1] [] []
  dot_S1024x4096_S4096x32_S1024x32_1_0_0_1_n_n_wf : DotDims.WF S1024x4096 S4096x32 S1024x32 [1] [0] [0] [1] [] []
  dot_S1024x4096_S1024x4096_S1024x1024_1_1_0_0_n_n_wf : DotDims.WF S1024x4096 S1024x4096 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .f32 = 32 ∨ (Rect.block (s := S8192x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x32.size a ≤ S4096x32.size a
  hwx0_4 : ∀ i : grid0.Coords, EltTy.bits .bf16 = 32 ∨ (Rect.block (s := S4096x32) S4096x32.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S8192x4096.size a
  hwx0_5 : ∀ i : grid0.Coords, EltTy.bits .bf16 = 32 ∨ (Rect.block (s := S8192x4096) S1024x4096.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x32.size a ≤ S8192x32.size a
  hwx0_6 : ∀ i : grid0.Coords, EltTy.bits .f32 = 32 ∨ (Rect.block (s := S8192x32) S1024x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S16384x4096.size a
  hwx1_1 : ∀ i : grid1.Coords, EltTy.bits .bf16 = 32 ∨ (Rect.block (s := S16384x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x16384.size a
  hwx1_2 : ∀ i : grid1.Coords, EltTy.bits .f32 = 32 ∨ (Rect.block (s := S8192x16384) S1024x1024.size (cc1_transform_2 i) (hinb1_2 i)).WholeWords (EltTy.packing .f32)

variable [Facts₀]

def dot_S1024x256_S256x4096_S1024x4096_1_0_0_1_n_n : DotDims S1024x256 S256x4096 S1024x4096 where
  lhsContracting := [1]
  rhsContracting := [0]
  lhsNonContracting := [0]
  rhsNonContracting := [1]
  lhsBatch := []
  rhsBatch := []
  wf := dot_S1024x256_S256x4096_S1024x4096_1_0_0_1_n_n_wf
def dot_S1024x4096_S4096x32_S1024x32_1_0_0_1_n_n : DotDims S1024x4096 S4096x32 S1024x32 where
  lhsContracting := [1]
  rhsContracting := [0]
  lhsNonContracting := [0]
  rhsNonContracting := [1]
  lhsBatch := []
  rhsBatch := []
  wf := dot_S1024x4096_S4096x32_S1024x32_1_0_0_1_n_n_wf
def dot_S1024x4096_S1024x4096_S1024x1024_1_1_0_0_n_n : DotDims S1024x4096 S1024x4096 S1024x1024 where
  lhsContracting := [1]
  rhsContracting := [1]
  lhsNonContracting := [0]
  rhsNonContracting := [0]
  lhsBatch := []
  rhsBatch := []
  wf := dot_S1024x4096_S1024x4096_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4096x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S1024x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S1024x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v9_0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S16416x4096 : Shape := ⟨2, ![16416, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S4096x16416 : Shape := ⟨2, ![4096, 16416]⟩
abbrev S8192x16416 : Shape := ⟨2, ![8192, 16416]⟩
abbrev S8192x16384 : Shape := ⟨2, ![8192, 16384]⟩
abbrev S8192x32 : Shape := ⟨2, ![8192, 32]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S16416x4096, .f32⟩
  | .hbm, ⟨5, _⟩ => ⟨S4096x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S4096x16416, .f32⟩
  | .hbm, ⟨37, _⟩ => ⟨S8192x16416, .f32⟩
  | .hbm, ⟨38, _⟩ => ⟨S8192x16384, .f32⟩
  | .hbm, ⟨39, _⟩ => ⟨S8192x32, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  transposes_S4096x4096_S4096x4096_1_0 : S4096x4096.Transposes [1, 0] S4096x4096
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S16416x4096_S4096x16416_1_0 : S16416x4096.Transposes [1, 0] S4096x16416
  slices_S8192x16416_S8192x16384_0_0 : S8192x16416.Slices ![0, 0] S8192x16384
  slices_S8192x16416_S8192x32_0_16384 : S8192x16416.Slices ![0, 16384] S8192x32
  dot_S8192x4096_S4096x4096_S8192x4096_1_0_0_1_n_n_wf : DotDims.WF S8192x4096 S4096x4096 S8192x4096 [1] [0] [0] [1] [] []
  dot_S8192x4096_S4096x16416_S8192x16416_1_0_0_1_n_n_wf : DotDims.WF S8192x4096 S4096x16416 S8192x16416 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x16416_S8192x16416_1_0_0_1_n_n : DotDims S8192x4096 S4096x16416 S8192x16416 where
  lhsContracting := [1]
  rhsContracting := [0]
  lhsNonContracting := [0]
  rhsNonContracting := [1]
  lhsBatch := []
  rhsBatch := []
  wf := dot_S8192x4096_S4096x16416_S8192x16416_1_0_0_1_n_n_wf

class Facts : Prop extends Facts₀ where

variable [Facts]
-- ==== Proof.K.Base.lean ====
/-
  What the two kernel regions' proofs share, at a parameter `V`: the TensorCore's buffer contents when a region is
  entered. A window's block at a grid point is its array's rectangle there; an input window's staging buffer holds
  that block at every point, fetched there or not. The first kernel branches on the contraction step `k = t mod 16`:
  it clears its accumulator at `k = 0` and writes its two results at `k = 15` only, so the two result windows are idle
  and not written back at the other points.
-/
import proofs.«119018_g80994493268145_cont_9to1c4b_172_30_alg».proof.Proof.Gen.Kernel.Launch
import proofs.«119018_g80994493268145_cont_9to1c4b_172_30_alg».proof.Proof.Gen.Kernel.Skeleton
import proofs.«119018_g80994493268145_cont_9to1c4b_172_30_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w` of the first kernel at point `t`: the rectangle of its array there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of the second kernel at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's buffer holds its block at every point -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The first kernel's two branches, over the grid -/

/-- The accumulator is cleared: the contraction step is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The results are written: the contraction step is the last. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the result windows are idle -/

theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The accumulator, and the rest of the scoped memory -/

/-- The first kernel's accumulator, a whole scoped buffer of its own. -/
abbrev scM0 : Memref sig .tc .vmem S1024x4096 .f32 := Memref.whole cc0_scratch0
/-- The accumulator as a view. -/
abbrev VS0 : View sig .tc .vmem S1024x4096 .f32 := scM0.view
/-- One staging buffer of each result window of the first kernel, through which its contents are stated. -/
abbrev VO0_5 : View sig .tc .vmem S1024x4096 .bf16 := (Memref.whole cc0_stg5_0 : Memref sig .tc .vmem S1024x4096 .bf16).view
abbrev VO0_6 : View sig .tc .vmem S1024x32 .f32 := (Memref.whole cc0_stg6_0 : Memref sig .tc .vmem S1024x32 .f32).view
/-- One staging buffer of the second kernel's result window. -/
abbrev VO1_2 : View sig .tc .vmem S1024x1024 .f32 := (Memref.whole cc1_stg2_0 : Memref sig .tc .vmem S1024x1024 .f32).view

/-- The scoped buffers the first kernel never touches (the second kernel's staging buffers), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant of the first region, opened: the accumulator owned at some contents, the untouched scoped
    buffers, the generator register at some state. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

end Cert.Kernel.Hand

end
-- ==== Proof.K.Run0.lean ====
/-
  The first kernel's body on whole staging buffers, in each of its three control cases. At the first contraction
  step the accumulator is cleared and then takes the step's product; at a middle step it is added to; at the last
  step it is added to and then read: the normalised rows go to the first result window and their product with the
  head weights to the second. Each run ends with the accumulator (and, at the last step, the two result buffers)
  written with the pieces the stores leave, last first.
-/
import proofs.«119018_g80994493268145_cont_9to1c4b_172_30_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## First step: clear, then accumulate -/

set_option maxHeartbeats 2000000 in
/-- Case A (the step is the first and not the last): the pieces the accumulator ends with. -/
noncomputable def kernelRun0_A (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : cond0_0 i) (hc1 : ¬cond0_1 i)
    (x0 : Vec F S1024x256 .f32) (x1 : Vec F S256x4096 .bf16) :
    { LS : List (View.Piece (Elt F) S1024x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc0__fc1_ln_kernel i arg2 harg2 arg3 harg3 arg4 harg4 arg5 harg5 arg6 harg6 arg7 harg7 arg8 harg8 arg9 harg9) K } := by
  refine ⟨?_, fun E K => ?run⟩
  case run =>
    simp only [cc0__fc1_ln_kernel_eq_skeleton]; unfold cc0__fc1_ln_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

/-! ## A middle step: accumulate -/

set_option maxHeartbeats 2000000 in
/-- Case B (the step is neither the first nor the last): the accumulator, found at `xs`, ends with these pieces. -/
noncomputable def kernelRun0_B (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : ¬cond0_1 i)
    (x0 : Vec F S1024x256 .f32) (x1 : Vec F S256x4096 .bf16) (xs : Vec F S1024x4096 .f32) :
    { LS : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg9 fullShare xs
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc0__fc1_ln_kernel i arg2 harg2 arg3 harg3 arg4 harg4 arg5 harg5 arg6 harg6 arg7 harg7 arg8 harg8 arg9 harg9) K } := by
  refine ⟨?_, fun E K => ?run⟩
  case run =>
    simp only [cc0__fc1_ln_kernel_eq_skeleton]; unfold cc0__fc1_ln_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

/-! ## Last step: accumulate, then write the results -/

set_option maxHeartbeats 4000000 in
/-- Case C (the step is the last and not the first): the pieces the two result buffers and the accumulator end with. -/
noncomputable def kernelRun0_C (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : cond0_1 i)
    (x0 : Vec F S1024x256 .f32) (x1 : Vec F S256x4096 .bf16) (x2 : Vec F S1x4096 .f32) (x3 : Vec F S1x4096 .f32) (x4 : Vec F S4096x32 .bf16) (xs : Vec F S1024x4096 .f32) :
    Σ' (L5 : List (View.Piece (Elt F) S1024x4096 .bf16)) (L6 : List (View.Piece (Elt F) S1024x32 .f32)), { LS : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0__fc1_ln_kernel i arg2 harg2 arg3 harg3 arg4 harg4 arg5 harg5 arg6 harg6 arg7 harg7 arg8 harg8 arg9 harg9) K } := by
  refine ⟨?_, ?_, ?_, fun E K => ?run⟩
  case run =>
    simp only [cc0__fc1_ln_kernel_eq_skeleton]; unfold cc0__fc1_ln_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS

end Cert.Kernel.Hand

end
-- ==== Proof.K.Pieces0.lean ====
/-
  What each run of the first kernel's body leaves, by name. The stores of a run are whole-buffer stores, so the last
  one into a buffer decides its contents: after the first step the accumulator holds the step's product added to the
  cleared accumulator; after a later step, the product added to what the step before left; at the last step the first
  result buffer holds the normalised rows of the finished accumulator and the second their product with the head
  weights.
-/
import proofs.«119018_g80994493268145_cont_9to1c4b_172_30_alg».proof.Proof.K.Run0
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole-buffer rectangle's offsets are zero. -/
theorem hz : (![0, 0] : Fin 2 → Nat) = fun _ => 0 := funext fun a => by fin_cases a <;> rfl

/-! ## The stores cover their buffers -/

theorem scoverA (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : cond0_0 i) (hc1 : ¬cond0_1 i)
    (x0 : Vec F S1024x256 .f32) (x1 : Vec F S256x4096 .bf16) (y : S1024x4096.Idx) : ∃ pc ∈ (kernelRun0_A c i arg2 harg2 arg3 harg3 arg4 harg4 arg5 harg5 arg6 harg6 arg7 harg7 arg8 harg8 arg9 harg9 hc0 hc1 x0 x1).1, y ∈ pc.1.set :=
  View.cover_of_tiledL (kernelRun0_A c i arg2 harg2 arg3 harg3 arg4 harg4 arg5 harg5 arg6 harg6 arg7 harg7 arg8 harg8 arg9 harg9 hc0 hc1 x0 x1).1 S1024x4096.size (by sl_kernel_rfl) y

theorem scoverB (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : ¬cond0_1 i)
    (x0 : Vec F S1024x256 .f32) (x1 : Vec F S256x4096 .bf16) (xs : Vec F S1024x4096 .f32) (y : S1024x4096.Idx) : ∃ pc ∈ (kernelRun0_B c i arg2 harg2 arg3 harg3 arg4 harg4 arg5 harg5 arg6 harg6 arg7 harg7 arg8 harg8 arg9 harg9 hc0 hc1 x0 x1 xs).1, y ∈ pc.1.set :=
  View.cover_of_tiledL (kernelRun0_B c i arg2 harg2 arg3 harg3 arg4 harg4 arg5 harg5 arg6 harg6 arg7 harg7 arg8 harg8 arg9 harg9 hc0 hc1 x0 x1 xs).1 S1024x4096.size (by sl_kernel_rfl) y

theorem scoverC (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : cond0_1 i)
    (x0 : Vec F S1024x256 .f32) (x1 : Vec F S256x4096 .bf16) (x2 : Vec F S1x4096 .f32) (x3 : Vec F S1x4096 .f32) (x4 : Vec F S4096x32 .bf16) (xs : Vec F S1024x4096 .f32) (y : S1024x4096.Idx) : ∃ pc ∈ (kernelRun0_C c i arg2 harg2 arg3 harg3 arg4 harg4 arg5 harg5 arg6 harg6 arg7 harg7 arg8 harg8 arg9 harg9 hc0 hc1 x0 x1 x2 x3 x4 xs).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs).2.2.1 S1024x4096.size (by sl_kernel_rfl) y

theorem cover5C (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : cond0_1 i)
    (x0 : Vec F S1024x256 .f32) (x1 : Vec F S256x4096 .bf16) (x2 : Vec F S1x4096 .f32) (x3 : Vec F S1x4096 .f32) (x4 : Vec F S4096x32 .bf16) (xs : Vec F S1024x4096 .f32) (y : S1024x4096.Idx) : ∃ pc ∈ (kernelRun0_C c i arg2 harg2 arg3 harg3 arg4 harg4 arg5 harg5 arg6 harg6 arg7 harg7 arg8 harg8 arg9 harg9 hc0 hc1 x0 x1 x2 x3 x4 xs).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs).1 S1024x4096.size (by sl_kernel_rfl) y

theorem cover6C (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : cond0_1 i)
    (x0 : Vec F S1024x256 .f32) (x1 : Vec F S256x4096 .bf16) (x2 : Vec F S1x4096 .f32) (x3 : Vec F S1x4096 .f32) (x4 : Vec F S4096x32 .bf16) (xs : Vec F S1024x4096 .f32) (y : S1024x32.Idx) : ∃ pc ∈ (kernelRun0_C c i arg2 harg2 arg3 harg3 arg4 harg4 arg5 harg5 arg6 harg6 arg7 harg7 arg8 harg8 arg9 harg9 hc0 hc1 x0 x1 x2 x3 x4 xs).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs).2.1 S1024x32.size (by sl_kernel_rfl) y

/-! ## What the buffers hold after each run -/

/-- After the first step: the step's product added to the cleared accumulator. -/
theorem soutA_eq (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : cond0_0 i) (hc1 : ¬cond0_1 i)
    (x0 : Vec F S1024x256 .f32) (x1 : Vec F S256x4096 .bf16) :
    VS0.read (Elt F) (VS0.writes (Elt F) VS0.junk (kernelRun0_A c i arg2 harg2 arg3 harg3 arg4 harg4 arg5 harg5 arg6 harg6 arg7 harg7 arg8 harg8 arg9 harg9 hc0 hc1 x0 x1).1) = k0_pay2 (k0_pay1 (F := F)) x0 x1 := by
  rw [View.read_writes_eq_canon _ _ _ (scoverA c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1024x4096) hz]
  simp only [View.readAt_eq_ld, harg2.read_unread, harg3.read_unread, harg4.read_unread, harg5.read_unread, harg6.read_unread, harg9.read_unread,
    View.ld_unit_zero (S := S1024x256) hz, View.ld_unit_zero (S := S256x4096) hz, View.ld_unit_zero (S := S1x4096) hz, View.ld_unit_zero (S := S4096x32) hz, View.ld_unit_zero (S := S1024x4096) hz, View.readCov_unit_zero (S := S1024x4096) _ hz]

/-- After a middle step: the product added to what the step before left. -/
theorem soutB_eq (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : ¬cond0_1 i)
    (x0 : Vec F S1024x256 .f32) (x1 : Vec F S256x4096 .bf16) (xs : Vec F S1024x4096 .f32) :
    VS0.read (Elt F) (VS0.writes (Elt F) VS0.junk (kernelRun0_B c i arg2 harg2 arg3 harg3 arg4 harg4 arg5 harg5 arg6 harg6 arg7 harg7 arg8 harg8 arg9 harg9 hc0 hc1 x0 x1 xs).1) = k0_pay2 xs x0 x1 := by
  rw [View.read_writes_eq_canon _ _ _ (scoverB c i arg2 harg2 arg3 harg3 arg4 harg4 arg5 harg5 arg6 harg6 arg7 harg7 arg8 harg8 arg9 harg9 hc0 hc1 x0 x1 xs)]
  unfold kernelRun0_B
  dsimp only
  sl_unfold_words
  rw [View.canon_unit_zero (S := S1024x4096) hz]
  simp only [View.readAt_eq_ld, harg2.read_unread, harg3.read_unread, harg4.read_unread, harg5.read_unread, harg6.read_unread, harg9.read_unread,
    View.ld_unit_zero (S := S1024x256) hz, View.ld_unit_zero (S := S256x4096) hz, View.ld_unit_zero (S := S1x4096) hz, View.ld_unit_zero (S := S4096x32) hz, View.ld_unit_zero (S := S1024x4096) hz]

/-- After the last step the accumulator holds the finished sum, -/
theorem soutC_eq (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : cond0_1 i)
    (x0 : Vec F S1024x256 .f32) (x1 : Vec F S256x4096 .bf16) (x2 : Vec F S1x4096 .f32) (x3 : Vec F S1x4096 .f32) (x4 : Vec F S4096x32 .bf16) (xs : Vec F S1024x4096 .f32) :
    VS0.read (Elt F) (VS0.writes (Elt F) VS0.junk (kernelRun0_C c i arg2 harg2 arg3 harg3 arg4 harg4 arg5 harg5 arg6 harg6 arg7 harg7 arg8 harg8 arg9 harg9 hc0 hc1 x0 x1 x2 x3 x4 xs).2.2.1) = k0_pay2 xs x0 x1 := by
  rw [View.read_writes_eq_canon _ _ _ (scoverC c i arg2 harg2 arg3 harg3 arg4 harg4 arg5 harg5 arg6 harg6 arg7 harg7 arg8 harg8 arg9 harg9 hc0 hc1 x0 x1 x2 x3 x4 xs)]
  unfold kernelRun0_C
  dsimp only
  sl_unfold_words
  rw [View.canon_unit_zero (S := S1024x4096) hz]
  simp only [View.readAt_eq_ld, harg2.read_unread, harg3.read_unread, harg4.read_unread, harg5.read_unread, harg6.read_unread, harg9.read_unread,
    View.ld_unit_zero (S := S1024x256) hz, View.ld_unit_zero (S := S256x4096) hz, View.ld_unit_zero (S := S1x4096) hz, View.ld_unit_zero (S := S4096x32) hz, View.ld_unit_zero (S := S1024x4096) hz]

/-- the first result buffer its normalised rows, -/
theorem out5C_eq (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : cond0_1 i)
    (x0 : Vec F S1024x256 .f32) (x1 : Vec F S256x4096 .bf16) (x2 : Vec F S1x4096 .f32) (x3 : Vec F S1x4096 .f32) (x4 : Vec F S4096x32 .bf16) (xs : Vec F S1024x4096 .f32) :
    VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xs).1) = k0_pay3 (k0_pay2 xs x0 x1) x2 x3 := by
  rw [View.read_writes_eq_canon _ _ _ (cover5C c i arg2 harg2 arg3 harg3 arg4 harg4 arg5 harg5 arg6 harg6 arg7 harg7 arg8 harg8 arg9 harg9 hc0 hc1 x0 x1 x2 x3 x4 xs)]
  unfold kernelRun0_C
  dsimp only
  sl_unfold_words
  rw [View.canon_unit_zero (S := S1024x4096) hz]
  simp only [View.readAt_eq_ld, harg2.read_unread, harg3.read_unread, harg4.read_unread, harg5.read_unread, harg6.read_unread, harg9.read_unread,
    View.ld_unit_zero (S := S1024x256) hz, View.ld_unit_zero (S := S256x4096) hz, View.ld_unit_zero (S := S1x4096) hz, View.ld_unit_zero (S := S4096x32) hz, View.ld_unit_zero (S := S1024x4096) hz, View.readCov_unit_zero (S := S1024x4096) _ hz]

/-- and the second their product with the head weights. -/
theorem out6C_eq (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : cond0_1 i)
    (x0 : Vec F S1024x256 .f32) (x1 : Vec F S256x4096 .bf16) (x2 : Vec F S1x4096 .f32) (x3 : Vec F S1x4096 .f32) (x4 : Vec F S4096x32 .bf16) (xs : Vec F S1024x4096 .f32) :
    VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 xs).2.1) = k0_pay4 (k0_pay2 xs x0 x1) x2 x3 x4 := by
  rw [View.read_writes_eq_canon _ _ _ (cover6C c i arg2 harg2 arg3 harg3 arg4 harg4 arg5 harg5 arg6 harg6 arg7 harg7 arg8 harg8 arg9 harg9 hc0 hc1 x0 x1 x2 x3 x4 xs)]
  unfold kernelRun0_C
  dsimp only
  sl_unfold_words
  rw [View.canon_unit_zero (S := S1024x32) hz]
  simp only [View.readAt_eq_ld, harg2.read_unread, harg3.read_unread, harg4.read_unread, harg5.read_unread, harg6.read_unread, harg9.read_unread,
    View.ld_unit_zero (S := S1024x256) hz, View.ld_unit_zero (S := S256x4096) hz, View.ld_unit_zero (S := S1x4096) hz, View.ld_unit_zero (S := S4096x32) hz, View.ld_unit_zero (S := S1024x4096) hz, View.readCov_unit_zero (S := S1024x4096) _ hz]

end Cert.Kernel.Hand

end
-- ==== Proof.K.Dat0.lean ====
/-
  The first kernel region at the entry contents `V`. Its accumulator is carried from one grid point to the next:
  at a point whose contraction step is the first it is cleared and takes that step's product; at every other point
  the product is added to what the point before left. The proof data name what it holds after every point
  (`accAt`), and state the two result buffers through it: the normalised rows of the accumulator and their product
  with the head weights (what the body stores there at the last step; at the other steps the result windows are idle
  and not written back, and nothing reads these values). The invariant before the first point is the class's (the
  accumulator at anything); before every later point it has the accumulator at `accAt` of the point before.
-/
import proofs.«119018_g80994493268145_cont_9to1c4b_172_30_alg».proof.Proof.K.Pieces0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the accumulator holds after each point -/

/-- The accumulator after the body at position `n`. -/
def accAt (c : Dev nD) : (n : ℕ) → n < cfg0.N → Vec F S1024x4096 .f32
  | 0, hn => k0_pay2 (k0_pay1 (F := F)) (iblk0 V c 0 ⟨0, hn⟩) (iblk0 V c 1 ⟨0, hn⟩)
  | n + 1, hn =>
    if (n + 1) % 16 = 0 then k0_pay2 (k0_pay1 (F := F)) (iblk0 V c 0 ⟨n + 1, hn⟩) (iblk0 V c 1 ⟨n + 1, hn⟩)
    else k0_pay2 (accAt c n (Nat.lt_of_succ_lt hn)) (iblk0 V c 0 ⟨n + 1, hn⟩) (iblk0 V c 1 ⟨n + 1, hn⟩)

/-- At a first contraction step: the step's product on the cleared accumulator. -/
theorem accAt_first (c : Dev nD) (t : Fin cfg0.N) (h0 : t.val % 16 = 0) :
    accAt V c t.val t.isLt = k0_pay2 (k0_pay1 (F := F)) (iblk0 V c 0 t) (iblk0 V c 1 t) := by
  obtain ⟨n, hn⟩ := t
  cases n with
  | zero => rfl
  | succ n => exact if_pos h0

/-- At a later step: the step's product on what the point before left. -/
theorem accAt_next (c : Dev nD) (t : Fin cfg0.N) (h0 : ¬t.val % 16 = 0) :
    accAt V c t.val t.isLt = k0_pay2 (accAt V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact if_neg h0

/-! ## The invariant -/

/-- Before position `n`: the class invariant before the first point; afterwards the accumulator at what the point
    before left, the untouched scoped buffers and the generator register. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ others0 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ others0 (F := F) c) ∗ (∃ r, prngReg c r)) := by
  cases n with
  | zero => exact absurd rfl hz
  | succ n => rfl

/-! ## The proof data -/

/-- The first region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (accAt V c t.val t.isLt) (iblk0 V c 2 t) (iblk0 V c 3 t)
    | ⟨6, _⟩ => k0_pay4 (accAt V c t.val t.isLt) (iblk0 V c 2 t) (iblk0 V c 3 t) (iblk0 V c 4 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay3 (accAt V c t.val t.isLt) (iblk0 V c 2 t) (iblk0 V c 3 t) := by dsimp only [dat0]
theorem after0_6 (c : Dev nD) (t : Fin cfg0.N) : (dat0 V c).after 6 t = k0_pay4 (accAt V c t.val t.isLt) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem liveAt0_in0 : ∀ t : Fin cfg0.N, cfg0.idle 0 (grid0.coords t) = false := fun _ => rfl
theorem liveAt0_in1 : ∀ t : Fin cfg0.N, cfg0.idle 1 (grid0.coords t) = false := fun _ => rfl
theorem liveAt0_in2 : ∀ t : Fin cfg0.N, cfg0.idle 2 (grid0.coords t) = false := fun _ => rfl
theorem liveAt0_in3 : ∀ t : Fin cfg0.N, cfg0.idle 3 (grid0.coords t) = false := fun _ => rfl
theorem liveAt0_in4 : ∀ t : Fin cfg0.N, cfg0.idle 4 (grid0.coords t) = false := fun _ => rfl

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' buffers hold their blocks; the step decides the case; the invariant hands the
    body the accumulator at what the point before left (at anything at the very first point) and takes it back at this
    point's contents; at the last step the two result buffers are taken back at the normalised rows and their product with
    the head weights, at the other steps untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (st0_0 t) fullShare ((dat0 V c).after 0 t) from by
    unfold Dat.leavesExact; rw [liveAt0_in0 t], after0_0]
  rw [show (dat0 V c).leavesExact 1 t = owns (c : Thread nD τ) (st0_1 t) fullShare ((dat0 V c).after 1 t) from by
    unfold Dat.leavesExact; rw [liveAt0_in1 t], after0_1]
  rw [show (dat0 V c).leavesExact 2 t = owns (c : Thread nD τ) (st0_2 t) fullShare ((dat0 V c).after 2 t) from by
    unfold Dat.leavesExact; rw [liveAt0_in2 t], after0_2]
  rw [show (dat0 V c).leavesExact 3 t = owns (c : Thread nD τ) (st0_3 t) fullShare ((dat0 V c).after 3 t) from by
    unfold Dat.leavesExact; rw [liveAt0_in3 t], after0_3]
  rw [show (dat0 V c).leavesExact 4 t = owns (c : Thread nD τ) (st0_4 t) fullShare ((dat0 V c).after 4 t) from by
    unfold Dat.leavesExact; rw [liveAt0_in4 t], after0_4]
  by_cases h1 : t.val % 16 = 15
  · -- the last step
    have h0 : ¬t.val % 16 = 0 := by omega
    have hz : t.val ≠ 0 := by omega
    rw [show (dat0 V c).leavesExact 5 t = owns (c : Thread nD τ) (st0_5 t) fullShare ((dat0 V c).after 5 t) from by
      unfold Dat.leavesExact; rw [liveAt0_5 t ((hcond0_1 t).mpr h1)], after0_5]
    rw [show (dat0 V c).leavesExact 6 t = owns (c : Thread nD τ) (st0_6 t) fullShare ((dat0 V c).after 6 t) from by
      unfold Dat.leavesExact; rw [liveAt0_6 t ((hcond0_1 t).mpr h1)], after0_6]
    rw [accAt_next V c t h0]
    rw [PhiS_castSucc V c t, PhiS_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, ⟨%es, HS⟩⟩
    isplitl [HS Hoth Hg]
    · isplitl [HS Hoth]
      · isplitl [HS]
        · unfold owns; iexists _; isplitr
          swap; · iexact HS
          ipureintro; exact (View.read_writes_of_cover _ _ VS0 VS0.junk _ (scoverC c _ _ _ _ _ _ _ _ _ _ _ _ _ _ _ _ _ _ _ _ _ _ _ _ _)).trans (soutC_eq c _ _ _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact (View.read_writes_of_cover _ _ VO0_5 VO0_5.junk _ (cover5C c _ _ _ _ _ _ _ _ _ _ _ _ _ _ _ _ _ _ _ _ _ _ _ _ _)).trans (out5C_eq c _ _ _ _ _ _ _ _ _ _ _ _ _ _ _ _ _ _ _ _ _ _ _ _ _)
    · unfold owns; iexists _; isplitr
      swap; · iexact H6
      ipureintro; exact (View.read_writes_of_cover _ _ VO0_6 VO0_6.junk _ (cover6C c _ _ _ _ _ _ _ _ _ _ _ _ _ _ _ _ _ _ _ _ _ _ _ _ _)).trans (out6C_eq c _ _ _ _ _ _ _ _ _ _ _ _ _ _ _ _ _ _ _ _ _ _ _ _ _)
  · -- not the last step: the result windows are idle and not written back
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    by_cases h0 : t.val % 16 = 0
    · -- the first step
      rw [accAt_first V c t h0]
      by_cases hz : t.val = 0
      · -- the very first point: the accumulator holds anything
        rw [PhiS_castSucc V c t, PhiS_zero V c _ _ hz, PhiA0_eq]
        iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t)).2 Set.univ _)
        isplitl [H0]; · iexact H0
        isplitl [H1]; · iexact H1
        isplitl [HS]; · iexact HS
        iintro ⟨H0, H1, ⟨%es, HS⟩⟩
        isplitl [HS Hoth Hg]
        · isplitl [HS Hoth]
          · isplitl [HS]
            · unfold owns; iexists _; isplitr
              swap; · iexact HS
              ipureintro; exact (View.read_writes_of_cover _ _ VS0 VS0.junk _ (scoverA c _ _ _ _ _ _ _ _ _ _ _ _ _ _ _ _ _ _ _ _ _)).trans (soutA_eq c _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      · -- a later first step: the accumulator holds what the row block before left
        rw [PhiS_castSucc V c t, PhiS_pos V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t)).2 Set.univ _)
        isplitl [H0]; · iexact H0
        isplitl [H1]; · iexact H1
        isplitl [HS]; · iexists _; iexact HS
        iintro ⟨H0, H1, ⟨%es, HS⟩⟩
        isplitl [HS Hoth Hg]
        · isplitl [HS Hoth]
          · isplitl [HS]
            · unfold owns; iexists _; isplitr
              swap; · iexact HS
              ipureintro; exact (View.read_writes_of_cover _ _ VS0 VS0.junk _ (scoverA c _ _ _ _ _ _ _ _ _ _ _ _ _ _ _ _ _ _ _ _ _)).trans (soutA_eq c _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
    · -- a middle step
      have hz : t.val ≠ 0 := fun e => h0 (by rw [e])
      rw [accAt_next V c t h0]
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact (View.read_writes_of_cover _ _ VS0 VS0.junk _ (scoverB c _ _ _ _ _ _ _ _ _ _ _ _ _ _ _ _ _ _ _ _ _ _)).trans (soutB_eq c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS, Hoth⟩, Hg⟩
  isplitl [HS Hoth]
  · isplitl [HS]
    · iexists _; iexact HS
    iexact Hoth
  iexact Hg

end Cert.Kernel.Hand

end
-- ==== Proof.K.Dat1.lean ====
/-
  The second kernel region at the entry contents `V`: at every grid point the body loads a block of normalised rows
  and a block of weight rows and stores their product, contracted over the hidden axis, into the result block. The
  proof data say so: each input buffer holds its block, the result buffer the product of the two blocks; the region
  keeps nothing between points.
-/
import proofs.«119018_g80994493268145_cont_9to1c4b_172_30_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The whole input block and the whole result block, as rectangles. -/
abbrev r1_in : Rect S1024x4096 := Rect.unit (s := S1024x4096) ![0, 0] S1024x4096.size inb_S1024x4096_S1024x4096_0_0
abbrev r1_out : Rect S1024x1024 := Rect.unit (s := S1024x1024) ![0, 0] S1024x1024.size inb_S1024x1024_S1024x1024_0_0

/-- The result buffer after the body, from the two input blocks: its one store. -/
def out1_2 (x0 : Vec F S1024x4096 .bf16) (x1 : Vec F S1024x4096 .bf16) : Vec F S1024x1024 .f32 :=
  View.canon [⟨r1_out, k1_pay1 (View.ld x0 r1_in) (View.ld x1 r1_in)⟩]

/-- The one store covers the buffer. -/
theorem cover1_2 (p0 : Vec F S1024x1024 .f32) (y : S1024x1024.Idx) :
    ∃ pc ∈ ([⟨r1_out, p0⟩] : List (View.Piece (Elt F) S1024x1024 .f32)), y ∈ pc.1.set :=
  View.cover_of_tiled [⟨r1_out, p0⟩] S1024x1024.size (by sl_kernel_rfl) y

set_option maxHeartbeats 2000000 in
/-- The body on whole staging buffers, the inputs at `x0`, `x1` and the result at anything, runs to the continuation
    with the inputs as they were and the result at `out1_2 x0 x1`. -/
theorem sound_kernel1 (c : Dev nD) (E : Set ℕ) (i : grid1.Coords) (arg2 : Memref sig .tc .vmem S1024x4096 .bf16) (harg2 : arg2.IsWhole) (arg3 : Memref sig .tc .vmem S1024x4096 .bf16) (harg3 : arg3.IsWhole) (arg4 : Memref sig .tc .vmem S1024x1024 .f32) (harg4 : arg4.IsWhole)
    (x0 : Vec F S1024x4096 .bf16) (x1 : Vec F S1024x4096 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__fc2_kernel i arg2 harg2 arg3 harg3 arg4 harg4) K := by
  simp only [cc1__fc2_kernel_eq_skeleton]; unfold cc1__fc2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The second region's proof data on core `c`: the arrays as the region finds them; each input buffer at its block,
    the result buffer at the two blocks' product; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Vals.lean ====
/-
  The TensorCore's unscoped buffers along the main function: at launch, and after the stretch of host operations that
  prepares the kernels' operands (the first weight matrix transposed, the second split into its neuron rows and its
  head rows transposed, the scale and shift vectors as rows).
-/
import proofs.«119018_g80994493268145_cont_9to1c4b_172_30_alg».proof.Proof.Gen.Kernel.Launch

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ)

/-- Core `c`'s unscoped buffers at launch. -/
abbrev W0 (c : Dev nD) : Valuation τ sig (Elt F) := fun b => m (c, b)
/-- After the host stretch: what the first kernel region is entered with. -/
abbrev W1 (c : Dev nD) : Valuation τ sig (Elt F) := StableHlo.after hostOps0 (W0 m c)
/-- The same read at the TensorCore's references. -/
abbrev V1 : (c : Dev nD) → (b : Ref sig .tc) → Buf (Elt F) ((c : Thread nD τ).loc b) := fun c b => W1 m c b

end Cert.Kernel.Hand

end
-- ==== Proof.LibRegionHeld.lean ====
/-
  A kernel region of a TensorCore program whose main function is followed through ONE valuation of the core's
  unscoped buffers.

  Between two items of such a program (a stretch of host operations, a kernel region) a core holds every unscoped
  TensorCore buffer whole, at a valuation `W c`, beside its generator register at some state and the fact that it
  owes nothing. A stretch of host operations moves the valuation along its fold. This file says what a kernel region
  does to it, as the pipeline library's region record:

    * at the entry the windows' arrays are cut out of the unscoped buffers, at the contents the proof data name
      for them (`hA`), the other unscoped buffers bypassing the region;
    * the generator register and the scoped buffers no window stages travel through the class invariant `ΦA`, from
      which the proof data's own invariant is reached at the first point (`hΦin`) and into which it falls back at
      the last (`hΦout`);
    * the body owes nothing at any point, holds every input array whole, and the kernel has no cell of its own;
    * at the exit the arrays return at what the write-backs leave, `Dat.arrAt · N`, and with the bypassing buffers
      they are the unscoped buffers again, whole at any valuation `W' c` that has the arrays there (`hF`) and
      agrees with `W c` everywhere else (`hrest`).

  The region is then entered from "the unscoped buffers at `W`" and left at "the unscoped buffers at `W'`", the
  same shape a host stretch is entered from and left at, so that the items of a main function chain by reflexivity.
-/
import Idealize.ShloMosaic.Lib.Pipeline.Kit
import Idealize.ShloMosaic.Lib.Pipeline.Frame
import Idealize.ShloMosaic.Lib.Pipeline.FrameSuffix
import Idealize.ShloMosaic.Lib.Pipeline.Regions
import Idealize.ShloMosaic.Lib.Pipeline.RegionsLoop

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

namespace Pipeline

open PCS
open Idealize.ShloMosaic.Rounds

variable {nD : Nat} {τ : Topo} {sig : RefSig} {Val : EltTy → Type} {Λ₀ : SL.Sem.Labels}

/-! ## A core that owes nothing, and a proof data's account of what it owes -/

section Owing

variable {Ix : Type} [DecidableEq Ix] {Name : Type} [DecidableEq Name] {U : Type} [URA U] {Lvl : Type}
variable {cfg : Cfg sig Λ₀} {c : Dev nD} (dat : Dat τ Val Ix Name U Lvl cfg c)

local notation "𝕄" => MT nD τ sig Ix Val Name U Lvl

/-- A core that owes nothing, whatever pairs its waits have recorded, is the proof data's account before point `t`
    when the data owe nothing there and put no bound on the recorded pairs. -/
theorem Dat.owesAt_of_owes_nothing (ι : Ix) (t : Fin (cfg.N + 1)) (h0 : dat.owed t = 0) (hrec : dat.recorded t = Set.univ) :
    (iprop(∃ S, owes (c : Thread nD τ) (0 : CellTallies nD τ sig Ix) S) : sProp 𝕄) ⊢ dat.owesAt ι t := by
  unfold Dat.owesAt owesWithin
  rw [h0]
  iintro ⟨%S, Howe⟩
  iexists S
  isplitr
  · ipureintro
    intro x _
    exact Or.inl (by rw [hrec]; exact Set.mem_univ x)
  iexact Howe

/-- Conversely the account before a point where the data owe nothing is a core that owes nothing. -/
theorem Dat.owes_nothing_of_owesAt (ι : Ix) (t : Fin (cfg.N + 1)) (h0 : dat.owed t = 0) :
    dat.owesAt ι t ⊢ (iprop(∃ S, owes (c : Thread nD τ) (0 : CellTallies nD τ sig Ix) S) : sProp 𝕄) := by
  unfold Dat.owesAt owesWithin
  rw [h0]
  iintro ⟨%S, -, Howe⟩
  iexists S
  iexact Howe

/-- A pipeline with no prefetched table holds none: there is nothing to ask for. -/
theorem emp_prefHeld_of_no_table (pre : Prefetch sig) (hK : pre.K = 0) (c : Dev nD) (q : Fin pre.K → PosShare TreeShare)
    (V : pre.Contents Val) : (BI.emp : sProp 𝕄) ⊢ prefHeld pre c q V := by
  haveI : IsEmpty (Fin pre.K) := ⟨fun k => absurd k.isLt (by omega)⟩
  unfold prefHeld
  rw [Finset.univ_eq_empty, BI.bigSep_empty]

end Owing

/-! ## The exit valuation: the entry valuation with the arrays replaced -/

section Exit

variable {gr : Nat} {Wn : Nat} (win : Fin Wn → WinSpec sig gr) (c : Dev nD) (V : Valuation τ sig Val)
  (A : (w : Fin Wn) → Buf Val ((win w).arr.view.loc (c : Thread nD τ)))

/-- `withArrays` has each array at the contents given for it (the arrays being distinct buffers), -/
theorem withArrays_hF (hinj : Function.Injective (arrRef win)) (w : Fin Wn) :
    A w = withArrays win c V A (Proc.devRef .tc (arrRef win w)) :=
  (withArrays_arr win hinj c V A w).symm

/-- and every buffer that is no window's array at the valuation it started from. -/
theorem withArrays_hrest (b : Ref sig .tc) (hb : b ∉ Finset.univ.image (arrRef win)) :
    withArrays win c V A (Proc.devRef .tc b) = V (Proc.devRef .tc b) :=
  withArrays_of_ne win c V A b fun w e => hb (Finset.mem_image.mpr ⟨w, Finset.mem_univ w, e⟩)

end Exit

/-! ## The thread state between two items, and the region over it -/

section Held

variable {U : Type} [URA U] {P : Type} [Fintype P]

local notation "𝕄" => MT nD τ sig Unit Val ℕ U ℕ

/-- What rides beside the unscoped buffers between two items of the main function: the core's generator register at
    some state, and the core owing nothing. -/
abbrev idleRest (c : Dev nD) : sProp 𝕄 :=
  iprop((∃ r, prngReg c r) ∗ ∃ S, owes (c : Thread nD τ) (0 : CellTallies nD τ sig Unit) S)

/-- The thread state between two items: every unscoped TensorCore buffer whole at the valuation, beside `idleRest`. -/
abbrev heldIdle (W : Dev nD → Valuation τ sig Val) (c : Dev nD) : sProp 𝕄 :=
  iprop(StableHlo.held (c : Thread nD τ) (ucRefs τ sig) (W c) ∗ idleRest c)

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

-- the library's lemmas on the arrays are stated over `pin pcs a p`; meeting them from a goal that names the pipeline's
-- own fields takes unfolding plain definitions inside types
set_option backward.isDefEq.respectTransparency.types false in
/-- THE REGION OVER A HELD VALUATION. Pipeline `p`'s region, entered from `heldIdle W` and left at `heldIdle W'`:
    given the layout the launch decides (`hw`, `hpos`, `harr`, `hstage`), no prefetched table to hold (`hpre`), the
    body obligation of proof data that hold every input array whole (`hq`), owe nothing (`howed`, `hrec`), enter
    at the arrays' contents under `W` (`hA`) and reach `W'` (`hF`, `hrest`), and whose invariant begins below and ends
    above the class invariant `ΦA` (`hΦin`, `hΦout`). The kernel has no semaphore of its own. -/
def RegionSeg.ofHeld (p : P)
    (hw : WinFacts (pin pcs a p).spec)
    (hpos : ∀ w : Fin (pin pcs a p).W, 0 < ((pin pcs a p).spec w).block.numel)
    (harr : ∀ w : Fin (pin pcs a p).W, ((pin pcs a p).spec w).arr.IsWhole)
    (hstage : ∀ (w : Fin (pin pcs a p).W) (s : Fin ((pin pcs a p).spec w).nbuf), (((pin pcs a p).spec w).stage s).IsWhole)
    (hpre : ∀ c : Dev nD, (BI.emp : sProp 𝕄) ⊢ prefHeld (pcs p).pre c (fun _ => fullShare) (a p).1)
    (hbody : ∀ c : Dev nD, BodyObligation (pdats p c) defs₀ 𝒱₀ () Set.univ)
    (hq : ∀ (c : Dev nD) (w : Fin (pin pcs a p).W), (pdats p c).q w = fullShare)
    (howed : ∀ (c : Dev nD) (t : Fin ((pin pcs a p).N + 1)), (pdats p c).owed t = 0)
    (hrec : ∀ c : Dev nD, (pdats p c).recorded 0 = Set.univ)
    (W W' : Dev nD → Valuation τ sig Val)
    (hA : ∀ (c : Dev nD) (w : Fin (pin pcs a p).W), (pdats p c).A w = W c (Proc.devRef .tc (arrRef (pin pcs a p).spec w)))
    (hF : ∀ (c : Dev nD) (w : Fin (pin pcs a p).W),
      (pdats p c).arrAt w (pin pcs a p).N = W' c (Proc.devRef .tc (arrRef (pin pcs a p).spec w)))
    (hrest : ∀ (c : Dev nD) (b : Ref sig .tc), b ∉ Finset.univ.image (arrRef (pin pcs a p).spec) →
      W' c (Proc.devRef .tc b) = W c (Proc.devRef .tc b))
    (hΦin : ∀ c : Dev nD, (ΦA (pin pcs a p).spec c : sProp 𝕄) ⊢ (pdats p c).Φ 0)
    (hΦout : ∀ c : Dev nD, (pdats p c).Φ (Fin.last (pin pcs a p).N) ⊢ (ΦA (pin pcs a p).spec c : sProp 𝕄)) :
    RegionSeg pcs a pdats () defs₀ 𝒱₀ L lv p where
  win := hw.to₀
  block_pos := hpos
  stage_whole := hstage
  K := PEmpty
  osem k := k.elim
  ho := OwnSemFacts.none _
  hbody c := (hbody c).loose
  hwaits := hwaits_of_owed_zero pcs a pdats () L lv p howed
  pre := heldIdle W
  post := heldIdle W'
  -- into the invariant and out of it: the generator register
  X c := iprop(∃ r, prngReg c r)
  Y c := iprop(∃ r, prngReg c r)
  -- past the region: the unscoped buffers that are no window's array, as entered
  Z c := unscopedRest (Ix := Unit) (Name := ℕ) (U := U) (Lvl := ℕ) (pin pcs a p).spec c (fun b => W c (Proc.devRef .tc b))
  hentry c := by
    have hcut : (StableHlo.held (c : Thread nD τ) (ucRefs τ sig) (W c) : sProp 𝕄)
        ⊢ iprop((pdats p c).arrays ((pdats p c).arrAt · 0)
            ∗ unscopedRest (pin pcs a p).spec c (fun b => W c (Proc.devRef .tc b))) := by
      rw [← unscopedBufs_held]
      exact arrays_of_unscopedBufs pcs a pdats hw harr c ((pdats p c).share_full (hq c))
        (fun b => W c (Proc.devRef .tc b)) (hA c)
    iintro ⟨⟨Hbufs, Hgen, Howe⟩, -, -⟩
    ihave Hsplit := hcut $$ Hbufs
    icases Hsplit with ⟨Harr, Hby⟩
    imodintro
    isplitl [Harr]; · iexact Harr
    isplitr
    · iapply (hpre c); iempintro
    isplitl [Howe]
    · iapply ((pdats p c).owesAt_of_owes_nothing () 0 (howed c 0) (hrec c)); iexact Howe
    isplitl [Hgen]; · iexact Hgen
    iexact Hby
  hin c := by
    refine Entails.trans ?_ (hΦin c)
    unfold ΦA
    iintro ⟨Hgen, -, Hsc⟩
    isplitl [Hsc]; · iexact Hsc
    iexact Hgen
  hout c := by
    refine (hΦout c).trans ?_
    rw [ownSems0_none]
    unfold ΦA
    iintro ⟨Hsc, Hgen⟩
    isplitl [Hgen]; · iexact Hgen
    isplitr; · iempintro
    iexact Hsc
  hexit c := by
    have hglue : iprop((pdats p c).arrays ((pdats p c).arrAt · (pin pcs a p).N)
            ∗ unscopedRest (pin pcs a p).spec c (fun b => W c (Proc.devRef .tc b)))
        ⊢ (StableHlo.held (c : Thread nD τ) (ucRefs τ sig) (W' c) : sProp 𝕄) := by
      rw [← unscopedBufs_held]
      exact unscopedBufs_of_arrays pcs a hw harr c pdats ((pdats p c).share_full (hq c))
        (fun b => W c (Proc.devRef .tc b)) (fun b => W' c (Proc.devRef .tc b))
        ((pdats p c).arrAt · (pin pcs a p).N) (hF c) (hrest c)
    iintro ⟨Harr, Howe, Hgen, Hby⟩
    imodintro
    isplitl [Harr Hby]
    · iapply hglue; isplitl [Harr] <;> iassumption
    isplitl [Hgen]; · iexact Hgen
    iapply ((pdats p c).owes_nothing_of_owesAt () _ (howed c _)); iexact Howe

end Held

end Pipeline

end Idealize.ShloMosaic

end
-- ==== Proof.K.Launch.lean ====
/-
  The whole run of the main function: a stretch of host operations, the first kernel region, the second kernel region.
  Between two items a core holds every unscoped buffer whole at a valuation, beside its generator register at some
  state and the fact that it owes nothing. The host stretch moves the valuation along its fold (`W0` to `W1`); a
  region replaces its windows' arrays by what its write-backs leave and keeps every other buffer (`W1` to `W2`, `W2`
  to `W3`). So at the end every unscoped buffer of the core holds `W3`: the arguments what they held at launch, the
  two results what the regions' write-backs left.
-/
import proofs.«119018_g80994493268145_cont_9to1c4b_172_30_alg».proof.Proof.K.Dat0
import proofs.«119018_g80994493268145_cont_9to1c4b_172_30_alg».proof.Proof.K.Dat1
import proofs.«119018_g80994493268145_cont_9to1c4b_172_30_alg».proof.Proof.K.Vals
import proofs.«119018_g80994493268145_cont_9to1c4b_172_30_alg».proof.Proof.LibRegionHeld
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents after each region -/

/-- After the first region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references: what the second region is entered with. -/
abbrev V2 : (c : Dev nD) → (b : Ref sig .tc) → Buf (Elt F) ((c : Thread nD τ).loc b) := fun c b => W2 m c b

/-- After the second region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-! ## The proof data family and the regions' records -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0

theorem hostOps0_fresh : (hostOps0 : List (HloOp τ sig (Elt F))).Forall fun op => op.fresh = ∅ := by
  simp only [List.Forall]; repeat' constructor

/-- The host stretch as a segment, from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (Pipeline.idleRest (U := UR sig nD τ))

set_option backward.isDefEq.respectTransparency.types false in
/-- The first region, entered from every unscoped buffer at `W1` and left at `W2`. -/
def reg0 : Pipeline.RegionSeg (pcfgs (F := F)) adm (pdats m) () defs₀ 𝒱₀ L lv 0 :=
  Pipeline.RegionSeg.ofHeld (pcfgs (F := F)) adm (pdats m) defs₀ 𝒱₀ L lv 0
    launch0.win launch0.block_pos launch0.arr_whole launch0.stage_whole
    (fun c => Pipeline.emp_prefHeld_of_no_table _ rfl c _ _)
    (fun c => body_obligation0 (V1 m) c)
    (fun c w => rfl) (fun c t => rfl) (fun c => rfl)
    (W1 m) (W2 m)
    (fun c w => rfl)
    (fun c w => (W2_arr m c w).symm)
    (fun c b hb => W2_of_ne m c b fun w e => hb (Finset.mem_image.mpr ⟨w, Finset.mem_univ _, e⟩))
    (fun c => hin0 (V1 m) c) (fun c => hout0 (V1 m) c)

set_option backward.isDefEq.respectTransparency.types false in
/-- The second region, entered at `W2` and left at `W3`; it keeps nothing between points. -/
def reg1 : Pipeline.RegionSeg (pcfgs (F := F)) adm (pdats m) () defs₀ 𝒱₀ L lv 1 :=
  Pipeline.RegionSeg.ofHeld (pcfgs (F := F)) adm (pdats m) defs₀ 𝒱₀ L lv 1
    launch1.win launch1.block_pos launch1.arr_whole launch1.stage_whole
    (fun c => Pipeline.emp_prefHeld_of_no_table _ rfl c _ _)
    (fun c => body_obligation1 (V2 m) c)
    (fun c w => rfl) (fun c t => rfl) (fun c => rfl)
    (W2 m) (W3 m)
    (fun c w => rfl)
    (fun c w => (W3_arr m c w).symm)
    (fun c b hb => W3_of_ne m c b fun w e => hb (Finset.mem_image.mpr ⟨w, Finset.mem_univ _, e⟩))
    (fun c => Idealize.SL.BI.Entails.refl _) (fun c => Idealize.SL.BI.Entails.refl _)

/-! ## The main function as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debt: every unscoped buffer at `W3`, the generator register at some state. -/
abbrev Tₙ (c : Dev nD) : sProp 𝕄 := iprop(StableHlo.held (c : Thread nD τ) (Pipeline.ucRefs τ sig) (W3 m c) ∗ ∃ r, prngReg c r)

set_option backward.isDefEq.respectTransparency.types false in
/-- THE RUN. From any memory with zero counters every weakly fair execution of the main function terminates, nothing
    faulting, and in every final state each unscoped buffer of each core holds `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Pipeline.heldIdle (U := UR sig nD τ) (W0 m)) (Tₙ := Tₙ m)
    (hch := ⟨fun _ => .rfl, fun _ => .rfl, fun _ => .rfl, fun c => by
      show iprop(StableHlo.held (c : Thread nD τ) (Pipeline.ucRefs τ sig) (W3 m c) ∗ ((∃ r, prngReg c r) ∗ ∃ S, owes (c : Thread nD τ) (0 : CellTallies nD τ sig Unit) S))
        ⊢ (iprop(Tₙ m c ∗ ∃ W, owes (c : Thread nD τ) (0 : CellTallies nD τ sig Unit) W) : sProp 𝕄)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-! ## What the final valuation holds -/

/-- No host operation writes a buffer outside its results. -/
theorem W1_of_arg (c : Dev nD) (b : Ref sig .tc) (hb : b ∉ ([main_v0, main_v1, main_v2, main_v3, main_v4, main_v5, main_v6, main_v7, main_v8] : List (Ref sig .tc))) :
    W1 m c (Proc.devRef .tc b) = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    simp only [List.mem_cons, List.mem_nil_iff, or_false, not_or] at hb
    obtain ⟨h0, h1, h2, h3, h4, h5, h6, h7, h8⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8⟩))

/-- The first argument is an input window's array of the first region: the region leaves it as entered. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_of_arg m c main_arg0 (by decide)

/-- Argument 1 is no window's array: every item leaves it as launched. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of_arg m c main_arg1 (by decide)

/-- Argument 2 is no window's array: every item leaves it as launched. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of_arg m c main_arg2 (by decide)

/-- Argument 3 is no window's array: every item leaves it as launched. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of_arg m c main_arg3 (by decide)

/-- Argument 4 is no window's array: every item leaves it as launched. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := W1_of_arg m c main_arg4 (by decide)

/-- The first result is the second region's output array. -/
theorem W3_main_v10 (c : Dev nD) : W3 m c (Proc.devRef .tc main_v10) = (dat1 (V2 m) c).arrAt 2 cfg1.N := W3_arr m c 2

/-- The second result is the first region's second output array, which the second region does not touch. -/
theorem W3_main_v9_1 (c : Dev nD) : W3 m c (Proc.devRef .tc main_v9_1) = (dat0 (V1 m) c).arrAt 6 cfg0.N :=
  (W3_of_ne m c main_v9_1 (by decide)).trans (W2_arr m c 6)

/-- What the second region reads: the first region's first output array, and the neuron weights as the host stretch left them. -/
theorem V2_main_v9_0 (c : Dev nD) : V2 m c main_v9_0 = (dat0 (V1 m) c).arrAt 5 cfg0.N := W2_arr m c 5
theorem V2_main_v3 (c : Dev nD) : V2 m c main_v3 = V1 m c main_v3 := W2_of_ne m c main_v3 (by decide)

/-! ## The frame -/

/-- Every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.Kernel.Hand

end
-- ==== Proof.KI.Base.lean ====
/-
  What the two kernel regions' proofs share, at a parameter `V`: the TensorCore's buffer contents when a region is
  entered. A window's block at a grid point is its array's rectangle there; an input window's staging buffer holds
  that block at every point, fetched there or not. The first kernel branches on the contraction step `k = t mod 16`:
  it clears its accumulator at `k = 0` and writes its two results at `k = 15` only, so the two result windows are idle
  and not written back at the other points.
-/
import proofs.«119018_g80994493268145_cont_9to1c4b_172_30_alg».proof.Proof.Gen.KernelIdeal.Launch
import proofs.«119018_g80994493268145_cont_9to1c4b_172_30_alg».proof.Proof.Gen.KernelIdeal.Skeleton
import proofs.«119018_g80994493268145_cont_9to1c4b_172_30_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w` of the first kernel at point `t`: the rectangle of its array there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of the second kernel at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's buffer holds its block at every point -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The first kernel's two branches, over the grid -/

/-- The accumulator is cleared: the contraction step is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The results are written: the contraction step is the last. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the result windows are idle -/

theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The accumulator, and the rest of the scoped memory -/

/-- The first kernel's accumulator, a whole scoped buffer of its own. -/
abbrev scM0 : Memref sig .tc .vmem S1024x4096 .f32 := Memref.whole cc0_scratch0
/-- The accumulator as a view. -/
abbrev VS0 : View sig .tc .vmem S1024x4096 .f32 := scM0.view
/-- One staging buffer of each result window of the first kernel, through which its contents are stated. -/
abbrev VO0_5 : View sig .tc .vmem S1024x4096 .bf16 := (Memref.whole cc0_stg5_0 : Memref sig .tc .vmem S1024x4096 .bf16).view
abbrev VO0_6 : View sig .tc .vmem S1024x32 .f32 := (Memref.whole cc0_stg6_0 : Memref sig .tc .vmem S1024x32 .f32).view
/-- One staging buffer of the second kernel's result window. -/
abbrev VO1_2 : View sig .tc .vmem S1024x1024 .f32 := (Memref.whole cc1_stg2_0 : Memref sig .tc .vmem S1024x1024 .f32).view

/-- The scoped buffers the first kernel never touches (the second kernel's staging buffers), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant of the first region, opened: the accumulator owned at some contents, the untouched scoped
    buffers, the generator register at some state. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

end Cert.KernelIdeal.Hand

end
-- ==== Proof.KI.Run0.lean ====
/-
  The first kernel's body on whole staging buffers, in each of its three control cases. At the first contraction
  step the accumulator is cleared and then takes the step's product; at a middle step it is added to; at the last
  step it is added to and then read: the normalised rows go to the first result window and their product with the
  head weights to the second. Each run ends with the accumulator (and, at the last step, the two result buffers)
  written with the pieces the stores leave, last first.
-/
import proofs.«119018_g80994493268145_cont_9to1c4b_172_30_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## First step: clear, then accumulate -/

set_option maxHeartbeats 2000000 in
/-- Case A (the step is the first and not the last): the pieces the accumulator ends with. -/
noncomputable def kernelRun0_A (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : cond0_0 i) (hc1 : ¬cond0_1 i)
    (x0 : Vec F S1024x256 .f32) (x1 : Vec F S256x4096 .bf16) :
    { LS : List (View.Piece (Elt F) S1024x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc0__fc1_ln_kernel i arg2 harg2 arg3 harg3 arg4 harg4 arg5 harg5 arg6 harg6 arg7 harg7 arg8 harg8 arg9 harg9) K } := by
  refine ⟨?_, fun E K => ?run⟩
  case run =>
    simp only [cc0__fc1_ln_kernel_eq_skeleton]; unfold cc0__fc1_ln_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

/-! ## A middle step: accumulate -/

set_option maxHeartbeats 2000000 in
/-- Case B (the step is neither the first nor the last): the accumulator, found at `xs`, ends with these pieces. -/
noncomputable def kernelRun0_B (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : ¬cond0_1 i)
    (x0 : Vec F S1024x256 .f32) (x1 : Vec F S256x4096 .bf16) (xs : Vec F S1024x4096 .f32) :
    { LS : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg9 fullShare xs
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc0__fc1_ln_kernel i arg2 harg2 arg3 harg3 arg4 harg4 arg5 harg5 arg6 harg6 arg7 harg7 arg8 harg8 arg9 harg9) K } := by
  refine ⟨?_, fun E K => ?run⟩
  case run =>
    simp only [cc0__fc1_ln_kernel_eq_skeleton]; unfold cc0__fc1_ln_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

/-! ## Last step: accumulate, then write the results -/

set_option maxHeartbeats 4000000 in
/-- Case C (the step is the last and not the first): the pieces the two result buffers and the accumulator end with. -/
noncomputable def kernelRun0_C (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : cond0_1 i)
    (x0 : Vec F S1024x256 .f32) (x1 : Vec F S256x4096 .bf16) (x2 : Vec F S1x4096 .f32) (x3 : Vec F S1x4096 .f32) (x4 : Vec F S4096x32 .bf16) (xs : Vec F S1024x4096 .f32) :
    Σ' (L5 : List (View.Piece (Elt F) S1024x4096 .bf16)) (L6 : List (View.Piece (Elt F) S1024x32 .f32)), { LS : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0__fc1_ln_kernel i arg2 harg2 arg3 harg3 arg4 harg4 arg5 harg5 arg6 harg6 arg7 harg7 arg8 harg8 arg9 harg9) K } := by
  refine ⟨?_, ?_, ?_, fun E K => ?run⟩
  case run =>
    simp only [cc0__fc1_ln_kernel_eq_skeleton]; unfold cc0__fc1_ln_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS

end Cert.KernelIdeal.Hand

end
-- ==== Proof.KI.Pieces0.lean ====
/-
  What each run of the first kernel's body leaves, by name. The stores of a run are whole-buffer stores, so the last
  one into a buffer decides its contents: after the first step the accumulator holds the step's product added to the
  cleared accumulator; after a later step, the product added to what the step before left; at the last step the first
  result buffer holds the normalised rows of the finished accumulator and the second their product with the head
  weights.
-/
import proofs.«119018_g80994493268145_cont_9to1c4b_172_30_alg».proof.Proof.KI.Run0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-buffer rectangle's offsets are zero. -/
theorem hz : (![0, 0] : Fin 2 → Nat) = fun _ => 0 := funext fun a => by fin_cases a <;> rfl

/-! ## The stores cover their buffers -/

theorem scoverA (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : cond0_0 i) (hc1 : ¬cond0_1 i)
    (x0 : Vec F S1024x256 .f32) (x1 : Vec F S256x4096 .bf16) (y : S1024x4096.Idx) : ∃ pc ∈ (kernelRun0_A c i arg2 harg2 arg3 harg3 arg4 harg4 arg5 harg5 arg6 harg6 arg7 harg7 arg8 harg8 arg9 harg9 hc0 hc1 x0 x1).1, y ∈ pc.1.set :=
  View.cover_of_tiledL (kernelRun0_A c i arg2 harg2 arg3 harg3 arg4 harg4 arg5 harg5 arg6 harg6 arg7 harg7 arg8 harg8 arg9 harg9 hc0 hc1 x0 x1).1 S1024x4096.size (by sl_kernel_rfl) y

theorem scoverB (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : ¬cond0_1 i)
    (x0 : Vec F S1024x256 .f32) (x1 : Vec F S256x4096 .bf16) (xs : Vec F S1024x4096 .f32) (y : S1024x4096.Idx) : ∃ pc ∈ (kernelRun0_B c i arg2 harg2 arg3 harg3 arg4 harg4 arg5 harg5 arg6 harg6 arg7 harg7 arg8 harg8 arg9 harg9 hc0 hc1 x0 x1 xs).1, y ∈ pc.1.set :=
  View.cover_of_tiledL (kernelRun0_B c i arg2 harg2 arg3 harg3 arg4 harg4 arg5 harg5 arg6 harg6 arg7 harg7 arg8 harg8 arg9 harg9 hc0 hc1 x0 x1 xs).1 S1024x4096.size (by sl_kernel_rfl) y

theorem scoverC (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : cond0_1 i)
    (x0 : Vec F S1024x256 .f32) (x1 : Vec F S256x4096 .bf16) (x2 : Vec F S1x4096 .f32) (x3 : Vec F S1x4096 .f32) (x4 : Vec F S4096x32 .bf16) (xs : Vec F S1024x4096 .f32) (y : S1024x4096.Idx) : ∃ pc ∈ (kernelRun0_C c i arg2 harg2 arg3 harg3 arg4 harg4 arg5 harg5 arg6 harg6 arg7 harg7 arg8 harg8 arg9 harg9 hc0 hc1 x0 x1 x2 x3 x4 xs).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs).2.2.1 S1024x4096.size (by sl_kernel_rfl) y

theorem cover5C (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : cond0_1 i)
    (x0 : Vec F S1024x256 .f32) (x1 : Vec F S256x4096 .bf16) (x2 : Vec F S1x4096 .f32) (x3 : Vec F S1x4096 .f32) (x4 : Vec F S4096x32 .bf16) (xs : Vec F S1024x4096 .f32) (y : S1024x4096.Idx) : ∃ pc ∈ (kernelRun0_C c i arg2 harg2 arg3 harg3 arg4 harg4 arg5 harg5 arg6 harg6 arg7 harg7 arg8 harg8 arg9 harg9 hc0 hc1 x0 x1 x2 x3 x4 xs).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs).1 S1024x4096.size (by sl_kernel_rfl) y

theorem cover6C (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : cond0_1 i)
    (x0 : Vec F S1024x256 .f32) (x1 : Vec F S256x4096 .bf16) (x2 : Vec F S1x4096 .f32) (x3 : Vec F S1x4096 .f32) (x4 : Vec F S4096x32 .bf16) (xs : Vec F S1024x4096 .f32) (y : S1024x32.Idx) : ∃ pc ∈ (kernelRun0_C c i arg2 harg2 arg3 harg3 arg4 harg4 arg5 harg5 arg6 harg6 arg7 harg7 arg8 harg8 arg9 harg9 hc0 hc1 x0 x1 x2 x3 x4 xs).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs).2.1 S1024x32.size (by sl_kernel_rfl) y

/-! ## What the buffers hold after each run -/

/-- After the first step: the step's product added to the cleared accumulator. -/
theorem soutA_eq (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : cond0_0 i) (hc1 : ¬cond0_1 i)
    (x0 : Vec F S1024x256 .f32) (x1 : Vec F S256x4096 .bf16) :
    VS0.read (Elt F) (VS0.writes (Elt F) VS0.junk (kernelRun0_A c i arg2 harg2 arg3 harg3 arg4 harg4 arg5 harg5 arg6 harg6 arg7 harg7 arg8 harg8 arg9 harg9 hc0 hc1 x0 x1).1) = k0_pay2 (k0_pay1 (F := F)) x0 x1 := by
  rw [View.read_writes_eq_canon _ _ _ (scoverA c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1024x4096) hz]
  simp only [View.readAt_eq_ld, harg2.read_unread, harg3.read_unread, harg4.read_unread, harg5.read_unread, harg6.read_unread, harg9.read_unread,
    View.ld_unit_zero (S := S1024x256) hz, View.ld_unit_zero (S := S256x4096) hz, View.ld_unit_zero (S := S1x4096) hz, View.ld_unit_zero (S := S4096x32) hz, View.ld_unit_zero (S := S1024x4096) hz, View.readCov_unit_zero (S := S1024x4096) _ hz]

/-- After a middle step: the product added to what the step before left. -/
theorem soutB_eq (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : ¬cond0_1 i)
    (x0 : Vec F S1024x256 .f32) (x1 : Vec F S256x4096 .bf16) (xs : Vec F S1024x4096 .f32) :
    VS0.read (Elt F) (VS0.writes (Elt F) VS0.junk (kernelRun0_B c i arg2 harg2 arg3 harg3 arg4 harg4 arg5 harg5 arg6 harg6 arg7 harg7 arg8 harg8 arg9 harg9 hc0 hc1 x0 x1 xs).1) = k0_pay2 xs x0 x1 := by
  rw [View.read_writes_eq_canon _ _ _ (scoverB c i arg2 harg2 arg3 harg3 arg4 harg4 arg5 harg5 arg6 harg6 arg7 harg7 arg8 harg8 arg9 harg9 hc0 hc1 x0 x1 xs)]
  unfold kernelRun0_B
  dsimp only
  sl_unfold_words
  rw [View.canon_unit_zero (S := S1024x4096) hz]
  simp only [View.readAt_eq_ld, harg2.read_unread, harg3.read_unread, harg4.read_unread, harg5.read_unread, harg6.read_unread, harg9.read_unread,
    View.ld_unit_zero (S := S1024x256) hz, View.ld_unit_zero (S := S256x4096) hz, View.ld_unit_zero (S := S1x4096) hz, View.ld_unit_zero (S := S4096x32) hz, View.ld_unit_zero (S := S1024x4096) hz]

/-- After the last step the accumulator holds the finished sum, -/
theorem soutC_eq (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : cond0_1 i)
    (x0 : Vec F S1024x256 .f32) (x1 : Vec F S256x4096 .bf16) (x2 : Vec F S1x4096 .f32) (x3 : Vec F S1x4096 .f32) (x4 : Vec F S4096x32 .bf16) (xs : Vec F S1024x4096 .f32) :
    VS0.read (Elt F) (VS0.writes (Elt F) VS0.junk (kernelRun0_C c i arg2 harg2 arg3 harg3 arg4 harg4 arg5 harg5 arg6 harg6 arg7 harg7 arg8 harg8 arg9 harg9 hc0 hc1 x0 x1 x2 x3 x4 xs).2.2.1) = k0_pay2 xs x0 x1 := by
  rw [View.read_writes_eq_canon _ _ _ (scoverC c i arg2 harg2 arg3 harg3 arg4 harg4 arg5 harg5 arg6 harg6 arg7 harg7 arg8 harg8 arg9 harg9 hc0 hc1 x0 x1 x2 x3 x4 xs)]
  unfold kernelRun0_C
  dsimp only
  sl_unfold_words
  rw [View.canon_unit_zero (S := S1024x4096) hz]
  simp only [View.readAt_eq_ld, harg2.read_unread, harg3.read_unread, harg4.read_unread, harg5.read_unread, harg6.read_unread, harg9.read_unread,
    View.ld_unit_zero (S := S1024x256) hz, View.ld_unit_zero (S := S256x4096) hz, View.ld_unit_zero (S := S1x4096) hz, View.ld_unit_zero (S := S4096x32) hz, View.ld_unit_zero (S := S1024x4096) hz]

/-- the first result buffer its normalised rows, -/
theorem out5C_eq (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : cond0_1 i)
    (x0 : Vec F S1024x256 .f32) (x1 : Vec F S256x4096 .bf16) (x2 : Vec F S1x4096 .f32) (x3 : Vec F S1x4096 .f32) (x4 : Vec F S4096x32 .bf16) (xs : Vec F S1024x4096 .f32) :
    VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xs).1) = k0_pay3 (k0_pay2 xs x0 x1) x2 x3 := by
  rw [View.read_writes_eq_canon _ _ _ (cover5C c i arg2 harg2 arg3 harg3 arg4 harg4 arg5 harg5 arg6 harg6 arg7 harg7 arg8 harg8 arg9 harg9 hc0 hc1 x0 x1 x2 x3 x4 xs)]
  unfold kernelRun0_C
  dsimp only
  sl_unfold_words
  rw [View.canon_unit_zero (S := S1024x4096) hz]
  simp only [View.readAt_eq_ld, harg2.read_unread, harg3.read_unread, harg4.read_unread, harg5.read_unread, harg6.read_unread, harg9.read_unread,
    View.ld_unit_zero (S := S1024x256) hz, View.ld_unit_zero (S := S256x4096) hz, View.ld_unit_zero (S := S1x4096) hz, View.ld_unit_zero (S := S4096x32) hz, View.ld_unit_zero (S := S1024x4096) hz, View.readCov_unit_zero (S := S1024x4096) _ hz]

/-- and the second their product with the head weights. -/
theorem out6C_eq (c : Dev nD) (i : grid0.Coords) (arg2 : Memref sig .tc .vmem S1024x256 .f32) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x32 .bf16) (harg6 : arg6.IsWhole) (arg7 : Memref sig .tc .vmem S1024x4096 .bf16) (harg7 : arg7.IsWhole) (arg8 : Memref sig .tc .vmem S1024x32 .f32) (harg8 : arg8.IsWhole) (arg9 : Memref sig .tc .vmem S1024x4096 .f32) (harg9 : arg9.IsWhole) (hc0 : ¬cond0_0 i) (hc1 : cond0_1 i)
    (x0 : Vec F S1024x256 .f32) (x1 : Vec F S256x4096 .bf16) (x2 : Vec F S1x4096 .f32) (x3 : Vec F S1x4096 .f32) (x4 : Vec F S4096x32 .bf16) (xs : Vec F S1024x4096 .f32) :
    VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 xs).2.1) = k0_pay4 (k0_pay2 xs x0 x1) x2 x3 x4 := by
  rw [View.read_writes_eq_canon _ _ _ (cover6C c i arg2 harg2 arg3 harg3 arg4 harg4 arg5 harg5 arg6 harg6 arg7 harg7 arg8 harg8 arg9 harg9 hc0 hc1 x0 x1 x2 x3 x4 xs)]
  unfold kernelRun0_C
  dsimp only
  sl_unfold_words
  rw [View.canon_unit_zero (S := S1024x32) hz]
  simp only [View.readAt_eq_ld, harg2.read_unread, harg3.read_unread, harg4.read_unread, harg5.read_unread, harg6.read_unread, harg9.read_unread,
    View.ld_unit_zero (S := S1024x256) hz, View.ld_unit_zero (S := S256x4096) hz, View.ld_unit_zero (S := S1x4096) hz, View.ld_unit_zero (S := S4096x32) hz, View.ld_unit_zero (S := S1024x4096) hz, View.readCov_unit_zero (S := S1024x4096) _ hz]

end Cert.KernelIdeal.Hand

end
-- ==== Proof.KI.Dat0.lean ====
/-
  The first kernel region at the entry contents `V`. Its accumulator is carried from one grid point to the next:
  at a point whose contraction step is the first it is cleared and takes that step's product; at every other point
  the product is added to what the point before left. The proof data name what it holds after every point
  (`accAt`), and state the two result buffers through it: the normalised rows of the accumulator and their product
  with the head weights (what the body stores there at the last step; at the other steps the result windows are idle
  and not written back, and nothing reads these values). The invariant before the first point is the class's (the
  accumulator at anything); before every later point it has the accumulator at `accAt` of the point before.
-/
import proofs.«119018_g80994493268145_cont_9to1c4b_172_30_alg».proof.Proof.KI.Pieces0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the accumulator holds after each point -/

/-- The accumulator after the body at position `n`. -/
def accAt (c : Dev nD) : (n : ℕ) → n < cfg0.N → Vec F S1024x4096 .f32
  | 0, hn => k0_pay2 (k0_pay1 (F := F)) (iblk0 V c 0 ⟨0, hn⟩) (iblk0 V c 1 ⟨0, hn⟩)
  | n + 1, hn =>
    if (n + 1) % 16 = 0 then k0_pay2 (k0_pay1 (F := F)) (iblk0 V c 0 ⟨n + 1, hn⟩) (iblk0 V c 1 ⟨n + 1, hn⟩)
    else k0_pay2 (accAt c n (Nat.lt_of_succ_lt hn)) (iblk0 V c 0 ⟨n + 1, hn⟩) (iblk0 V c 1 ⟨n + 1, hn⟩)

/-- At a first contraction step: the step's product on the cleared accumulator. -/
theorem accAt_first (c : Dev nD) (t : Fin cfg0.N) (h0 : t.val % 16 = 0) :
    accAt V c t.val t.isLt = k0_pay2 (k0_pay1 (F := F)) (iblk0 V c 0 t) (iblk0 V c 1 t) := by
  obtain ⟨n, hn⟩ := t
  cases n with
  | zero => rfl
  | succ n => exact if_pos h0

/-- At a later step: the step's product on what the point before left. -/
theorem accAt_next (c : Dev nD) (t : Fin cfg0.N) (h0 : ¬t.val % 16 = 0) :
    accAt V c t.val t.isLt = k0_pay2 (accAt V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact if_neg h0

/-! ## The invariant -/

/-- Before position `n`: the class invariant before the first point; afterwards the accumulator at what the point
    before left, the untouched scoped buffers and the generator register. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ others0 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ others0 (F := F) c) ∗ (∃ r, prngReg c r)) := by
  cases n with
  | zero => exact absurd rfl hz
  | succ n => rfl

/-! ## The proof data -/

/-- The first region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (accAt V c t.val t.isLt) (iblk0 V c 2 t) (iblk0 V c 3 t)
    | ⟨6, _⟩ => k0_pay4 (accAt V c t.val t.isLt) (iblk0 V c 2 t) (iblk0 V c 3 t) (iblk0 V c 4 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay3 (accAt V c t.val t.isLt) (iblk0 V c 2 t) (iblk0 V c 3 t) := by dsimp only [dat0]
theorem after0_6 (c : Dev nD) (t : Fin cfg0.N) : (dat0 V c).after 6 t = k0_pay4 (accAt V c t.val t.isLt) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem liveAt0_in0 : ∀ t : Fin cfg0.N, cfg0.idle 0 (grid0.coords t) = false := fun _ => rfl
theorem liveAt0_in1 : ∀ t : Fin cfg0.N, cfg0.idle 1 (grid0.coords t) = false := fun _ => rfl
theorem liveAt0_in2 : ∀ t : Fin cfg0.N, cfg0.idle 2 (grid0.coords t) = false := fun _ => rfl
theorem liveAt0_in3 : ∀ t : Fin cfg0.N, cfg0.idle 3 (grid0.coords t) = false := fun _ => rfl
theorem liveAt0_in4 : ∀ t : Fin cfg0.N, cfg0.idle 4 (grid0.coords t) = false := fun _ => rfl

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' buffers hold their blocks; the step decides the case; the invariant hands the
    body the accumulator at what the point before left (at anything at the very first point) and takes it back at this
    point's contents; at the last step the two result buffers are taken back at the normalised rows and their product with
    the head weights, at the other steps untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (st0_0 t) fullShare ((dat0 V c).after 0 t) from by
    unfold Dat.leavesExact; rw [liveAt0_in0 t], after0_0]
  rw [show (dat0 V c).leavesExact 1 t = owns (c : Thread nD τ) (st0_1 t) fullShare ((dat0 V c).after 1 t) from by
    unfold Dat.leavesExact; rw [liveAt0_in1 t], after0_1]
  rw [show (dat0 V c).leavesExact 2 t = owns (c : Thread nD τ) (st0_2 t) fullShare ((dat0 V c).after 2 t) from by
    unfold Dat.leavesExact; rw [liveAt0_in2 t], after0_2]
  rw [show (dat0 V c).leavesExact 3 t = owns (c : Thread nD τ) (st0_3 t) fullShare ((dat0 V c).after 3 t) from by
    unfold Dat.leavesExact; rw [liveAt0_in3 t], after0_3]
  rw [show (dat0 V c).leavesExact 4 t = owns (c : Thread nD τ) (st0_4 t) fullShare ((dat0 V c).after 4 t) from by
    unfold Dat.leavesExact; rw [liveAt0_in4 t], after0_4]
  by_cases h1 : t.val % 16 = 15
  · -- the last step
    have h0 : ¬t.val % 16 = 0 := by omega
    have hz : t.val ≠ 0 := by omega
    rw [show (dat0 V c).leavesExact 5 t = owns (c : Thread nD τ) (st0_5 t) fullShare ((dat0 V c).after 5 t) from by
      unfold Dat.leavesExact; rw [liveAt0_5 t ((hcond0_1 t).mpr h1)], after0_5]
    rw [show (dat0 V c).leavesExact 6 t = owns (c : Thread nD τ) (st0_6 t) fullShare ((dat0 V c).after 6 t) from by
      unfold Dat.leavesExact; rw [liveAt0_6 t ((hcond0_1 t).mpr h1)], after0_6]
    rw [accAt_next V c t h0]
    rw [PhiS_castSucc V c t, PhiS_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, ⟨%es, HS⟩⟩
    isplitl [HS Hoth Hg]
    · isplitl [HS Hoth]
      · isplitl [HS]
        · unfold owns; iexists _; isplitr
          swap; · iexact HS
          ipureintro; exact (View.read_writes_of_cover _ _ VS0 VS0.junk _ (scoverC c _ _ _ _ _ _ _ _ _ _ _ _ _ _ _ _ _ _ _ _ _ _ _ _ _)).trans (soutC_eq c _ _ _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact (View.read_writes_of_cover _ _ VO0_5 VO0_5.junk _ (cover5C c _ _ _ _ _ _ _ _ _ _ _ _ _ _ _ _ _ _ _ _ _ _ _ _ _)).trans (out5C_eq c _ _ _ _ _ _ _ _ _ _ _ _ _ _ _ _ _ _ _ _ _ _ _ _ _)
    · unfold owns; iexists _; isplitr
      swap; · iexact H6
      ipureintro; exact (View.read_writes_of_cover _ _ VO0_6 VO0_6.junk _ (cover6C c _ _ _ _ _ _ _ _ _ _ _ _ _ _ _ _ _ _ _ _ _ _ _ _ _)).trans (out6C_eq c _ _ _ _ _ _ _ _ _ _ _ _ _ _ _ _ _ _ _ _ _ _ _ _ _)
  · -- not the last step: the result windows are idle and not written back
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    by_cases h0 : t.val % 16 = 0
    · -- the first step
      rw [accAt_first V c t h0]
      by_cases hz : t.val = 0
      · -- the very first point: the accumulator holds anything
        rw [PhiS_castSucc V c t, PhiS_zero V c _ _ hz, PhiA0_eq]
        iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t)).2 Set.univ _)
        isplitl [H0]; · iexact H0
        isplitl [H1]; · iexact H1
        isplitl [HS]; · iexact HS
        iintro ⟨H0, H1, ⟨%es, HS⟩⟩
        isplitl [HS Hoth Hg]
        · isplitl [HS Hoth]
          · isplitl [HS]
            · unfold owns; iexists _; isplitr
              swap; · iexact HS
              ipureintro; exact (View.read_writes_of_cover _ _ VS0 VS0.junk _ (scoverA c _ _ _ _ _ _ _ _ _ _ _ _ _ _ _ _ _ _ _ _ _)).trans (soutA_eq c _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      · -- a later first step: the accumulator holds what the row block before left
        rw [PhiS_castSucc V c t, PhiS_pos V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t)).2 Set.univ _)
        isplitl [H0]; · iexact H0
        isplitl [H1]; · iexact H1
        isplitl [HS]; · iexists _; iexact HS
        iintro ⟨H0, H1, ⟨%es, HS⟩⟩
        isplitl [HS Hoth Hg]
        · isplitl [HS Hoth]
          · isplitl [HS]
            · unfold owns; iexists _; isplitr
              swap; · iexact HS
              ipureintro; exact (View.read_writes_of_cover _ _ VS0 VS0.junk _ (scoverA c _ _ _ _ _ _ _ _ _ _ _ _ _ _ _ _ _ _ _ _ _)).trans (soutA_eq c _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
    · -- a middle step
      have hz : t.val ≠ 0 := fun e => h0 (by rw [e])
      rw [accAt_next V c t h0]
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact (View.read_writes_of_cover _ _ VS0 VS0.junk _ (scoverB c _ _ _ _ _ _ _ _ _ _ _ _ _ _ _ _ _ _ _ _ _ _)).trans (soutB_eq c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS, Hoth⟩, Hg⟩
  isplitl [HS Hoth]
  · isplitl [HS]
    · iexists _; iexact HS
    iexact Hoth
  iexact Hg

end Cert.KernelIdeal.Hand

end
-- ==== Proof.KI.Dat1.lean ====
/-
  The second kernel region at the entry contents `V`: at every grid point the body loads a block of normalised rows
  and a block of weight rows and stores their product, contracted over the hidden axis, into the result block. The
  proof data say so: each input buffer holds its block, the result buffer the product of the two blocks; the region
  keeps nothing between points.
-/
import proofs.«119018_g80994493268145_cont_9to1c4b_172_30_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The whole input block and the whole result block, as rectangles. -/
abbrev r1_in : Rect S1024x4096 := Rect.unit (s := S1024x4096) ![0, 0] S1024x4096.size inb_S1024x4096_S1024x4096_0_0
abbrev r1_out : Rect S1024x1024 := Rect.unit (s := S1024x1024) ![0, 0] S1024x1024.size inb_S1024x1024_S1024x1024_0_0

/-- The result buffer after the body, from the two input blocks: its one store. -/
def out1_2 (x0 : Vec F S1024x4096 .bf16) (x1 : Vec F S1024x4096 .bf16) : Vec F S1024x1024 .f32 :=
  View.canon [⟨r1_out, k1_pay1 (View.ld x0 r1_in) (View.ld x1 r1_in)⟩]

/-- The one store covers the buffer. -/
theorem cover1_2 (p0 : Vec F S1024x1024 .f32) (y : S1024x1024.Idx) :
    ∃ pc ∈ ([⟨r1_out, p0⟩] : List (View.Piece (Elt F) S1024x1024 .f32)), y ∈ pc.1.set :=
  View.cover_of_tiled [⟨r1_out, p0⟩] S1024x1024.size (by sl_kernel_rfl) y

set_option maxHeartbeats 2000000 in
/-- The body on whole staging buffers, the inputs at `x0`, `x1` and the result at anything, runs to the continuation
    with the inputs as they were and the result at `out1_2 x0 x1`. -/
theorem sound_kernel1 (c : Dev nD) (E : Set ℕ) (i : grid1.Coords) (arg2 : Memref sig .tc .vmem S1024x4096 .bf16) (harg2 : arg2.IsWhole) (arg3 : Memref sig .tc .vmem S1024x4096 .bf16) (harg3 : arg3.IsWhole) (arg4 : Memref sig .tc .vmem S1024x1024 .f32) (harg4 : arg4.IsWhole)
    (x0 : Vec F S1024x4096 .bf16) (x1 : Vec F S1024x4096 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__fc2_kernel i arg2 harg2 arg3 harg3 arg4 harg4) K := by
  simp only [cc1__fc2_kernel_eq_skeleton]; unfold cc1__fc2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The second region's proof data on core `c`: the arrays as the region finds them; each input buffer at its block,
    the result buffer at the two blocks' product; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Vals.lean ====
/-
  The TensorCore's unscoped buffers along the main function: at launch, and after the stretch of host operations that
  prepares the kernels' operands (the first weight matrix transposed, the second split into its neuron rows and its
  head rows transposed, the scale and shift vectors as rows).
-/
import proofs.«119018_g80994493268145_cont_9to1c4b_172_30_alg».proof.Proof.Gen.KernelIdeal.Launch

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- Core `c`'s unscoped buffers at launch. -/
abbrev W0 (c : Dev nD) : Valuation τ sig (Elt F) := fun b => m (c, b)
/-- After the host stretch: what the first kernel region is entered with. -/
abbrev W1 (c : Dev nD) : Valuation τ sig (Elt F) := StableHlo.after hostOps0 (W0 m c)
/-- The same read at the TensorCore's references. -/
abbrev V1 : (c : Dev nD) → (b : Ref sig .tc) → Buf (Elt F) ((c : Thread nD τ).loc b) := fun c b => W1 m c b

end Cert.KernelIdeal.Hand

end
-- ==== Proof.KI.Launch.lean ====
/-
  The whole run of the main function: a stretch of host operations, the first kernel region, the second kernel region.
  Between two items a core holds every unscoped buffer whole at a valuation, beside its generator register at some
  state and the fact that it owes nothing. The host stretch moves the valuation along its fold (`W0` to `W1`); a
  region replaces its windows' arrays by what its write-backs leave and keeps every other buffer (`W1` to `W2`, `W2`
  to `W3`). So at the end every unscoped buffer of the core holds `W3`: the arguments what they held at launch, the
  two results what the regions' write-backs left.
-/
import proofs.«119018_g80994493268145_cont_9to1c4b_172_30_alg».proof.Proof.KI.Dat0
import proofs.«119018_g80994493268145_cont_9to1c4b_172_30_alg».proof.Proof.KI.Dat1
import proofs.«119018_g80994493268145_cont_9to1c4b_172_30_alg».proof.Proof.KI.Vals
import proofs.«119018_g80994493268145_cont_9to1c4b_172_30_alg».proof.Proof.LibRegionHeld
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents after each region -/

/-- After the first region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references: what the second region is entered with. -/
abbrev V2 : (c : Dev nD) → (b : Ref sig .tc) → Buf (Elt F) ((c : Thread nD τ).loc b) := fun c b => W2 m c b

/-- After the second region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-! ## The proof data family and the regions' records -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0

theorem hostOps0_fresh : (hostOps0 : List (HloOp τ sig (Elt F))).Forall fun op => op.fresh = ∅ := by
  simp only [List.Forall]; repeat' constructor

/-- The host stretch as a segment, from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (Pipeline.idleRest (U := UR sig nD τ))

set_option backward.isDefEq.respectTransparency.types false in
/-- The first region, entered from every unscoped buffer at `W1` and left at `W2`. -/
def reg0 : Pipeline.RegionSeg (pcfgs (F := F)) adm (pdats m) () defs₀ 𝒱₀ L lv 0 :=
  Pipeline.RegionSeg.ofHeld (pcfgs (F := F)) adm (pdats m) defs₀ 𝒱₀ L lv 0
    launch0.win launch0.block_pos launch0.arr_whole launch0.stage_whole
    (fun c => Pipeline.emp_prefHeld_of_no_table _ rfl c _ _)
    (fun c => body_obligation0 (V1 m) c)
    (fun c w => rfl) (fun c t => rfl) (fun c => rfl)
    (W1 m) (W2 m)
    (fun c w => rfl)
    (fun c w => (W2_arr m c w).symm)
    (fun c b hb => W2_of_ne m c b fun w e => hb (Finset.mem_image.mpr ⟨w, Finset.mem_univ _, e⟩))
    (fun c => hin0 (V1 m) c) (fun c => hout0 (V1 m) c)

set_option backward.isDefEq.respectTransparency.types false in
/-- The second region, entered at `W2` and left at `W3`; it keeps nothing between points. -/
def reg1 : Pipeline.RegionSeg (pcfgs (F := F)) adm (pdats m) () defs₀ 𝒱₀ L lv 1 :=
  Pipeline.RegionSeg.ofHeld (pcfgs (F := F)) adm (pdats m) defs₀ 𝒱₀ L lv 1
    launch1.win launch1.block_pos launch1.arr_whole launch1.stage_whole
    (fun c => Pipeline.emp_prefHeld_of_no_table _ rfl c _ _)
    (fun c => body_obligation1 (V2 m) c)
    (fun c w => rfl) (fun c t => rfl) (fun c => rfl)
    (W2 m) (W3 m)
    (fun c w => rfl)
    (fun c w => (W3_arr m c w).symm)
    (fun c b hb => W3_of_ne m c b fun w e => hb (Finset.mem_image.mpr ⟨w, Finset.mem_univ _, e⟩))
    (fun c => Idealize.SL.BI.Entails.refl _) (fun c => Idealize.SL.BI.Entails.refl _)

/-! ## The main function as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debt: every unscoped buffer at `W3`, the generator register at some state. -/
abbrev Tₙ (c : Dev nD) : sProp 𝕄 := iprop(StableHlo.held (c : Thread nD τ) (Pipeline.ucRefs τ sig) (W3 m c) ∗ ∃ r, prngReg c r)

set_option backward.isDefEq.respectTransparency.types false in
/-- THE RUN. From any memory with zero counters every weakly fair execution of the main function terminates, nothing
    faulting, and in every final state each unscoped buffer of each core holds `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Pipeline.heldIdle (U := UR sig nD τ) (W0 m)) (Tₙ := Tₙ m)
    (hch := ⟨fun _ => .rfl, fun _ => .rfl, fun _ => .rfl, fun c => by
      show iprop(StableHlo.held (c : Thread nD τ) (Pipeline.ucRefs τ sig) (W3 m c) ∗ ((∃ r, prngReg c r) ∗ ∃ S, owes (c : Thread nD τ) (0 : CellTallies nD τ sig Unit) S))
        ⊢ (iprop(Tₙ m c ∗ ∃ W, owes (c : Thread nD τ) (0 : CellTallies nD τ sig Unit) W) : sProp 𝕄)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-! ## What the final valuation holds -/

/-- No host operation writes a buffer outside its results. -/
theorem W1_of_arg (c : Dev nD) (b : Ref sig .tc) (hb : b ∉ ([main_v0, main_v1, main_v2, main_v3, main_v4, main_v5, main_v6, main_v7, main_v8] : List (Ref sig .tc))) :
    W1 m c (Proc.devRef .tc b) = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    simp only [List.mem_cons, List.mem_nil_iff, or_false, not_or] at hb
    obtain ⟨h0, h1, h2, h3, h4, h5, h6, h7, h8⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8⟩))

/-- The first argument is an input window's array of the first region: the region leaves it as entered. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_of_arg m c main_arg0 (by decide)

/-- Argument 1 is no window's array: every item leaves it as launched. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of_arg m c main_arg1 (by decide)

/-- Argument 2 is no window's array: every item leaves it as launched. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of_arg m c main_arg2 (by decide)

/-- Argument 3 is no window's array: every item leaves it as launched. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of_arg m c main_arg3 (by decide)

/-- Argument 4 is no window's array: every item leaves it as launched. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := W1_of_arg m c main_arg4 (by decide)

/-- The first result is the second region's output array. -/
theorem W3_main_v10 (c : Dev nD) : W3 m c (Proc.devRef .tc main_v10) = (dat1 (V2 m) c).arrAt 2 cfg1.N := W3_arr m c 2

/-- The second result is the first region's second output array, which the second region does not touch. -/
theorem W3_main_v9_1 (c : Dev nD) : W3 m c (Proc.devRef .tc main_v9_1) = (dat0 (V1 m) c).arrAt 6 cfg0.N :=
  (W3_of_ne m c main_v9_1 (by decide)).trans (W2_arr m c 6)

/-- What the second region reads: the first region's first output array, and the neuron weights as the host stretch left them. -/
theorem V2_main_v9_0 (c : Dev nD) : V2 m c main_v9_0 = (dat0 (V1 m) c).arrAt 5 cfg0.N := W2_arr m c 5
theorem V2_main_v3 (c : Dev nD) : V2 m c main_v3 = V1 m c main_v3 := W2_of_ne m c main_v3 (by decide)

/-! ## The frame -/

/-- Every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.KernelIdeal.Hand

end
-- ==== Proof.Spec.lean ====
/-
  The mathematics both programs compute, over the extended reals, with no program in sight.

  A row `h` of 4096 numbers is normalised: `μ = (Σ h) / 4096`, `d = h − μ`, `σ² = (Σ d²) / 4096`, and the result is
  `d · s · γ + β` where `s` is the reciprocal root of `σ² + ε`. One program multiplies by the reciprocal square root
  (`lnK`), the other divides by the square root (`lnR`). When the row is finite the variance is a non-negative real,
  `σ² + ε` a positive real, and the two are the same number: `d · (√v)⁻¹ = d / √v`.

  The hidden rows are `x · W1ᵀ`, finite when `x` and `W1` are; the outputs are the normalised rows times `W2ᵀ`.
  A sum over 4096 contraction coordinates is the sum over 16 blocks of 256 (addition on the extended reals is
  commutative and associative), which is how one program accumulates it.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The row length, as the programs' literal. -/
abbrev cN : EReal := Ideal.ofBits .f32 0x45800000#32
/-- The variance's offset, as the programs' literal. -/
abbrev cEps : EReal := Ideal.ofBits .f32 0x3727C5AC#32

/-- The row length is the real number 4096. -/
theorem cN_eq : cN = ((4096 : ℝ) : EReal) := by
  simp [cN, Ideal.ofBits, Ideal.ieee, -EReal.coe_mul]; norm_num

/-- The variance's offset is a positive real number. -/
theorem cEps_pos : ∃ e : ℝ, 0 < e ∧ cEps = (e : EReal) := by
  simp [cEps, Ideal.ofBits, Ideal.ieee, -EReal.coe_mul]

/-- A finite sum of real numbers, taken in the extended reals, is the real sum. -/
theorem coe_sum {ι : Type*} (s : Finset ι) (g : ι → ℝ) :
    ∑ i ∈ s, (g i : EReal) = ((∑ i ∈ s, g i : ℝ) : EReal) := by
  classical
  induction s using Finset.induction_on with
  | empty => simp
  | insert i s hi ih => rw [Finset.sum_insert hi, Finset.sum_insert hi, ih, EReal.coe_add]

/-- A row's mean. -/
def mean (h : Fin 4096 → EReal) : EReal := Ideal.div (∑ j, h j) cN
/-- A row's deviation from its mean. -/
def dev (h : Fin 4096 → EReal) (j : Fin 4096) : EReal := h j - mean h
/-- A row's variance. -/
def var (h : Fin 4096 → EReal) : EReal := Ideal.div (∑ j, dev h j * dev h j) cN

/-- The normalised row, multiplying by the reciprocal square root. -/
def lnK (h γ β : Fin 4096 → EReal) (j : Fin 4096) : EReal :=
  dev h j * Ideal.rsqrt (var h + cEps) * γ j + β j

/-- The normalised row, dividing by the square root. -/
def lnR (h γ β : Fin 4096 → EReal) (j : Fin 4096) : EReal :=
  Ideal.div (dev h j) (Ideal.sqrt (var h + cEps)) * γ j + β j

/-- The hidden row `r`: `x`'s row against every row of `W1`. -/
def hid (x : Fin 8192 → Fin 4096 → EReal) (w1 : Fin 4096 → Fin 4096 → EReal) (r : Fin 8192) (j : Fin 4096) : EReal :=
  ∑ k : Fin 4096, x r k * w1 j k

/-- The output at row `r`, column `n`, by the first form. -/
def outK (x : Fin 8192 → Fin 4096 → EReal) (w1 : Fin 4096 → Fin 4096 → EReal) (γ β : Fin 4096 → EReal)
    (w2 : Fin 16416 → Fin 4096 → EReal) (r : Fin 8192) (n : Fin 16416) : EReal :=
  ∑ j : Fin 4096, lnK (hid x w1 r) γ β j * w2 n j

/-- The output at row `r`, column `n`, by the second form. -/
def outR (x : Fin 8192 → Fin 4096 → EReal) (w1 : Fin 4096 → Fin 4096 → EReal) (γ β : Fin 4096 → EReal)
    (w2 : Fin 16416 → Fin 4096 → EReal) (r : Fin 8192) (n : Fin 16416) : EReal :=
  ∑ j : Fin 4096, lnR (hid x w1 r) γ β j * w2 n j

/-- A finite dot product of reals is a real. -/
theorem hid_real (x : Fin 8192 → Fin 4096 → EReal) (w1 : Fin 4096 → Fin 4096 → EReal)
    (hx : ∀ r k, ∃ a : ℝ, x r k = (a : EReal)) (hw : ∀ j k, ∃ a : ℝ, w1 j k = (a : EReal)) (r : Fin 8192) (j : Fin 4096) :
    ∃ a : ℝ, hid x w1 r j = (a : EReal) := by
  choose a ha using hx
  choose b hb using hw
  refine ⟨∑ k : Fin 4096, a r k * b j k, ?_⟩
  unfold hid
  rw [← coe_sum]
  refine Finset.sum_congr rfl fun k _ => ?_
  rw [ha, hb, EReal.coe_mul]

/-- On a finite row the two normalisations agree. -/
theorem lnK_eq_lnR (h γ β : Fin 4096 → EReal) (hh : ∀ j, ∃ a : ℝ, h j = (a : EReal)) : lnK h γ β = lnR h γ β := by
  choose g hg using hh
  obtain rfl : h = fun j => (g j : EReal) := funext hg
  -- the mean is a real number
  have hmean : mean (fun j => (g j : EReal)) = (((∑ j, g j) * (1 / 4096) : ℝ) : EReal) := by
    unfold mean
    rw [cN_eq, Ideal.div_coe (by norm_num), coe_sum, EReal.coe_mul]
  -- so is every deviation
  have hdev : ∀ j, dev (fun j => (g j : EReal)) j = ((g j - (∑ j, g j) * (1 / 4096) : ℝ) : EReal) := by
    intro j
    unfold dev
    rw [hmean, EReal.coe_sub]
  -- and the variance, a sum of squares over a positive number
  have hvar : var (fun j => (g j : EReal))
      = (((∑ j, (g j - (∑ j, g j) * (1 / 4096)) * (g j - (∑ j, g j) * (1 / 4096))) * (1 / 4096) : ℝ) : EReal) := by
    unfold var
    rw [cN_eq, Ideal.div_coe (by norm_num), EReal.coe_mul, ← coe_sum]
    refine congrArg (· * ((1 / 4096 : ℝ) : EReal)) ?_
    refine Finset.sum_congr rfl fun j _ => ?_
    rw [hdev, EReal.coe_mul]
  obtain ⟨e, he, hce⟩ := cEps_pos
  have hv : 0 < (∑ j, (g j - (∑ j, g j) * (1 / 4096)) * (g j - (∑ j, g j) * (1 / 4096))) * (1 / 4096) + e := by
    have : 0 ≤ ∑ j, (g j - (∑ j, g j) * (1 / 4096)) * (g j - (∑ j, g j) * (1 / 4096)) :=
      Finset.sum_nonneg fun j _ => mul_self_nonneg _
    positivity
  have hve : var (fun j => (g j : EReal)) + cEps
      = (((∑ j, (g j - (∑ j, g j) * (1 / 4096)) * (g j - (∑ j, g j) * (1 / 4096))) * (1 / 4096) + e : ℝ) : EReal) := by
    rw [hvar, hce, ← EReal.coe_add]
  -- the reciprocal root of a positive real is the reciprocal of its root
  funext j
  unfold lnK lnR
  rw [hve, Ideal.rsqrt_coe, Ideal.sqrt_coe, if_neg (not_lt.2 hv.le), if_neg hv.ne', if_neg (not_lt.2 hv.le),
    Ideal.div_coe (Real.sqrt_ne_zero'.2 hv), inv_eq_one_div]

/-- So on finite `x` and `W1` the two outputs agree. -/
theorem outK_eq_outR (x : Fin 8192 → Fin 4096 → EReal) (w1 : Fin 4096 → Fin 4096 → EReal) (γ β : Fin 4096 → EReal)
    (w2 : Fin 16416 → Fin 4096 → EReal)
    (hx : ∀ r k, ∃ a : ℝ, x r k = (a : EReal)) (hw : ∀ j k, ∃ a : ℝ, w1 j k = (a : EReal)) :
    outK x w1 γ β w2 = outR x w1 γ β w2 := by
  funext r n
  unfold outK outR
  rw [lnK_eq_lnR _ γ β (hid_real x w1 hx hw r)]

/-- A sum over 4096 coordinates, 16 blocks of 256 at a time. -/
theorem sum_blocks {M : Type*} [AddCommMonoid M] (f : Fin 4096 → M) :
    ∑ k : Fin 4096, f k = ∑ kb : Fin 16, ∑ kk : Fin 256, f ⟨256 * kb.val + kk.val, by have := kb.isLt; have := kk.isLt; omega⟩ := by
  calc ∑ k : Fin 4096, f k
      = ∑ p : Fin 16 × Fin 256, f (finProdFinEquiv p) := (Equiv.sum_comp (finProdFinEquiv (m := 16) (n := 256)) f).symm
    _ = ∑ kb : Fin 16, ∑ kk : Fin 256, f (finProdFinEquiv (kb, kk)) := Fintype.sum_prod_type _
    _ = _ := by
      refine Finset.sum_congr rfl fun kb _ => Finset.sum_congr rfl fun kk _ => ?_
      refine congrArg f (Fin.ext ?_)
      show kk.val + 256 * kb.val = 256 * kb.val + kk.val
      exact Nat.add_comm _ _

/-- The same as a running sum: the first `n` blocks. -/
def blocksUpTo {M : Type*} [AddCommMonoid M] (f : Fin 4096 → M) (n : ℕ) : M :=
  ∑ kb ∈ Finset.range n, if h : kb < 16 then ∑ kk : Fin 256, f ⟨256 * kb + kk.val, by have := kk.isLt; omega⟩ else 0

theorem blocksUpTo_zero {M : Type*} [AddCommMonoid M] (f : Fin 4096 → M) : blocksUpTo f 0 = 0 := by
  unfold blocksUpTo; simp

theorem blocksUpTo_succ {M : Type*} [AddCommMonoid M] (f : Fin 4096 → M) (n : ℕ) (hn : n < 16) :
    blocksUpTo f (n + 1) = blocksUpTo f n + ∑ kk : Fin 256, f ⟨256 * n + kk.val, by have := kk.isLt; omega⟩ := by
  unfold blocksUpTo; rw [Finset.sum_range_succ, dif_pos hn]

theorem blocksUpTo_all {M : Type*} [AddCommMonoid M] (f : Fin 4096 → M) : blocksUpTo f 16 = ∑ k : Fin 4096, f k := by
  unfold blocksUpTo
  rw [sum_blocks, Finset.sum_range]
  refine Finset.sum_congr rfl fun kb _ => ?_
  rw [dif_pos kb.isLt]

end Cert.Spec

end
-- ==== Proof.KI.Pay.lean ====
/-
  The two kernels' stored values, read at an index.

  Each store of the two kernels writes a pure term over the values loaded before it. Read at a row and a column, each
  term is a formula of ordinary mathematics: zero; an accumulator plus a block's partial dot product; a row's
  normalisation; a normalised row against a column of weights; a row against a row of weights.
-/
import proofs.«119018_g80994493268145_cont_9to1c4b_172_30_alg».proof.Proof.Gen.KernelIdeal.Skeleton
import proofs.«119018_g80994493268145_cont_9to1c4b_172_30_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The zero fill -/

/-- The first store fills the accumulator with zero. -/
theorem pay1_apply (i : S1024x4096.Idx) : k0_pay1 (F := Ideal) i = 0 := by
  unfold k0_pay1
  rw [shapeCast_self]
  exact Ideal.ofBits_zero_f32

/-! ## The block's partial product: rows by columns, 256 terms -/

theorem lhsA_0 (i : S1024x4096.Idx) (q : dot_S1024x256_S256x4096_S1024x4096_1_0_0_1_n_n.contr.Idx) :
    (dot_S1024x256_S256x4096_S1024x4096_1_0_0_1_n_n.lhsIdx i q 0).val = (i 0).val := by
  unfold DotDims.lhsIdx
  rw [dif_neg (show ¬(0 : Fin S1024x256.rank) ∈ dot_S1024x256_S256x4096_S1024x4096_1_0_0_1_n_n.lhsBatch by decide), dif_pos (show (0 : Fin S1024x256.rank) ∈ dot_S1024x256_S256x4096_S1024x4096_1_0_0_1_n_n.lhsNonContracting by decide)]
  rfl
theorem lhsA_1 (i : S1024x4096.Idx) (q : dot_S1024x256_S256x4096_S1024x4096_1_0_0_1_n_n.contr.Idx) :
    (dot_S1024x256_S256x4096_S1024x4096_1_0_0_1_n_n.lhsIdx i q 1).val = (q ⟨0, by decide⟩).val :=
  dot_S1024x256_S256x4096_S1024x4096_1_0_0_1_n_n.lhsIdx_val_of_single rfl i q
theorem rhsA_0 (i : S1024x4096.Idx) (q : dot_S1024x256_S256x4096_S1024x4096_1_0_0_1_n_n.contr.Idx) :
    (dot_S1024x256_S256x4096_S1024x4096_1_0_0_1_n_n.rhsIdx i q 0).val = (q ⟨0, by decide⟩).val :=
  dot_S1024x256_S256x4096_S1024x4096_1_0_0_1_n_n.rhsIdx_val_of_single rfl i q
theorem rhsA_1 (i : S1024x4096.Idx) (q : dot_S1024x256_S256x4096_S1024x4096_1_0_0_1_n_n.contr.Idx) :
    (dot_S1024x256_S256x4096_S1024x4096_1_0_0_1_n_n.rhsIdx i q 1).val = (i 1).val := by
  unfold DotDims.rhsIdx
  rw [dif_neg (show ¬(1 : Fin S256x4096.rank) ∈ dot_S1024x256_S256x4096_S1024x4096_1_0_0_1_n_n.rhsBatch by decide), dif_pos (show (1 : Fin S256x4096.rank) ∈ dot_S1024x256_S256x4096_S1024x4096_1_0_0_1_n_n.rhsNonContracting by decide)]
  rfl

/-- The block product into the zero accumulator, at a row and a column. -/
theorem dotA_apply (l : FVec Ideal S1024x256 .bf16) (w : FVec Ideal S256x4096 .bf16) (r : Fin 1024) (j : Fin 4096) :
    matmul (F := Ideal) dot_S1024x256_S256x4096_S1024x4096_1_0_0_1_n_n none l w (constant S1024x4096 .f32 0x00000000#32) (ix2 r j)
      = ∑ kk : Fin 256, l (ix2 r kk) * w (ix2 kk j) := by
  simp only [matmul]
  rw [Ideal.matmul_constant_zero_apply, ← Equiv.sum_comp (contrEquiv1 dot_S1024x256_S256x4096_S1024x4096_1_0_0_1_n_n 256 rfl rfl).symm]
  refine Finset.sum_congr rfl fun k _ => ?_
  have hk := contrEquiv1_symm_val dot_S1024x256_S256x4096_S1024x4096_1_0_0_1_n_n 256 rfl rfl k
  have el : dot_S1024x256_S256x4096_S1024x4096_1_0_0_1_n_n.lhsIdx (ix2 r j) ((contrEquiv1 dot_S1024x256_S256x4096_S1024x4096_1_0_0_1_n_n 256 rfl rfl).symm k) = ix2 r k := funext fun a => Fin.ext (by
    match a with
    | ⟨0, _⟩ => exact lhsA_0 _ _
    | ⟨1, _⟩ => exact (lhsA_1 _ _).trans hk)
  have er : dot_S1024x256_S256x4096_S1024x4096_1_0_0_1_n_n.rhsIdx (ix2 r j) ((contrEquiv1 dot_S1024x256_S256x4096_S1024x4096_1_0_0_1_n_n 256 rfl rfl).symm k) = ix2 k j := funext fun a => Fin.ext (by
    match a with
    | ⟨0, _⟩ => exact (rhsA_0 _ _).trans hk
    | ⟨1, _⟩ => exact rhsA_1 _ _)
  rw [el, er]

/-- The second store adds the block's partial product to the accumulator. -/
theorem pay2_apply (v3 : Vec Ideal S1024x4096 .f32) (v4 : Vec Ideal S1024x256 .f32) (v6 : Vec Ideal S256x4096 .bf16) (r : Fin 1024) (j : Fin 4096) :
    k0_pay2 v3 v4 v6 (ix2 r j) = v3 (ix2 r j) + ∑ kk : Fin 256, v4 (ix2 r kk) * v6 (ix2 kk j) := by
  unfold k0_pay2
  rw [shapeCast_self, shapeCast_self, addf_apply, dotA_apply]
  rfl

/-! ## The second kernel: a row against a row, 4096 terms -/

theorem lhsC_0 (i : S1024x1024.Idx) (q : dot_S1024x4096_S1024x4096_S1024x1024_1_1_0_0_n_n.contr.Idx) :
    (dot_S1024x4096_S1024x4096_S1024x1024_1_1_0_0_n_n.lhsIdx i q 0).val = (i 0).val := by
  unfold DotDims.lhsIdx
  rw [dif_neg (show ¬(0 : Fin S1024x4096.rank) ∈ dot_S1024x4096_S1024x4096_S1024x1024_1_1_0_0_n_n.lhsBatch by decide), dif_pos (show (0 : Fin S1024x4096.rank) ∈ dot_S1024x4096_S1024x4096_S1024x1024_1_1_0_0_n_n.lhsNonContracting by decide)]
  rfl
theorem lhsC_1 (i : S1024x1024.Idx) (q : dot_S1024x4096_S1024x4096_S1024x1024_1_1_0_0_n_n.contr.Idx) :
    (dot_S1024x4096_S1024x4096_S1024x1024_1_1_0_0_n_n.lhsIdx i q 1).val = (q ⟨0, by decide⟩).val :=
  dot_S1024x4096_S1024x4096_S1024x1024_1_1_0_0_n_n.lhsIdx_val_of_single rfl i q
theorem rhsC_0 (i : S1024x1024.Idx) (q : dot_S1024x4096_S1024x4096_S1024x1024_1_1_0_0_n_n.contr.Idx) :
    (dot_S1024x4096_S1024x4096_S1024x1024_1_1_0_0_n_n.rhsIdx i q 0).val = (i 1).val := by
  unfold DotDims.rhsIdx
  rw [dif_neg (show ¬(0 : Fin S1024x4096.rank) ∈ dot_S1024x4096_S1024x4096_S1024x1024_1_1_0_0_n_n.rhsBatch by decide), dif_pos (show (0 : Fin S1024x4096.rank) ∈ dot_S1024x4096_S1024x4096_S1024x1024_1_1_0_0_n_n.rhsNonContracting by decide)]
  rfl
theorem rhsC_1 (i : S1024x1024.Idx) (q : dot_S1024x4096_S1024x4096_S1024x1024_1_1_0_0_n_n.contr.Idx) :
    (dot_S1024x4096_S1024x4096_S1024x1024_1_1_0_0_n_n.rhsIdx i q 1).val = (q ⟨0, by decide⟩).val :=
  dot_S1024x4096_S1024x4096_S1024x1024_1_1_0_0_n_n.rhsIdx_val_of_single rfl i q

/-- The second kernel's store: row `r` of the left operand against row `n` of the right. -/
theorem k1_pay1_apply (v0 v2 : Vec Ideal S1024x4096 .bf16) (r : Fin 1024) (n : Fin 1024) :
    k1_pay1 v0 v2 (ix2 r n) = ∑ j : Fin 4096, v0 (ix2 r j) * v2 (ix2 n j) := by
  unfold k1_pay1
  rw [shapeCast_self, shapeCast_self]
  simp only [matmul]
  rw [Ideal.matmul_constant_zero_apply, ← Equiv.sum_comp (contrEquiv1 dot_S1024x4096_S1024x4096_S1024x1024_1_1_0_0_n_n 4096 rfl rfl).symm]
  refine Finset.sum_congr rfl fun k _ => ?_
  have hk := contrEquiv1_symm_val dot_S1024x4096_S1024x4096_S1024x1024_1_1_0_0_n_n 4096 rfl rfl k
  have el : dot_S1024x4096_S1024x4096_S1024x1024_1_1_0_0_n_n.lhsIdx (ix2 r n) ((contrEquiv1 dot_S1024x4096_S1024x4096_S1024x1024_1_1_0_0_n_n 4096 rfl rfl).symm k) = ix2 r k := funext fun a => Fin.ext (by
    match a with
    | ⟨0, _⟩ => exact lhsC_0 _ _
    | ⟨1, _⟩ => exact (lhsC_1 _ _).trans hk)
  have er : dot_S1024x4096_S1024x4096_S1024x1024_1_1_0_0_n_n.rhsIdx (ix2 r n) ((contrEquiv1 dot_S1024x4096_S1024x4096_S1024x1024_1_1_0_0_n_n 4096 rfl rfl).symm k) = ix2 n k := funext fun a => Fin.ext (by
    match a with
    | ⟨0, _⟩ => exact rhsC_0 _ _
    | ⟨1, _⟩ => exact (rhsC_1 _ _).trans hk)
  rw [el, er]

/-! ## The normalised row -/

/-- A row's lane sum, viewed as a one-column array, at row `r`: the sum along the row. -/
theorem rowSum_apply (v : FVec Ideal S1024x4096 .f32) (r : Fin 1024) (c : Fin 1) :
    shapeCast S1024x1 (multiReduction .add [1] S1024 v 0x00000000#32 reduces_S1024x4096_S1024 (.inl rfl) rfl) shapeCasts_S1024_S1024x1 (ix2 r c)
      = ∑ k : Fin 4096, v (ix2 r k) := by
  rw [shapeCast_apply _ shapeCasts_S1024_S1024x1 (ix2 r c) (ix1 r) (by
    rw [Shape.rowMajor_val_one, Shape.rowMajor_val_two]
    show r.val = r.val * 1 + c.val
    have := c.isLt; omega)]
  refine (Ideal.multiReduction_add_single v _ reduces_S1024x4096_S1024 (.inl rfl) rfl (ix1 r)).trans ?_
  show ∑ k : Fin 4096, v (reduces_S1024x4096_S1024.lift (ix1 r) k) = _
  refine Finset.sum_congr rfl fun k _ => congrArg v (funext fun a => Fin.ext ?_)
  match a with
  | ⟨0, _⟩ => rfl
  | ⟨1, _⟩ => rfl

/-- A one-column array broadcast along the rows reads, at `(r, j)`, its row `r`. -/
theorem colBroadcast_apply (u : FVec Ideal S1024x1 .f32) (r : Fin 1024) (j : Fin 4096) :
    broadcastTo S1024x4096 u broadcasts_S1024x1_S1024x4096 (ix2 r j) = u (ix2 r (0 : Fin 1)) := by
  refine broadcastTo_apply u broadcasts_S1024x1_S1024x4096 (ix2 r j) (ix2 r (0 : Fin 1)) fun ax => ?_
  match ax with
  | ⟨0, _⟩ => rfl
  | ⟨1, _⟩ => rfl

/-- The reciprocal square root, lane by lane. -/
theorem rsqrt_apply {s : Shape} {φ : FTy} (a : FVec Ideal s φ) (i : s.Idx) : rsqrt a i = Ideal.rsqrt (a i) := rfl

/-- The third store: the accumulated row, normalised, scaled and shifted. -/
theorem pay3_apply (v16 : Vec Ideal S1024x4096 .f32) (v35 v39 : Vec Ideal S1x4096 .f32) (r : Fin 1024) (j : Fin 4096) :
    k0_pay3 v16 v35 v39 (ix2 r j) = Cert.Spec.lnK (fun j' => v16 (ix2 r j')) (fun j' => v35 (ix2 0 j')) (fun j' => v39 (ix2 0 j')) j := by
  unfold k0_pay3
  simp only [truncf_apply, addf_apply, mulf_apply, subf_apply, divf_apply, shapeCast_self, colBroadcast_apply,
    broadcastTo_1b_ab_apply, broadcast_apply, rsqrt_apply]
  rw [rowSum_apply v16 r 0, rowSum_apply _ r 0]
  simp only [mulf_apply, subf_apply, divf_apply, colBroadcast_apply, broadcast_apply]
  rw [rowSum_apply v16 r 0]
  rfl

/-! ## The normalised row against a column of weights, 4096 terms -/

theorem lhsB_0 (i : S1024x32.Idx) (q : dot_S1024x4096_S4096x32_S1024x32_1_0_0_1_n_n.contr.Idx) :
    (dot_S1024x4096_S4096x32_S1024x32_1_0_0_1_n_n.lhsIdx i q 0).val = (i 0).val := by
  unfold DotDims.lhsIdx
  rw [dif_neg (show ¬(0 : Fin S1024x4096.rank) ∈ dot_S1024x4096_S4096x32_S1024x32_1_0_0_1_n_n.lhsBatch by decide), dif_pos (show (0 : Fin S1024x4096.rank) ∈ dot_S1024x4096_S4096x32_S1024x32_1_0_0_1_n_n.lhsNonContracting by decide)]
  rfl
theorem lhsB_1 (i : S1024x32.Idx) (q : dot_S1024x4096_S4096x32_S1024x32_1_0_0_1_n_n.contr.Idx) :
    (dot_S1024x4096_S4096x32_S1024x32_1_0_0_1_n_n.lhsIdx i q 1).val = (q ⟨0, by decide⟩).val :=
  dot_S1024x4096_S4096x32_S1024x32_1_0_0_1_n_n.lhsIdx_val_of_single rfl i q
theorem rhsB_0 (i : S1024x32.Idx) (q : dot_S1024x4096_S4096x32_S1024x32_1_0_0_1_n_n.contr.Idx) :
    (dot_S1024x4096_S4096x32_S1024x32_1_0_0_1_n_n.rhsIdx i q 0).val = (q ⟨0, by decide⟩).val :=
  dot_S1024x4096_S4096x32_S1024x32_1_0_0_1_n_n.rhsIdx_val_of_single rfl i q
theorem rhsB_1 (i : S1024x32.Idx) (q : dot_S1024x4096_S4096x32_S1024x32_1_0_0_1_n_n.contr.Idx) :
    (dot_S1024x4096_S4096x32_S1024x32_1_0_0_1_n_n.rhsIdx i q 1).val = (i 1).val := by
  unfold DotDims.rhsIdx
  rw [dif_neg (show ¬(1 : Fin S4096x32.rank) ∈ dot_S1024x4096_S4096x32_S1024x32_1_0_0_1_n_n.rhsBatch by decide), dif_pos (show (1 : Fin S4096x32.rank) ∈ dot_S1024x4096_S4096x32_S1024x32_1_0_0_1_n_n.rhsNonContracting by decide)]
  rfl

/-- The product into the zero accumulator, at a row and a column. -/
theorem dotB_apply (l : FVec Ideal S1024x4096 .bf16) (w : FVec Ideal S4096x32 .bf16) (r : Fin 1024) (q : Fin 32) :
    matmul (F := Ideal) dot_S1024x4096_S4096x32_S1024x32_1_0_0_1_n_n none l w (constant S1024x32 .f32 0x00000000#32) (ix2 r q)
      = ∑ j : Fin 4096, l (ix2 r j) * w (ix2 j q) := by
  simp only [matmul]
  rw [Ideal.matmul_constant_zero_apply, ← Equiv.sum_comp (contrEquiv1 dot_S1024x4096_S4096x32_S1024x32_1_0_0_1_n_n 4096 rfl rfl).symm]
  refine Finset.sum_congr rfl fun k _ => ?_
  have hk := contrEquiv1_symm_val dot_S1024x4096_S4096x32_S1024x32_1_0_0_1_n_n 4096 rfl rfl k
  have el : dot_S1024x4096_S4096x32_S1024x32_1_0_0_1_n_n.lhsIdx (ix2 r q) ((contrEquiv1 dot_S1024x4096_S4096x32_S1024x32_1_0_0_1_n_n 4096 rfl rfl).symm k) = ix2 r k := funext fun a => Fin.ext (by
    match a with
    | ⟨0, _⟩ => exact lhsB_0 _ _
    | ⟨1, _⟩ => exact (lhsB_1 _ _).trans hk)
  have er : dot_S1024x4096_S4096x32_S1024x32_1_0_0_1_n_n.rhsIdx (ix2 r q) ((contrEquiv1 dot_S1024x4096_S4096x32_S1024x32_1_0_0_1_n_n 4096 rfl rfl).symm k) = ix2 k q := funext fun a => Fin.ext (by
    match a with
    | ⟨0, _⟩ => exact (rhsB_0 _ _).trans hk
    | ⟨1, _⟩ => exact rhsB_1 _ _)
  rw [el, er]

/-- The fourth store: the normalised row against column `q` of the weights. -/
theorem pay4_apply (v16 : Vec Ideal S1024x4096 .f32) (v35 v39 : Vec Ideal S1x4096 .f32) (v45 : Vec Ideal S4096x32 .bf16) (r : Fin 1024) (q : Fin 32) :
    k0_pay4 v16 v35 v39 v45 (ix2 r q) = ∑ j : Fin 4096, k0_pay3 v16 v35 v39 (ix2 r j) * v45 (ix2 j q) := by
  unfold k0_pay4
  rw [shapeCast_self]
  exact dotB_apply _ _ r q

end Cert.KernelIdeal.Hand

end
-- ==== Proof.KI.Value0.lean ====
/-
  What the first kernel region's two result arrays hold when the region ends, as functions of the arrays it was entered
  with.

  The grid has 8 row blocks of 1024 rows and, within each, 16 contraction steps of 256 coordinates; point `t` is row
  block `t / 16` at step `t mod 16`. Read in the arrays, a block's entry at a coordinate inside the block is the array's
  entry at block index × block size + that coordinate. By induction on the point, after step `k` of a row block the
  accumulator holds, at a row and a column, the first `k + 1` blocks of 256 terms of that row of `x` against that column
  of `W1ᵀ`; after the last step this is the whole sum over 4096 terms. At those last steps, and only there, the two
  result windows are written back: the normalised rows of the accumulator, and their product with the head weights.
  Row `r` lies in the block written at the last step of row block `r / 1024`, so the blocks written back tile both
  arrays, and each array ends holding its formula at every index.
-/
import proofs.«119018_g80994493268145_cont_9to1c4b_172_30_alg».proof.Proof.KI.Dat0
import proofs.«119018_g80994493268145_cont_9to1c4b_172_30_alg».proof.Proof.KI.Pay
import proofs.«119018_g80994493268145_cont_9to1c4b_172_30_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hN0 (t : Fin cfg0.N) : t.val < 128 := lt_of_lt_of_eq t.isLt (show cfg0.N = 128 from N_0)

/-- The windows' block indices, decided over the grid. -/
theorem idx0_0 : ∀ t : Fin cfg0.N, win0_0.index t (0 : Fin 2) = t.val / 16 ∧ win0_0.index t (1 : Fin 2) = t.val % 16 :=
  (by decide +kernel : ∀ t : Fin grid0.N, win0_0.index t (0 : Fin 2) = t.val / 16 ∧ win0_0.index t (1 : Fin 2) = t.val % 16)
theorem idx0_1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx0_5 : ∀ t : Fin cfg0.N, win0_5.index t (0 : Fin 2) = t.val / 16 ∧ win0_5.index t (1 : Fin 2) = 0 :=
  (by decide +kernel : ∀ t : Fin grid0.N, win0_5.index t (0 : Fin 2) = t.val / 16 ∧ win0_5.index t (1 : Fin 2) = 0)
theorem idx0_6 : ∀ t : Fin cfg0.N, win0_6.index t (0 : Fin 2) = t.val / 16 ∧ win0_6.index t (1 : Fin 2) = 0 :=
  (by decide +kernel : ∀ t : Fin grid0.N, win0_6.index t (0 : Fin 2) = t.val / 16 ∧ win0_6.index t (1 : Fin 2) = 0)

abbrev xarr (c : Dev nD) : Vec Ideal S8192x4096 .f32 := V c main_arg0
abbrev warr (c : Dev nD) : Vec Ideal S4096x4096 .bf16 := V c main_v1
abbrev garr (c : Dev nD) : Vec Ideal S1x4096 .f32 := V c main_v7
abbrev barr (c : Dev nD) : Vec Ideal S1x4096 .f32 := V c main_v8
abbrev harr (c : Dev nD) : Vec Ideal S4096x32 .bf16 := V c main_v6

abbrev xblk (c : Dev nD) (t : Fin cfg0.N) : Vec Ideal S1024x256 .f32 := iblk0 V c 0 t
abbrev wblk (c : Dev nD) (t : Fin cfg0.N) : Vec Ideal S256x4096 .bf16 := iblk0 V c 1 t
abbrev gblk (c : Dev nD) (t : Fin cfg0.N) : Vec Ideal S1x4096 .f32 := iblk0 V c 2 t
abbrev bblk (c : Dev nD) (t : Fin cfg0.N) : Vec Ideal S1x4096 .f32 := iblk0 V c 3 t
abbrev hblk (c : Dev nD) (t : Fin cfg0.N) : Vec Ideal S4096x32 .bf16 := iblk0 V c 4 t

/-! ## The blocks, read in the arrays -/

theorem xblk_apply (c : Dev nD) (t : Fin cfg0.N) (rr : Fin 1024) (kk : Fin 256) (r : Fin 8192) (k : Fin 4096)
    (hr : r.val = 1024 * (t.val / 16) + rr.val) (hk : k.val = 256 * (t.val % 16) + kk.val) :
    xblk V c t (ix2 rr kk) = xarr V c (ix2 r k) := by
  obtain ⟨e0, e1⟩ := idx0_0 t
  show V c main_arg0 (((cfg0.win 0).blk t).view.emb (ix2 rr kk)) = V c main_arg0 (ix2 r k)
  refine congrArg (V c main_arg0) (funext fun a => Fin.ext ?_)
  match a with
  | ⟨0, _⟩ => show win0_0.index t (0 : Fin 2) * 1024 + 1 * rr.val = r.val; omega
  | ⟨1, _⟩ => show win0_0.index t (1 : Fin 2) * 256 + 1 * kk.val = k.val; omega

theorem wblk_apply (c : Dev nD) (t : Fin cfg0.N) (kk : Fin 256) (j : Fin 4096) (k : Fin 4096)
    (hk : k.val = 256 * (t.val % 16) + kk.val) :
    wblk V c t (ix2 kk j) = warr V c (ix2 k j) := by
  obtain ⟨e0, e1⟩ := idx0_1 t
  show V c main_v1 (((cfg0.win 1).blk t).view.emb (ix2 kk j)) = V c main_v1 (ix2 k j)
  refine congrArg (V c main_v1) (funext fun a => Fin.ext ?_)
  match a with
  | ⟨0, _⟩ => show win0_1.index t (0 : Fin 2) * 256 + 1 * kk.val = k.val; omega
  | ⟨1, _⟩ => show win0_1.index t (1 : Fin 2) * 4096 + 1 * j.val = j.val; omega

theorem gblk_apply (c : Dev nD) (t : Fin cfg0.N) (j : Fin 4096) :
    gblk V c t (ix2 (0 : Fin 1) j) = garr V c (ix2 (0 : Fin 1) j) := by
  obtain ⟨e0, e1⟩ := idx0_2 t
  show V c main_v7 (((cfg0.win 2).blk t).view.emb (ix2 (0 : Fin 1) j)) = V c main_v7 (ix2 (0 : Fin 1) j)
  refine congrArg (V c main_v7) (funext fun a => Fin.ext ?_)
  match a with
  | ⟨0, _⟩ => show win0_2.index t (0 : Fin 2) * 1 + 1 * 0 = 0; omega
  | ⟨1, _⟩ => show win0_2.index t (1 : Fin 2) * 4096 + 1 * j.val = j.val; omega

theorem bblk_apply (c : Dev nD) (t : Fin cfg0.N) (j : Fin 4096) :
    bblk V c t (ix2 (0 : Fin 1) j) = barr V c (ix2 (0 : Fin 1) j) := by
  obtain ⟨e0, e1⟩ := idx0_3 t
  show V c main_v8 (((cfg0.win 3).blk t).view.emb (ix2 (0 : Fin 1) j)) = V c main_v8 (ix2 (0 : Fin 1) j)
  refine congrArg (V c main_v8) (funext fun a => Fin.ext ?_)
  match a with
  | ⟨0, _⟩ => show win0_3.index t (0 : Fin 2) * 1 + 1 * 0 = 0; omega
  | ⟨1, _⟩ => show win0_3.index t (1 : Fin 2) * 4096 + 1 * j.val = j.val; omega

theorem hblk_apply (c : Dev nD) (t : Fin cfg0.N) (j : Fin 4096) (q : Fin 32) :
    hblk V c t (ix2 j q) = harr V c (ix2 j q) := by
  obtain ⟨e0, e1⟩ := idx0_4 t
  show V c main_v6 (((cfg0.win 4).blk t).view.emb (ix2 j q)) = V c main_v6 (ix2 j q)
  refine congrArg (V c main_v6) (funext fun a => Fin.ext ?_)
  match a with
  | ⟨0, _⟩ => show win0_4.index t (0 : Fin 2) * 4096 + 1 * j.val = j.val; omega
  | ⟨1, _⟩ => show win0_4.index t (1 : Fin 2) * 32 + 1 * q.val = q.val; omega

/-! ## The accumulator -/

/-- One term of the hidden value at row `r`, column `j`. -/
abbrev term (c : Dev nD) (r : Fin 8192) (j : Fin 4096) : Fin 4096 → EReal := fun k => xarr V c (ix2 r k) * warr V c (ix2 k j)

/-- One more block of 256 terms on a running sum of blocks. -/
theorem blocks_step (f : Fin 4096 → EReal) (k k' : ℕ) (hk : k < 16) (hk' : k' = k + 1) (a : EReal) (g : Fin 256 → EReal)
    (ha : a = Cert.Spec.blocksUpTo f k)
    (hg : ∀ kk : Fin 256, g kk = f ⟨256 * k + kk.val, by have := kk.isLt; omega⟩) :
    a + ∑ kk : Fin 256, g kk = Cert.Spec.blocksUpTo f k' := by
  subst hk'
  rw [Cert.Spec.blocksUpTo_succ f k hk, ha]
  exact congrArg _ (Finset.sum_congr rfl fun kk _ => hg kk)

/-- After the point at row block `i` and contraction step `k` the accumulator holds, at a row and a column, the first
    `k + 1` blocks of that row's sum. -/
theorem acc_inv (c : Dev nD) : ∀ (n : ℕ) (hn : n < cfg0.N) (rr : Fin 1024) (j : Fin 4096) (r : Fin 8192),
    r.val = 1024 * (n / 16) + rr.val →
    accAt V c n hn (ix2 rr j) = Cert.Spec.blocksUpTo (term V c r j) (n % 16 + 1) := by
  intro n
  induction n with
  | zero =>
    intro hn rr j r hr
    have e := accAt_first V c ⟨0, hn⟩ rfl
    refine (congrFun e (ix2 rr j)).trans ?_
    refine (pay2_apply _ (xblk V c ⟨0, hn⟩) (wblk V c ⟨0, hn⟩) rr j).trans ?_
    refine blocks_step (term V c r j) 0 _ (by omega) rfl _ _ ((pay1_apply _).trans (Cert.Spec.blocksUpTo_zero _).symm) fun kk => ?_
    rw [xblk_apply V c ⟨0, hn⟩ rr kk r ⟨256 * 0 + kk.val, by have := kk.isLt; omega⟩ hr rfl,
      wblk_apply V c ⟨0, hn⟩ kk j ⟨256 * 0 + kk.val, by have := kk.isLt; omega⟩ rfl]
  | succ m ih =>
    intro hn rr j r hr
    have hN : m + 1 < 128 := lt_of_lt_of_eq hn (show cfg0.N = 128 from N_0)
    by_cases h0 : (m + 1) % 16 = 0
    · have e := accAt_first V c ⟨m + 1, hn⟩ h0
      refine (congrFun e (ix2 rr j)).trans ?_
      refine (pay2_apply _ (xblk V c ⟨m + 1, hn⟩) (wblk V c ⟨m + 1, hn⟩) rr j).trans ?_
      refine blocks_step (term V c r j) 0 _ (by omega) (by omega) _ _ ((pay1_apply _).trans (Cert.Spec.blocksUpTo_zero _).symm) fun kk => ?_
      rw [xblk_apply V c ⟨m + 1, hn⟩ rr kk r ⟨256 * 0 + kk.val, by have := kk.isLt; omega⟩ hr (by show 256 * 0 + kk.val = 256 * ((m + 1) % 16) + kk.val; omega),
        wblk_apply V c ⟨m + 1, hn⟩ kk j ⟨256 * 0 + kk.val, by have := kk.isLt; omega⟩ (by show 256 * 0 + kk.val = 256 * ((m + 1) % 16) + kk.val; omega)]
    · have e : accAt V c (m + 1) hn = k0_pay2 (accAt V c m (Nat.lt_of_succ_lt hn)) (xblk V c ⟨m + 1, hn⟩) (wblk V c ⟨m + 1, hn⟩) :=
        accAt_next V c ⟨m + 1, hn⟩ h0
      refine (congrFun e (ix2 rr j)).trans ?_
      refine (pay2_apply _ (xblk V c ⟨m + 1, hn⟩) (wblk V c ⟨m + 1, hn⟩) rr j).trans ?_
      refine blocks_step (term V c r j) (m % 16 + 1) _ (by omega) (by omega) _ _ (ih (Nat.lt_of_succ_lt hn) rr j r (by omega)) fun kk => ?_
      rw [xblk_apply V c ⟨m + 1, hn⟩ rr kk r ⟨256 * (m % 16 + 1) + kk.val, by have := kk.isLt; omega⟩ hr (by show 256 * (m % 16 + 1) + kk.val = 256 * ((m + 1) % 16) + kk.val; omega),
        wblk_apply V c ⟨m + 1, hn⟩ kk j ⟨256 * (m % 16 + 1) + kk.val, by have := kk.isLt; omega⟩ (by show 256 * (m % 16 + 1) + kk.val = 256 * ((m + 1) % 16) + kk.val; omega)]

/-- At a last contraction step the accumulator holds the whole sum. -/
theorem acc_last (c : Dev nD) (t : Fin cfg0.N) (h15 : t.val % 16 = 15) (rr : Fin 1024) (j : Fin 4096) (r : Fin 8192)
    (hr : r.val = 1024 * (t.val / 16) + rr.val) :
    accAt V c t.val t.isLt (ix2 rr j) = ∑ k : Fin 4096, xarr V c (ix2 r k) * warr V c (ix2 k j) := by
  rw [acc_inv V c t.val t.isLt rr j r hr, h15]
  exact Cert.Spec.blocksUpTo_all (term V c r j)

/-! ## What the flushing points write back -/

/-- Two functions of a two-coordinate index agree when they agree at every pair of coordinates. -/
theorem funext_ix2 {n0 n1 : Nat} {α : Type} (f g : (⟨2, ![n0, n1]⟩ : Shape).Idx → α)
    (h : ∀ (a : Fin n0) (b : Fin n1), f (ix2 a b) = g (ix2 a b)) : f = g :=
  funext fun y => by rw [eq_ix2 y]; exact h _ _

/-- The hidden row `r`. -/
abbrev hidRow (c : Dev nD) (r : Fin 8192) : Fin 4096 → EReal := fun j' => ∑ k : Fin 4096, xarr V c (ix2 r k) * warr V c (ix2 k j')
/-- The scale and the shift. -/
abbrev gRow (c : Dev nD) : Fin 4096 → EReal := fun j' => garr V c (ix2 (0 : Fin 1) j')
abbrev bRow (c : Dev nD) : Fin 4096 → EReal := fun j' => barr V c (ix2 (0 : Fin 1) j')

/-- The normalised rows, as contents of the first result array. -/
abbrev G5 (c : Dev nD) : Vec Ideal S8192x4096 .bf16 := fun i => Cert.Spec.lnK (hidRow V c (i 0)) (gRow V c) (bRow V c) (i 1)
/-- Their products with the head weights, as contents of the second. -/
abbrev G6 (c : Dev nD) : Vec Ideal S8192x32 .f32 := fun i => ∑ j : Fin 4096, Cert.Spec.lnK (hidRow V c (i 0)) (gRow V c) (bRow V c) j * harr V c (ix2 j (i 1))

/-- At a last step, the third payload at a row and a column: the normalised hidden row. -/
theorem pay3_last (c : Dev nD) (t : Fin cfg0.N) (h15 : t.val % 16 = 15) (rr : Fin 1024) (j : Fin 4096) (r : Fin 8192)
    (hr : r.val = 1024 * (t.val / 16) + rr.val) :
    k0_pay3 (accAt V c t.val t.isLt) (gblk V c t) (bblk V c t) (ix2 rr j) = Cert.Spec.lnK (hidRow V c r) (gRow V c) (bRow V c) j := by
  refine (pay3_apply (accAt V c t.val t.isLt) (gblk V c t) (bblk V c t) rr j).trans ?_
  have e1 : (fun j' => accAt V c t.val t.isLt (ix2 rr j')) = hidRow V c r := funext fun j' => acc_last V c t h15 rr j' r hr
  have e2 : (fun j' => gblk V c t (ix2 (0 : Fin 1) j')) = gRow V c := funext fun j' => gblk_apply V c t j'
  have e3 : (fun j' => bblk V c t (ix2 (0 : Fin 1) j')) = bRow V c := funext fun j' => bblk_apply V c t j'
  rw [e1, e2, e3]

theorem flushed5_eq (c : Dev nD) (t : Fin cfg0.N) (hf : (cfg0.win 5).flush t = true) :
    (dat0 V c).flushed 5 t = ((cfg0.win 5).blk t).view.read (Elt Ideal) (G5 V c) := by
  have h15 : t.val % 16 = 15 := (flush0_5 t).mp hf
  have hN := hN0 t
  obtain ⟨e0, e1⟩ := idx0_5 t
  show (cfg0.win 5).cut (grid0.coords t) ((dat0 V c).after 5 t) = _
  rw [after0_5]
  refine funext_ix2 (n0 := 1024) (n1 := 4096) _ _ fun rr j => ?_
  show k0_pay3 (accAt V c t.val t.isLt) (gblk V c t) (bblk V c t) (ix2 rr j) = G5 V c (((cfg0.win 5).blk t).view.emb (ix2 rr j))
  have he : ((cfg0.win 5).blk t).view.emb (ix2 rr j) = ix2 (⟨1024 * (t.val / 16) + rr.val, by omega⟩ : Fin 8192) j := by
    funext a; apply Fin.ext
    match a with
    | ⟨0, _⟩ => show win0_5.index t (0 : Fin 2) * 1024 + 1 * rr.val = 1024 * (t.val / 16) + rr.val; omega
    | ⟨1, _⟩ => show win0_5.index t (1 : Fin 2) * 4096 + 1 * j.val = j.val; omega
  refine (pay3_last V c t h15 rr j ⟨1024 * (t.val / 16) + rr.val, by omega⟩ rfl).trans ?_
  exact (congrArg (G5 V c) he).symm

theorem flushed6_eq (c : Dev nD) (t : Fin cfg0.N) (hf : (cfg0.win 6).flush t = true) :
    (dat0 V c).flushed 6 t = ((cfg0.win 6).blk t).view.read (Elt Ideal) (G6 V c) := by
  have h15 : t.val % 16 = 15 := (flush0_6 t).mp hf
  have hN := hN0 t
  obtain ⟨e0, e1⟩ := idx0_6 t
  show (cfg0.win 6).cut (grid0.coords t) ((dat0 V c).after 6 t) = _
  rw [after0_6]
  refine funext_ix2 (n0 := 1024) (n1 := 32) _ _ fun rr q => ?_
  show k0_pay4 (accAt V c t.val t.isLt) (gblk V c t) (bblk V c t) (hblk V c t) (ix2 rr q) = G6 V c (((cfg0.win 6).blk t).view.emb (ix2 rr q))
  have he : ((cfg0.win 6).blk t).view.emb (ix2 rr q) = ix2 (⟨1024 * (t.val / 16) + rr.val, by omega⟩ : Fin 8192) q := by
    funext a; apply Fin.ext
    match a with
    | ⟨0, _⟩ => show win0_6.index t (0 : Fin 2) * 1024 + 1 * rr.val = 1024 * (t.val / 16) + rr.val; omega
    | ⟨1, _⟩ => show win0_6.index t (1 : Fin 2) * 32 + 1 * q.val = q.val; omega
  refine (pay4_apply (accAt V c t.val t.isLt) (gblk V c t) (bblk V c t) (hblk V c t) rr q).trans ?_
  refine Eq.trans ?_ (congrArg (G6 V c) he).symm
  show _ = ∑ j : Fin 4096, Cert.Spec.lnK (hidRow V c ⟨1024 * (t.val / 16) + rr.val, by omega⟩) (gRow V c) (bRow V c) j * harr V c (ix2 j q)
  refine Finset.sum_congr rfl fun j _ => ?_
  rw [pay3_last V c t h15 rr j ⟨1024 * (t.val / 16) + rr.val, by omega⟩ rfl, hblk_apply V c t j q]

/-! ## The result blocks tile the arrays -/

theorem mem_blk5 (t : Fin cfg0.N) (i : S8192x4096.Idx) :
    i ∈ ((cfg0.win 5).blk t).view.set ↔ ∀ a : Fin 2, win0_5.index t a * S1024x4096.size a ≤ (i a).val ∧ (i a).val < win0_5.index t a * S1024x4096.size a + S1024x4096.size a := by
  show i ∈ ((View.whole main_v9_0).slice (win0_5.rect t)).set ↔ _
  rw [View.set_slice_whole, Rect.mem_set_unit]
  exact Iff.rfl

theorem mem_blk6 (t : Fin cfg0.N) (i : S8192x32.Idx) :
    i ∈ ((cfg0.win 6).blk t).view.set ↔ ∀ a : Fin 2, win0_6.index t a * S1024x32.size a ≤ (i a).val ∧ (i a).val < win0_6.index t a * S1024x32.size a + S1024x32.size a := by
  show i ∈ ((View.whole main_v9_1).slice (win0_6.rect t)).set ↔ _
  rw [View.set_slice_whole, Rect.mem_set_unit]
  exact Iff.rfl

/-- Row `r` is in the block written at the last step of its row block. -/
theorem cover5 (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hlt : 16 * ((i 0).val / 1024) + 15 < cfg0.N := by rw [show cfg0.N = 128 from N_0]; omega
  refine ⟨⟨16 * ((i 0).val / 1024) + 15, hlt⟩, (flush0_5 _).mpr (by show (16 * ((i 0).val / 1024) + 15) % 16 = 15; omega), ?_⟩
  obtain ⟨e0, e1⟩ := idx0_5 ⟨16 * ((i 0).val / 1024) + 15, hlt⟩
  have e0' : win0_5.index ⟨16 * ((i 0).val / 1024) + 15, hlt⟩ (0 : Fin 2) = (16 * ((i 0).val / 1024) + 15) / 16 := e0
  rw [mem_blk5]
  intro a
  match a with
  | ⟨0, _⟩ => show win0_5.index ⟨16 * ((i 0).val / 1024) + 15, hlt⟩ (0 : Fin 2) * 1024 ≤ (i 0).val ∧ (i 0).val < win0_5.index ⟨16 * ((i 0).val / 1024) + 15, hlt⟩ (0 : Fin 2) * 1024 + 1024; omega
  | ⟨1, _⟩ => show win0_5.index ⟨16 * ((i 0).val / 1024) + 15, hlt⟩ (1 : Fin 2) * 4096 ≤ (i 1).val ∧ (i 1).val < win0_5.index ⟨16 * ((i 0).val / 1024) + 15, hlt⟩ (1 : Fin 2) * 4096 + 4096; omega

theorem cover6 (i : S8192x32.Idx) : ∃ t : Fin cfg0.N, (cfg0.win 6).flush t = true ∧ i ∈ ((cfg0.win 6).blk t).view.set := by
  have hi0 : (i 0).val < 8192 := (i 0).isLt
  have hi1 : (i 1).val < 32 := (i 1).isLt
  have hlt : 16 * ((i 0).val / 1024) + 15 < cfg0.N := by rw [show cfg0.N = 128 from N_0]; omega
  refine ⟨⟨16 * ((i 0).val / 1024) + 15, hlt⟩, (flush0_6 _).mpr (by show (16 * ((i 0).val / 1024) + 15) % 16 = 15; omega), ?_⟩
  obtain ⟨e0, e1⟩ := idx0_6 ⟨16 * ((i 0).val / 1024) + 15, hlt⟩
  have e0' : win0_6.index ⟨16 * ((i 0).val / 1024) + 15, hlt⟩ (0 : Fin 2) = (16 * ((i 0).val / 1024) + 15) / 16 := e0
  rw [mem_blk6]
  intro a
  match a with
  | ⟨0, _⟩ => show win0_6.index ⟨16 * ((i 0).val / 1024) + 15, hlt⟩ (0 : Fin 2) * 1024 ≤ (i 0).val ∧ (i 0).val < win0_6.index ⟨16 * ((i 0).val / 1024) + 15, hlt⟩ (0 : Fin 2) * 1024 + 1024; omega
  | ⟨1, _⟩ => show win0_6.index ⟨16 * ((i 0).val / 1024) + 15, hlt⟩ (1 : Fin 2) * 32 ≤ (i 1).val ∧ (i 1).val < win0_6.index ⟨16 * ((i 0).val / 1024) + 15, hlt⟩ (1 : Fin 2) * 32 + 32; omega

/-! ## The two result arrays when the region ends -/

theorem arr0_5 (c : Dev nD) (r : Fin 8192) (j : Fin 4096) :
    (dat0 V c).arrAt 5 cfg0.N (ix2 r j) = Cert.Spec.lnK (fun j' => ∑ k : Fin 4096, xarr V c (ix2 r k) * warr V c (ix2 k j')) (fun j' => garr V c (ix2 (0 : Fin 1) j')) (fun j' => barr V c (ix2 (0 : Fin 1) j')) j := by
  have h := (dat0 V c).arrAt_eq_of_cover 5 (G5 V c) (flushed5_eq V c) cover5
  exact congrFun h (ix2 r j)

theorem arr0_6 (c : Dev nD) (r : Fin 8192) (q : Fin 32) :
    (dat0 V c).arrAt 6 cfg0.N (ix2 r q) = ∑ j : Fin 4096, Cert.Spec.lnK (fun j' => ∑ k : Fin 4096, xarr V c (ix2 r k) * warr V c (ix2 k j')) (fun j' => garr V c (ix2 (0 : Fin 1) j')) (fun j' => barr V c (ix2 (0 : Fin 1) j')) j * harr V c (ix2 j q) := by
  have h := (dat0 V c).arrAt_eq_of_cover 6 (G6 V c) (flushed6_eq V c) cover6
  exact congrFun h (ix2 r q)

/-- The same two, over any names of the entry arrays' entries. -/
theorem arr0_5_of (c : Dev nD) (r : Fin 8192) (j : Fin 4096)
    (x : Fin 8192 → Fin 4096 → EReal) (w : Fin 4096 → Fin 4096 → EReal) (g b : Fin 4096 → EReal)
    (hx : ∀ r k, V c main_arg0 (ix2 r k) = x r k) (hw : ∀ k j, V c main_v1 (ix2 k j) = w k j)
    (hg : ∀ j, V c main_v7 (ix2 (0 : Fin 1) j) = g j) (hb : ∀ j, V c main_v8 (ix2 (0 : Fin 1) j) = b j) :
    (dat0 V c).arrAt 5 cfg0.N (ix2 r j) = Cert.Spec.lnK (fun j' => ∑ k : Fin 4096, x r k * w k j') g b j := by
  refine (arr0_5 V c r j).trans ?_
  have e1 : (fun j' => ∑ k : Fin 4096, xarr V c (ix2 r k) * warr V c (ix2 k j')) = fun j' => ∑ k : Fin 4096, x r k * w k j' :=
    funext fun j' => Finset.sum_congr rfl fun k _ => by rw [show xarr V c (ix2 r k) = x r k from hx r k, show warr V c (ix2 k j') = w k j' from hw k j']
  have e2 : (fun j' => garr V c (ix2 (0 : Fin 1) j')) = g := funext hg
  have e3 : (fun j' => barr V c (ix2 (0 : Fin 1) j')) = b := funext hb
  rw [e1, e2, e3]

theorem arr0_6_of (c : Dev nD) (r : Fin 8192) (q : Fin 32)
    (x : Fin 8192 → Fin 4096 → EReal) (w : Fin 4096 → Fin 4096 → EReal) (g b : Fin 4096 → EReal) (h : Fin 4096 → Fin 32 → EReal)
    (hx : ∀ r k, V c main_arg0 (ix2 r k) = x r k) (hw : ∀ k j, V c main_v1 (ix2 k j) = w k j)
    (hg : ∀ j, V c main_v7 (ix2 (0 : Fin 1) j) = g j) (hb : ∀ j, V c main_v8 (ix2 (0 : Fin 1) j) = b j)
    (hh : ∀ j q, V c main_v6 (ix2 j q) = h j q) :
    @Eq EReal ((dat0 V c).arrAt 6 cfg0.N (ix2 r q)) (∑ j : Fin 4096, Cert.Spec.lnK (fun j' => ∑ k : Fin 4096, x r k * w k j') g b j * h j q) := by
  refine (arr0_6 V c r q).trans ?_
  have e1 : (fun j' => ∑ k : Fin 4096, xarr V c (ix2 r k) * warr V c (ix2 k j')) = fun j' => ∑ k : Fin 4096, x r k * w k j' :=
    funext fun j' => Finset.sum_congr rfl fun k _ => by rw [show xarr V c (ix2 r k) = x r k from hx r k, show warr V c (ix2 k j') = w k j' from hw k j']
  have e2 : (fun j' => garr V c (ix2 (0 : Fin 1) j')) = g := funext hg
  have e3 : (fun j' => barr V c (ix2 (0 : Fin 1) j')) = b := funext hb
  rw [e1, e2, e3]
  exact Finset.sum_congr (M := EReal) rfl fun j _ => by rw [show harr V c (ix2 j q) = h j q from hh j q]

end Cert.KernelIdeal.Hand

end
-- ==== Proof.KI.Value1.lean ====
/-
  What the second kernel region's result array holds when the region ends, as a function of the arrays it was entered
  with: entry `(r, n)` is row `r` of the normalised rows against row `n` of the neuron weights, contracted over the
  hidden axis. Each grid point `t` holds row block `t / 16` and weight block `t % 16` and writes back result block
  `(t / 16, t % 16)`; what it writes is that block of the one whole-array product, and the 8 × 16 blocks tile the array.
-/
import proofs.«119018_g80994493268145_cont_9to1c4b_172_30_alg».proof.Proof.KI.Dat1
import proofs.«119018_g80994493268145_cont_9to1c4b_172_30_alg».proof.Proof.KI.Pay
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The index maps over the grid -/

theorem zeroOff : (![0, 0] : Fin 2 → Nat) = fun _ => 0 := funext fun a => by fin_cases a <;> rfl

/-- At point `t` the rows' block is row block `t / 16`, the weights' block is row block `t % 16`, and the result's
    block is `(t / 16, t % 16)`; the two input windows span the whole hidden axis. -/
theorem blockIdx1 : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = t.val % 16 :=
  (by decide +kernel : ∀ t : Fin grid1.N, _)

/-! ## The arrays and the blocks, at their literal types -/

/-- The normalised rows, as the region finds them. -/
abbrev rowsArr (c : Dev nD) : Vec Ideal S8192x4096 .bf16 := V c main_v9_0
/-- The neuron weights, as the region finds them. -/
abbrev wtsArr (c : Dev nD) : Vec Ideal S16384x4096 .bf16 := V c main_v3
/-- The rows' block at point `t`. -/
abbrev rowsBlk (c : Dev nD) (t : Fin cfg1.N) : Vec Ideal S1024x4096 .bf16 := iblk1 V c 0 t
/-- The weights' block at point `t`. -/
abbrev wtsBlk (c : Dev nD) (t : Fin cfg1.N) : Vec Ideal S1024x4096 .bf16 := iblk1 V c 1 t

/-- Row `rr` of the rows' block at `t` is row `1024 (t / 16) + rr` of the array. -/
theorem rowsBlk_apply (c : Dev nD) (t : Fin cfg1.N) (rr : Fin 1024) (j : Fin 4096) (h : 1024 * (t.val / 16) + rr.val < 8192) :
    rowsBlk V c t (ix2 rr j) = rowsArr V c (ix2 ⟨1024 * (t.val / 16) + rr.val, h⟩ j) := by
  obtain ⟨e0, e1, -⟩ := blockIdx1 t
  show V c main_v9_0 (((cfg1.win 0).blk t).view.emb (ix2 rr j)) = V c main_v9_0 (ix2 ⟨1024 * (t.val / 16) + rr.val, h⟩ j)
  refine congrArg (V c main_v9_0) (funext fun a => Fin.ext ?_)
  match a with
  | ⟨0, _⟩ => show win1_0.index t (0 : Fin 2) * 1024 + 1 * rr.val = 1024 * (t.val / 16) + rr.val; omega
  | ⟨1, _⟩ => show win1_0.index t (1 : Fin 2) * 4096 + 1 * j.val = j.val; omega

/-- Row `nn` of the weights' block at `t` is row `1024 (t % 16) + nn` of the array. -/
theorem wtsBlk_apply (c : Dev nD) (t : Fin cfg1.N) (nn : Fin 1024) (j : Fin 4096) (h : 1024 * (t.val % 16) + nn.val < 16384) :
    wtsBlk V c t (ix2 nn j) = wtsArr V c (ix2 ⟨1024 * (t.val % 16) + nn.val, h⟩ j) := by
  obtain ⟨-, -, e2, e3, -⟩ := blockIdx1 t
  show V c main_v3 (((cfg1.win 1).blk t).view.emb (ix2 nn j)) = V c main_v3 (ix2 ⟨1024 * (t.val % 16) + nn.val, h⟩ j)
  refine congrArg (V c main_v3) (funext fun a => Fin.ext ?_)
  match a with
  | ⟨0, _⟩ => show win1_1.index t (0 : Fin 2) * 1024 + 1 * nn.val = 1024 * (t.val % 16) + nn.val; omega
  | ⟨1, _⟩ => show win1_1.index t (1 : Fin 2) * 4096 + 1 * j.val = j.val; omega

/-! ## The whole-array product -/

/-- Row `r` of the normalised rows against row `n` of the neuron weights, over the hidden axis. -/
abbrev rowDot (c : Dev nD) (r : Fin 8192) (n : Fin 16384) : EReal :=
  ∑ j : Fin 4096, rowsArr V c (ix2 r j) * wtsArr V c (ix2 n j)

/-- The result array the region leaves: every entry the product of its row and its weight row. -/
abbrev prodArr (c : Dev nD) : S8192x16384.Idx → Elt Ideal .f32 := fun i => rowDot V c (i 0) (i 1)

theorem rowDot_congr (c : Dev nD) {r r' : Fin 8192} {n n' : Fin 16384} (hr : r.val = r'.val) (hn : n.val = n'.val) :
    rowDot V c r n = rowDot V c r' n' := by
  obtain rfl : r = r' := Fin.ext hr
  obtain rfl : n = n' := Fin.ext hn
  rfl

/-- The stored product of two blocks that are row blocks `a` and `b` of two arrays, at an entry of the block: the
    product of the arrays' rows `1024 a + ` the entry's row and `1024 b + ` the entry's column. -/
theorem blockDot (x0 x1 : Vec Ideal S1024x4096 .bf16) (A : Vec Ideal S8192x4096 .bf16) (B : Vec Ideal S16384x4096 .bf16)
    (a b : Nat) (ha : a < 8) (hb : b < 16)
    (h0 : ∀ (rr : Fin 1024) (j : Fin 4096), x0 (ix2 rr j) = A (ix2 ⟨1024 * a + rr.val, by have := rr.isLt; omega⟩ j))
    (h1 : ∀ (nn : Fin 1024) (j : Fin 4096), x1 (ix2 nn j) = B (ix2 ⟨1024 * b + nn.val, by have := nn.isLt; omega⟩ j))
    (rr nn : Fin 1024) :
    k1_pay1 x0 x1 (ix2 rr nn)
      = ∑ j : Fin 4096, A (ix2 ⟨1024 * a + rr.val, by have := rr.isLt; omega⟩ j) * B (ix2 ⟨1024 * b + nn.val, by have := nn.isLt; omega⟩ j) := by
  rw [k1_pay1_apply]
  refine Finset.sum_congr rfl fun j _ => ?_
  rw [h0, h1]

/-! ## What a point writes back -/

/-- Point `t` writes back block `t` of the whole-array product. -/
theorem flushed1_2_eq (c : Dev nD) (t : Fin cfg1.N) :
    (dat1 V c).flushed 2 t = ((cfg1.win 2).blk t).view.read (Elt Ideal) (prodArr V c) := by
  show (cfg1.win 2).cut (grid1.coords t) ((dat1 V c).after 2 t) = _
  rw [after1_2]
  unfold out1_2
  rw [View.canon_unit_zero zeroOff]
  simp only [View.ld_unit_zero (S := S1024x4096) zeroOff]
  obtain ⟨-, -, -, -, e4, e5⟩ := blockIdx1 t
  have hN : t.val < 128 := t.isLt
  funext y
  have hy0 : (y 0).val < 1024 := (y 0).isLt
  have hy1 : (y 1).val < 1024 := (y 1).isLt
  show k1_pay1 (rowsBlk V c t) (wtsBlk V c t) (ix2 (⟨(y 0).val, hy0⟩ : Fin 1024) (⟨(y 1).val, hy1⟩ : Fin 1024))
      = rowDot V c ((((cfg1.win 2).blk t).view.emb y) 0) ((((cfg1.win 2).blk t).view.emb y) 1)
  refine (blockDot (rowsBlk V c t) (wtsBlk V c t) (rowsArr V c) (wtsArr V c) (t.val / 16) (t.val % 16) (by omega) (by omega)
    (fun rr j => rowsBlk_apply V c t rr j _) (fun nn j => wtsBlk_apply V c t nn j _) ⟨(y 0).val, hy0⟩ ⟨(y 1).val, hy1⟩).trans ?_
  refine rowDot_congr V c ?_ ?_
  · show 1024 * (t.val / 16) + (y 0).val = win1_2.index t (0 : Fin 2) * 1024 + 1 * (y 0).val
    omega
  · show 1024 * (t.val % 16) + (y 1).val = win1_2.index t (1 : Fin 2) * 1024 + 1 * (y 1).val
    omega

/-! ## The blocks tile the array -/

/-- An index of the array is in point `t`'s block iff each coordinate is in the block's range on its axis. -/
theorem mem_blk1_2 (t : Fin cfg1.N) (i : S8192x16384.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v10).slice (win1_2.rect t)).set ↔ _
  rw [View.set_slice_whole, Rect.mem_set_unit]
  exact Iff.rfl

/-- Entry `(r, n)` lies in the block of the point `16 (r / 1024) + n / 1024`. -/
theorem tiles1_2 (i : S8192x16384.Idx) :
    ∃ t : Fin cfg1.N, (cfg1.win 2).flush t = true ∧ i ∈ ((cfg1.win 2).blk t).view.set := by
  have hi0 : (i 0).val < 8192 := (i 0).isLt
  have hi1 : (i 1).val < 16384 := (i 1).isLt
  have hT : 16 * ((i 0).val / 1024) + (i 1).val / 1024 < cfg1.N := by show _ < 128; omega
  obtain ⟨-, -, -, -, e4, e5⟩ := blockIdx1 ⟨16 * ((i 0).val / 1024) + (i 1).val / 1024, hT⟩
  have q4 : win1_2.index ⟨16 * ((i 0).val / 1024) + (i 1).val / 1024, hT⟩ (0 : Fin 2) = (16 * ((i 0).val / 1024) + (i 1).val / 1024) / 16 := e4
  have q5 : win1_2.index ⟨16 * ((i 0).val / 1024) + (i 1).val / 1024, hT⟩ (1 : Fin 2) = (16 * ((i 0).val / 1024) + (i 1).val / 1024) % 16 := e5
  refine ⟨⟨16 * ((i 0).val / 1024) + (i 1).val / 1024, hT⟩, flush1_2 _, ?_⟩
  rw [mem_blk1_2]
  intro a
  match a with
  | ⟨0, _⟩ =>
    show win1_2.index ⟨16 * ((i 0).val / 1024) + (i 1).val / 1024, hT⟩ (0 : Fin 2) * 1024 ≤ (i 0).val
      ∧ (i 0).val < win1_2.index ⟨16 * ((i 0).val / 1024) + (i 1).val / 1024, hT⟩ (0 : Fin 2) * 1024 + 1024
    omega
  | ⟨1, _⟩ =>
    show win1_2.index ⟨16 * ((i 0).val / 1024) + (i 1).val / 1024, hT⟩ (1 : Fin 2) * 1024 ≤ (i 1).val
      ∧ (i 1).val < win1_2.index ⟨16 * ((i 0).val / 1024) + (i 1).val / 1024, hT⟩ (1 : Fin 2) * 1024 + 1024
    omega

/-! ## The array when the region ends -/

/-- The result array ends holding the whole-array product. -/
theorem final1_2 (c : Dev nD) : (dat1 V c).arrAt 2 cfg1.N = prodArr V c :=
  (dat1 V c).arrAt_eq_of_cover 2 (prodArr V c) (fun t _ => flushed1_2_eq V c t) tiles1_2

/-- Entry `(r, n)` of the result array when the region ends: row `r` of the normalised rows against row `n` of the
    neuron weights. -/
theorem arr1_2 (c : Dev nD) (r : Fin 8192) (n : Fin 16384) :
    (dat1 V c).arrAt 2 cfg1.N (ix2 r n)
      = ∑ j : Fin 4096, HMul.hMul (α := EReal) (β := EReal) (γ := EReal) (V c main_v9_0 (ix2 r j)) (V c main_v3 (ix2 n j)) :=
  congrFun (final1_2 V c) (ix2 r n)

end Cert.KernelIdeal.Hand

end
-- ==== Proof.KI.HostFin.lean ====
/-
  The operands the kernels are entered with, read entry by entry from the argument arrays: the first weight matrix
  transposed, the second weight matrix's neuron rows and its head rows transposed, the scale and the shift vectors as
  one-row matrices; and the precondition read back: every entry of the input and of the first weight matrix is a real
  number.
-/
import proofs.«119018_g80994493268145_cont_9to1c4b_172_30_alg».proof.Proof.KI.Vals
import proofs.«119018_g80994493268145_cont_9to1c4b_172_30_alg».proof.Defs
import proofs.«119018_g80994493268145_cont_9to1c4b_172_30_alg».proof.Proof.Gen.Pre_finite_inputs
import Idealize.ShloMosaic.Lib.StableHlo.Run
import Idealize.ShloMosaic.Lib.ValueIdx
import Idealize.ShloMosaic.Lib.ValueLayout
import Idealize.ShloMosaic.Lib.Pipeline.Value
import Idealize.ShloMosaic.Lib.ReduceAll
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## The precondition read back -/

/-- An extended real whose absolute value is below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ a : ℝ, x = (a : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  induction x using EReal.rec with
  | bot => simp [Ideal.cmp] at h
  | top => simp [Ideal.cmp] at h
  | coe a => exact ⟨a, rfl⟩

instance : Subsingleton Cert.Pre_finite_inputs.S_.Idx := ⟨fun a b => funext fun d => d.elim0⟩

/-- The precondition's first two conjuncts read back: every entry of the input and of the first weight matrix is a real. -/
theorem pre_conj (h : Cert.Pre_KernelIdeal (hPre_finite_inputs := Cert.Pre_finite_inputs.Gen.facts) m) (c : Dev nD) :
    (∀ i : S8192x4096.Idx, ∃ a : ℝ, m ((c.tc : Thread nD τ).loc main_arg0) i = (a : EReal))
    ∧ (∀ i : S4096x4096.Idx, ∃ a : ℝ, m ((c.tc : Thread nD τ).loc main_arg1) i = (a : EReal)) := by
  have h0 := congrFun (h c) ValueIdx.ix0
  dsimp only [Cert.Pre_finite_inputs.fn, Cert.Pre_finite_inputs.fn_part1] at h0
  change IntOp.andi _ _ = 1#1 at h0
  have h1 := (IntOp.andi_eq_one.1 h0).1
  change IntOp.andi _ _ = 1#1 at h1
  have h2 := (IntOp.andi_eq_one.1 h1).1
  change IntOp.andi _ _ = 1#1 at h2
  have h3 := (IntOp.andi_eq_one.1 h2).1
  change IntOp.andi _ _ = 1#1 at h3
  obtain ⟨hA, hB⟩ := IntOp.andi_eq_one.1 h3
  exact ⟨fun i => real_of_abs_lt_inf _ (Host.reduce_andi_all _ _ _ _ ValueIdx.ix0 hA i),
    fun i => real_of_abs_lt_inf _ (Host.reduce_andi_all _ _ _ _ ValueIdx.ix0 hB i)⟩

theorem finite_arg0 (h : Cert.Pre_KernelIdeal (hPre_finite_inputs := Cert.Pre_finite_inputs.Gen.facts) m) (c : Dev nD)
    (i : S8192x4096.Idx) : ∃ a : ℝ, m ((c.tc : Thread nD τ).loc main_arg0) i = (a : EReal) :=
  (pre_conj m h c).1 i

theorem finite_arg1 (h : Cert.Pre_KernelIdeal (hPre_finite_inputs := Cert.Pre_finite_inputs.Gen.facts) m) (c : Dev nD)
    (i : S4096x4096.Idx) : ∃ a : ℝ, m ((c.tc : Thread nD τ).loc main_arg1) i = (a : EReal) :=
  (pre_conj m h c).2 i

/-! ## The kernels' operands after the host operations -/

/-- The input array is untouched by the host operations. -/
theorem V1_arg0 (c : Dev nD) : V1 m c main_arg0 = m ((c.tc : Thread nD τ).loc main_arg0) := by
  show StableHlo.after hostOps0 (fun b => m (c, b)) (Proc.devRef .tc main_arg0) = _
  after_results

/-- The first weight matrix transposed, then converted. -/
theorem V1_v1_eq (c : Dev nD) : @Eq (S4096x4096.Idx → EReal) (V1 m c main_v1)
    (truncf (F := Ideal) .bf16 (transpose S4096x4096 [1, 0] (m ((c.tc : Thread nD τ).loc main_arg1))
      transposes_S4096x4096_S4096x4096_1_0) bitsLt_bf16_f32) := by
  show StableHlo.after hostOps0 (fun b => m (c, b)) (Proc.devRef .tc main_v1) = _
  after_results

/-- The second weight matrix's first 16384 rows, converted. -/
theorem V1_v3_eq (c : Dev nD) : @Eq (S16384x4096.Idx → EReal) (V1 m c main_v3)
    (truncf (F := Ideal) .bf16 (extractStridedSlice S16384x4096 ![0, 0] (m ((c.tc : Thread nD τ).loc main_arg4))
      slices_S16416x4096_S16384x4096_0_0) bitsLt_bf16_f32) := by
  show StableHlo.after hostOps0 (fun b => m (c, b)) (Proc.devRef .tc main_v3) = _
  after_results

/-- The second weight matrix's last 32 rows, transposed, then converted. -/
theorem V1_v6_eq (c : Dev nD) : @Eq (S4096x32.Idx → EReal) (V1 m c main_v6)
    (truncf (F := Ideal) .bf16 (transpose S4096x32 [1, 0]
      (extractStridedSlice S32x4096 ![16384, 0] (m ((c.tc : Thread nD τ).loc main_arg4)) slices_S16416x4096_S32x4096_16384_0)
      transposes_S32x4096_S4096x32_1_0) bitsLt_bf16_f32) := by
  show StableHlo.after hostOps0 (fun b => m (c, b)) (Proc.devRef .tc main_v6) = _
  after_results

/-- The scale vector as a one-row matrix. -/
theorem V1_v7_eq (c : Dev nD) : @Eq (S1x4096.Idx → EReal) (V1 m c main_v7)
    (shapeCast S1x4096 (m ((c.tc : Thread nD τ).loc main_arg2)) shapeCasts_S4096_S1x4096) := by
  show StableHlo.after hostOps0 (fun b => m (c, b)) (Proc.devRef .tc main_v7) = _
  after_results
  rfl

/-- The shift vector as a one-row matrix. -/
theorem V1_v8_eq (c : Dev nD) : @Eq (S1x4096.Idx → EReal) (V1 m c main_v8)
    (shapeCast S1x4096 (m ((c.tc : Thread nD τ).loc main_arg3)) shapeCasts_S4096_S1x4096) := by
  show StableHlo.after hostOps0 (fun b => m (c, b)) (Proc.devRef .tc main_v8) = _
  after_results
  rfl

/-- Entry (k, j) of the transposed first weight matrix is entry (j, k) of the matrix. -/
theorem V1_v1_apply (c : Dev nD) (k j : Fin 4096) :
    V1 m c main_v1 (ix2 k j) = m ((c.tc : Thread nD τ).loc main_arg1) (ix2 j k) := by
  refine (congrFun (V1_v1_eq m c) (ix2 k j)).trans ?_
  exact transpose_ix2_apply (m ((c.tc : Thread nD τ).loc main_arg1)) transposes_S4096x4096_S4096x4096_1_0 k j

/-- Entry (n, j) of the neuron rows is entry (n, j) of the second weight matrix. -/
theorem V1_v3_apply (c : Dev nD) (n : Fin 16384) (j : Fin 4096) :
    V1 m c main_v3 (ix2 n j)
      = m ((c.tc : Thread nD τ).loc main_arg4) (ix2 (⟨n.val, by have := n.isLt; omega⟩ : Fin 16416) j) := by
  refine (congrFun (V1_v3_eq m c) (ix2 n j)).trans ?_
  exact slice2_axis0_apply 0 (m ((c.tc : Thread nD τ).loc main_arg4)) slices_S16416x4096_S16384x4096_0_0 n j
    (⟨n.val, by have := n.isLt; omega⟩ : Fin 16416) (Nat.zero_add _).symm

/-- Entry (j, q) of the transposed head rows is entry (16384 + q, j) of the second weight matrix. -/
theorem V1_v6_apply (c : Dev nD) (j : Fin 4096) (q : Fin 32) :
    V1 m c main_v6 (ix2 j q)
      = m ((c.tc : Thread nD τ).loc main_arg4) (ix2 (⟨16384 + q.val, by have := q.isLt; omega⟩ : Fin 16416) j) := by
  refine (congrFun (V1_v6_eq m c) (ix2 j q)).trans ?_
  refine (transpose_ix2_apply
    (extractStridedSlice S32x4096 ![16384, 0] (m ((c.tc : Thread nD τ).loc main_arg4)) slices_S16416x4096_S32x4096_16384_0)
    transposes_S32x4096_S4096x32_1_0 j q).trans ?_
  exact slice2_axis0_apply 16384 (m ((c.tc : Thread nD τ).loc main_arg4)) slices_S16416x4096_S32x4096_16384_0 q j
    (⟨16384 + q.val, by have := q.isLt; omega⟩ : Fin 16416) rfl

/-- Entry (0, j) of the scale row is entry j of the scale vector. -/
theorem V1_v7_apply (c : Dev nD) (j : Fin 4096) :
    V1 m c main_v7 (ix2 (0 : Fin 1) j) = m ((c.tc : Thread nD τ).loc main_arg2) (ix1 j) := by
  refine (congrFun (V1_v7_eq m c) (ix2 (0 : Fin 1) j)).trans ?_
  exact shapeCast_a_1a_apply (m ((c.tc : Thread nD τ).loc main_arg2)) shapeCasts_S4096_S1x4096 0 j

/-- Entry (0, j) of the shift row is entry j of the shift vector. -/
theorem V1_v8_apply (c : Dev nD) (j : Fin 4096) :
    V1 m c main_v8 (ix2 (0 : Fin 1) j) = m ((c.tc : Thread nD τ).loc main_arg3) (ix1 j) := by
  refine (congrFun (V1_v8_eq m c) (ix2 (0 : Fin 1) j)).trans ?_
  exact shapeCast_a_1a_apply (m ((c.tc : Thread nD τ).loc main_arg3)) shapeCasts_S4096_S1x4096 0 j

end Cert.KernelIdeal.Hand

end
-- ==== Proof.KI.KValue.lean ====
/-
  The two results of the whole run, read at an index, as the specification's function of the launch memory.

  The second region multiplies the first region's normalised rows by the neuron weights; the first region's rows are
  the normalisation (with the scale and shift rows) of `x · W1ᵀ`, its second output their product with the head
  weights. The host stretch before the regions only re-lays the arguments: `W1` transposed, `W2` split into its first
  16384 rows and its last 32 rows transposed, the scale and shift as rows. Put together: result (r, n) is the sum over
  the hidden axis of the normalised hidden row r against row n of `W2` (n < 16384 for the first result, 16384 + q
  for the second). On finite `x` and `W1` multiplying by the reciprocal root is dividing by the root.
-/
import proofs.«119018_g80994493268145_cont_9to1c4b_172_30_alg».proof.Proof.KI.Launch
import proofs.«119018_g80994493268145_cont_9to1c4b_172_30_alg».proof.Proof.KI.Value0
import proofs.«119018_g80994493268145_cont_9to1c4b_172_30_alg».proof.Proof.KI.Value1
import proofs.«119018_g80994493268145_cont_9to1c4b_172_30_alg».proof.Proof.KI.HostFin
import proofs.«119018_g80994493268145_cont_9to1c4b_172_30_alg».proof.Proof.Spec

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The arguments at launch, by coordinates. -/
abbrev aX (c : Dev nD) : Fin 8192 → Fin 4096 → EReal := fun r k => m ((c.tc : Thread nD τ).loc main_arg0) (ix2 r k)
abbrev aW1 (c : Dev nD) : Fin 4096 → Fin 4096 → EReal := fun j k => m ((c.tc : Thread nD τ).loc main_arg1) (ix2 j k)
abbrev aG (c : Dev nD) : Fin 4096 → EReal := fun j => m ((c.tc : Thread nD τ).loc main_arg2) (ix1 j)
abbrev aB (c : Dev nD) : Fin 4096 → EReal := fun j => m ((c.tc : Thread nD τ).loc main_arg3) (ix1 j)
abbrev aW2 (c : Dev nD) : Fin 16416 → Fin 4096 → EReal := fun n j => m ((c.tc : Thread nD τ).loc main_arg4) (ix2 n j)

/-- The normalised hidden row the first region writes, at (r, j). -/
theorem rows_apply (c : Dev nD) (r : Fin 8192) (j : Fin 4096) :
    @Eq EReal ((dat0 (V1 m) c).arrAt 5 cfg0.N (ix2 r j)) (Cert.Spec.lnK (Cert.Spec.hid (aX m c) (aW1 m c) r) (aG m c) (aB m c) j) :=
  (arr0_5_of (V1 m) c r j (aX m c) (fun k j => aW1 m c j k) (aG m c) (aB m c)
    (fun r k => congrFun (V1_arg0 m c) (ix2 r k)) (fun k j => V1_v1_apply m c k j) (fun j => V1_v7_apply m c j) (fun j => V1_v8_apply m c j)).trans rfl

/-- The first result at (r, n): by the first form. -/
theorem neurons_K (c : Dev nD) (r : Fin 8192) (n : Fin 16384) :
    @Eq EReal (W3 m c (Proc.devRef .tc main_v10) (ix2 r n))
      (Cert.Spec.outK (aX m c) (aW1 m c) (aG m c) (aB m c) (aW2 m c) r ⟨n.val, by have := n.isLt; omega⟩) := by
  rw [W3_main_v10 m c, arr1_2 (V2 m) c r n]
  unfold Cert.Spec.outK
  refine Finset.sum_congr (M := EReal) rfl fun j _ => ?_
  rw [V2_main_v9_0 m c, rows_apply m c r j, V2_main_v3 m c, V1_v3_apply m c n j]

/-- The second result at (r, q): by the first form. -/
theorem heads_K (c : Dev nD) (r : Fin 8192) (q : Fin 32) :
    @Eq EReal (W3 m c (Proc.devRef .tc main_v9_1) (ix2 r q))
      (Cert.Spec.outK (aX m c) (aW1 m c) (aG m c) (aB m c) (aW2 m c) r ⟨16384 + q.val, by have := q.isLt; omega⟩) := by
  rw [W3_main_v9_1 m c]
  exact (arr0_6_of (V1 m) c r q (aX m c) (fun k j => aW1 m c j k) (aG m c) (aB m c) (fun j q => aW2 m c ⟨16384 + q.val, by have := q.isLt; omega⟩ j)
    (fun r k => congrFun (V1_arg0 m c) (ix2 r k)) (fun k j => V1_v1_apply m c k j) (fun j => V1_v7_apply m c j) (fun j => V1_v8_apply m c j)
    (fun j q => V1_v6_apply m c j q)).trans rfl

/-- Under the precondition every entry of `x` and of `W1` is a real, so the two forms agree. -/
theorem outK_eq_outR_of_pre (h : Cert.Pre_KernelIdeal (hPre_finite_inputs := Cert.Pre_finite_inputs.Gen.facts) m) (c : Dev nD) :
    Cert.Spec.outK (aX m c) (aW1 m c) (aG m c) (aB m c) (aW2 m c) = Cert.Spec.outR (aX m c) (aW1 m c) (aG m c) (aB m c) (aW2 m c) :=
  Cert.Spec.outK_eq_outR _ _ _ _ _ (fun r k => finite_arg0 m h c (ix2 r k)) (fun j k => finite_arg1 m h c (ix2 j k))

end Cert.KernelIdeal.Hand

end
-- ==== Proof.Ref.lean ====
/-
  The reference program's two results, read at an index, are the specification's second form: the hidden row is
  the row of x against every row of W1; its mean and variance are the sums over the row divided by the row length;
  the normalised row divides the deviation by the square root of the variance plus the offset; the result is the
  normalised row against every row of W2, whose first 16384 columns are the first result and last 32 the second.
-/
import proofs.«119018_g80994493268145_cont_9to1c4b_172_30_alg».proof.Proof.Gen.ReferenceIdeal.Read
import proofs.«119018_g80994493268145_cont_9to1c4b_172_30_alg».proof.Proof.Spec
import Idealize.ShloMosaic.Lib.ValueIdx

noncomputable section

open scoped BigOperators

namespace Cert.RefValue

open Cert.ReferenceIdeal Cert.ReferenceIdeal.Read Idealize.ShloMosaic Idealize.ShloMosaic.ValueIdx

variable (x0 : (⟨S8192x4096, .f32⟩ : BufTy).Contents (Elt Ideal)) (x1 : (⟨S4096x4096, .f32⟩ : BufTy).Contents (Elt Ideal))
  (x2 x3 : (⟨S4096, .f32⟩ : BufTy).Contents (Elt Ideal)) (x4 : (⟨S16416x4096, .f32⟩ : BufTy).Contents (Elt Ideal))

/-- The hidden row r of the specification, from the two argument arrays read by coordinates. -/
abbrev hrow (r : Fin 8192) : Fin 4096 → EReal :=
  Cert.Spec.hid (fun r k => x0 (ix2 r k)) (fun j k => x1 (ix2 j k)) r

/-- The first product at (r, j) is the hidden row's entry j. -/
theorem v1_at (r : Fin 8192) (j : Fin 4096) :
    val_main_v1 (F := Ideal) x0 x1 (ix2 r j) = hrow x0 x1 r j := by
  rw [val_main_v1_apply]
  unfold hrow Cert.Spec.hid
  refine Finset.sum_congr rfl fun k _ => ?_
  rw [val_main_v0_apply]
  have e1 : lidx_main_v1 (ix2 r j) k = ix2 r k :=
    funext fun a => Fin.ext (by match a with | ⟨0, _⟩ => rfl | ⟨1, _⟩ => rfl)
  have e2 : idx_main_v0 (ridx_main_v1 (ix2 r j) k) = ix2 j k :=
    funext fun a => Fin.ext (by match a with | ⟨0, _⟩ => rfl | ⟨1, _⟩ => rfl)
  rw [e1, e2]

/-- The row's sum divided by the row length is the row's mean. -/
theorem v5_at (r : Fin 8192) (z : Fin 1) :
    val_main_v5 (F := Ideal) x0 x1 (ix2 r z) = Cert.Spec.mean (hrow x0 x1 r) := by
  rw [val_main_v5_apply, val_main_v3_apply, val_main_v2_apply, val_main_v4_apply, val_main_cst_apply,
    val_main_cst_0_apply]
  simp only [Ideal.hostDivf_def, Ideal.ofBits_def, Ideal.ofBits_zero_f32, zero_add]
  unfold Cert.Spec.mean
  refine congrArg (fun s => Ideal.div s Cert.Spec.cN) (Finset.sum_congr rfl fun k _ => ?_)
  have e : idx_main_v2 (idx_main_v3 (ix2 r z)) k = ix2 r k :=
    funext fun a => Fin.ext (by match a with | ⟨0, _⟩ => rfl | ⟨1, _⟩ => rfl)
  rw [e, v1_at]

/-- The entry minus the broadcast mean is the deviation (the first broadcast of the mean). -/
theorem v7_at (r : Fin 8192) (j : Fin 4096) :
    val_main_v7 (F := Ideal) x0 x1 (ix2 r j) = Cert.Spec.dev (hrow x0 x1 r) j := by
  rw [val_main_v7_apply, val_main_v6_apply, v1_at]
  have e : idx_main_v6 (ix2 r j) = ix2 r (⟨0, Nat.one_pos⟩ : Fin 1) :=
    funext fun a => Fin.ext (by match a with | ⟨0, _⟩ => rfl | ⟨1, _⟩ => rfl)
  rw [e, v5_at]
  rfl

/-- The same deviation through the second broadcast of the mean. -/
theorem v14_at (r : Fin 8192) (j : Fin 4096) :
    val_main_v14 (F := Ideal) x0 x1 (ix2 r j) = Cert.Spec.dev (hrow x0 x1 r) j := by
  rw [val_main_v14_apply, val_main_v13_apply, v1_at]
  have e : idx_main_v13 (ix2 r j) = ix2 r (⟨0, Nat.one_pos⟩ : Fin 1) :=
    funext fun a => Fin.ext (by match a with | ⟨0, _⟩ => rfl | ⟨1, _⟩ => rfl)
  rw [e, v5_at]
  rfl

/-- The sum of the squared deviations divided by the row length is the row's variance. -/
theorem v12_at (r : Fin 8192) (z : Fin 1) :
    val_main_v12 (F := Ideal) x0 x1 (ix2 r z) = Cert.Spec.var (hrow x0 x1 r) := by
  rw [val_main_v12_apply, val_main_v10_apply, val_main_v9_apply, val_main_v11_apply, val_main_cst_1_apply,
    val_main_cst_2_apply]
  simp only [Ideal.hostDivf_def, Ideal.ofBits_def, Ideal.ofBits_zero_f32, zero_add]
  unfold Cert.Spec.var
  refine congrArg (fun s => Ideal.div s Cert.Spec.cN) (Finset.sum_congr rfl fun k _ => ?_)
  have e : idx_main_v9 (idx_main_v10 (ix2 r z)) k = ix2 r k :=
    funext fun a => Fin.ext (by match a with | ⟨0, _⟩ => rfl | ⟨1, _⟩ => rfl)
  rw [e, val_main_v8_apply, v7_at]
  rfl

/-- The square root of the variance plus the offset. -/
theorem v17_at (r : Fin 8192) (z : Fin 1) :
    val_main_v17 (F := Ideal) x0 x1 (ix2 r z)
      = Ideal.sqrt (Cert.Spec.var (hrow x0 x1 r) + Cert.Spec.cEps) := by
  rw [val_main_v17_apply, val_main_v16_apply, v12_at, val_main_v15_apply, val_main_cst_3_apply]
  rfl

/-- The normalised row: deviation over the root, times the scale, plus the shift. -/
theorem v25_at (r : Fin 8192) (j : Fin 4096) :
    val_main_v25 (F := Ideal) x0 x1 x2 x3 (ix2 r j)
      = Cert.Spec.lnR (hrow x0 x1 r) (fun j => x2 (ix1 j)) (fun j => x3 (ix1 j)) j := by
  rw [val_main_v25_apply, val_main_v22_apply, val_main_v19_apply, val_main_v18_apply, val_main_v21_apply,
    val_main_v20_apply, val_main_v24_apply, val_main_v23_apply, v14_at]
  have e18 : idx_main_v18 (ix2 r j) = ix2 r (⟨0, Nat.one_pos⟩ : Fin 1) :=
    funext fun a => Fin.ext (by match a with | ⟨0, _⟩ => rfl | ⟨1, _⟩ => rfl)
  have e20 : idx_main_v20 (idx_main_v21 (ix2 r j)) = ix1 j :=
    funext fun a => Fin.ext (by match a with | ⟨0, _⟩ => rfl)
  have e23 : idx_main_v23 (idx_main_v24 (ix2 r j)) = ix1 j :=
    funext fun a => Fin.ext (by match a with | ⟨0, _⟩ => rfl)
  rw [e18, e20, e23, v17_at]
  rfl

/-- The second product at (r, n) is the specification's output there. -/
theorem v27_at (r : Fin 8192) (n : Fin 16416) :
    val_main_v27 (F := Ideal) x0 x1 x2 x3 x4 (ix2 r n)
      = Cert.Spec.outR (fun r k => x0 (ix2 r k)) (fun j k => x1 (ix2 j k)) (fun j => x2 (ix1 j))
          (fun j => x3 (ix1 j)) (fun n j => x4 (ix2 n j)) r n := by
  rw [val_main_v27_apply]
  unfold Cert.Spec.outR
  refine Finset.sum_congr rfl fun k _ => ?_
  rw [val_main_v26_apply]
  have el : lidx_main_v27 (ix2 r n) k = ix2 r k :=
    funext fun a => Fin.ext (by match a with | ⟨0, _⟩ => rfl | ⟨1, _⟩ => rfl)
  have er : idx_main_v26 (ridx_main_v27 (ix2 r n) k) = ix2 n k :=
    funext fun a => Fin.ext (by match a with | ⟨0, _⟩ => rfl | ⟨1, _⟩ => rfl)
  rw [el, er, v25_at]

/-- The first result is the output's first 16384 columns. -/
theorem neurons_apply (r : Fin 8192) (n : Fin 16384) :
    val_main_v28 (F := Ideal) x0 x1 x2 x3 x4 (ix2 r n)
      = Cert.Spec.outR (fun r k => x0 (ix2 r k)) (fun j k => x1 (ix2 j k)) (fun j => x2 (ix1 j))
          (fun j => x3 (ix1 j)) (fun n j => x4 (ix2 n j)) r ⟨n.val, by have := n.isLt; omega⟩ := by
  rw [val_main_v28_apply]
  have e : idx_main_v28 (ix2 r n) = ix2 r (⟨n.val, by have := n.isLt; omega⟩ : Fin 16416) :=
    funext fun a => Fin.ext (by match a with | ⟨0, _⟩ => rfl | ⟨1, _⟩ => rfl)
  rw [e, v27_at]

/-- The second result is the output's last 32 columns. -/
theorem heads_apply (r : Fin 8192) (q : Fin 32) :
    val_main_v29 (F := Ideal) x0 x1 x2 x3 x4 (ix2 r q)
      = Cert.Spec.outR (fun r k => x0 (ix2 r k)) (fun j k => x1 (ix2 j k)) (fun j => x2 (ix1 j))
          (fun j => x3 (ix1 j)) (fun n j => x4 (ix2 n j)) r ⟨16384 + q.val, by have := q.isLt; omega⟩ := by
  rw [val_main_v29_apply]
  have e : idx_main_v29 (ix2 r q) = ix2 r (⟨16384 + q.val, by have := q.isLt; omega⟩ : Fin 16416) :=
    funext fun a => Fin.ext (by match a with | ⟨0, _⟩ => rfl | ⟨1, _⟩ => rfl)
  rw [e, v27_at]

end Cert.RefValue

end
-- ==== Proof.lean ====
/-
  The certificate's five claims.

  Each kernel program's frame is its run through the main function's three items (a stretch of host operations and two
  kernel regions), which ends with every argument array as launched. The reference's frame is its run as a line of host
  operations. The idealization rewrote nothing, so there is nothing to preserve.

  The value claim: at the exact instance the kernel program computes, for each of its two results, the sum over the
  hidden axis of the normalised hidden rows `LN(x · W1ᵀ)` against the rows of `W2` — accumulating `x · W1ᵀ` in sixteen
  blocks of the contraction and multiplying by the reciprocal square root of the variance — and the reference computes
  the same sums in one piece, dividing by the square root. Sums over the extended reals may be regrouped freely; and
  because the inputs are finite the variance plus its offset is a positive real, where the reciprocal root and the
  quotient by the root are the same number.
-/
import proofs.«119018_g80994493268145_cont_9to1c4b_172_30_alg».proof.Defs
import proofs.«119018_g80994493268145_cont_9to1c4b_172_30_alg».proof.Proof.Gen.Kernel
import proofs.«119018_g80994493268145_cont_9to1c4b_172_30_alg».proof.Proof.Gen.KernelIdeal
import proofs.«119018_g80994493268145_cont_9to1c4b_172_30_alg».proof.Proof.Gen.ReferenceIdeal
import proofs.«119018_g80994493268145_cont_9to1c4b_172_30_alg».proof.Proof.Gen.ReferenceIdeal.Run
import proofs.«119018_g80994493268145_cont_9to1c4b_172_30_alg».proof.Proof.Gen.ReferenceIdeal.Read
import proofs.«119018_g80994493268145_cont_9to1c4b_172_30_alg».proof.Proof.Gen.Pre_finite_inputs
import proofs.«119018_g80994493268145_cont_9to1c4b_172_30_alg».proof.Proof.K.Launch
import proofs.«119018_g80994493268145_cont_9to1c4b_172_30_alg».proof.Proof.KI.Launch
import proofs.«119018_g80994493268145_cont_9to1c4b_172_30_alg».proof.Proof.KI.KValue
import proofs.«119018_g80994493268145_cont_9to1c4b_172_30_alg».proof.Proof.Ref
import proofs.«119018_g80994493268145_cont_9to1c4b_172_30_alg».proof.Proof.Spec
import Idealize.ShloMosaic.Adequacy
import Idealize.ShloMosaic.Init

noncomputable section

namespace Cert.Proof

open Idealize.ShloMosaic Idealize.ShloMosaic.TcCoe Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

/-- The first result, as a function of the launch memory: the second form at every (r, n). -/
def neuronsOf (m : (ℓ : Loc Cert.KernelIdeal.nD Cert.KernelIdeal.τ Cert.KernelIdeal.sig) → Buf (Elt Ideal) ℓ) (c : Dev Cert.KernelIdeal.nD) :
    Cert.KernelIdeal.S8192x16384.Idx → EReal := fun i =>
  Cert.Spec.outR (Cert.KernelIdeal.Hand.aX m c) (Cert.KernelIdeal.Hand.aW1 m c) (Cert.KernelIdeal.Hand.aG m c) (Cert.KernelIdeal.Hand.aB m c) (Cert.KernelIdeal.Hand.aW2 m c)
    (i 0) ⟨(i 1).val, lt_of_lt_of_le (i 1).isLt (by decide)⟩

/-- The second result: the same at the last 32 rows of `W2`. -/
def headsOf (m : (ℓ : Loc Cert.KernelIdeal.nD Cert.KernelIdeal.τ Cert.KernelIdeal.sig) → Buf (Elt Ideal) ℓ) (c : Dev Cert.KernelIdeal.nD) :
    Cert.KernelIdeal.S8192x32.Idx → EReal := fun i =>
  Cert.Spec.outR (Cert.KernelIdeal.Hand.aX m c) (Cert.KernelIdeal.Hand.aW1 m c) (Cert.KernelIdeal.Hand.aG m c) (Cert.KernelIdeal.Hand.aB m c) (Cert.KernelIdeal.Hand.aW2 m c)
    (i 0) ⟨16384 + (i 1).val, Nat.add_lt_add_left (lt_of_lt_of_le (i 1).isLt (by decide : Cert.KernelIdeal.S8192x32.size 1 ≤ 32)) 16384⟩

theorem algebraic : Cert.algebraic_KernelIdeal_ReferenceIdeal := by
  intro m ρ m' ρ' hpre hagree
  refine ⟨neuronsOf m, headsOf m, ?_, ?_⟩
  · -- the kernel program: its run, the two results read off the last valuation
    refine (θ_run Cert.KernelIdeal.defs _ _).mono (fun _ h c => ⟨?_, ?_, ?_⟩) (Cert.KernelIdeal.Hand.run_all (F := Ideal) m ρ)
    · refine (h c _ (Cert.KernelIdeal.Hand.mem_uc Cert.KernelIdeal.main_v10 (by decide))).trans ?_
      funext i
      obtain ⟨r, n, rfl⟩ : ∃ (r : Fin 8192) (n : Fin 16384), i = ix2 r n := ⟨i 0, i 1, eq_ix2 i⟩
      rw [Cert.KernelIdeal.Hand.neurons_K m c r n, Cert.KernelIdeal.Hand.outK_eq_outR_of_pre m hpre c]
      rfl
    · refine (h c _ (Cert.KernelIdeal.Hand.mem_uc Cert.KernelIdeal.main_v9_1 (by decide))).trans ?_
      funext i
      obtain ⟨r, q, rfl⟩ : ∃ (r : Fin 8192) (q : Fin 32), i = ix2 r q := ⟨i 0, i 1, eq_ix2 i⟩
      rw [Cert.KernelIdeal.Hand.heads_K m c r q, Cert.KernelIdeal.Hand.outK_eq_outR_of_pre m hpre c]
      rfl
    · exact ⟨(h c _ (Cert.KernelIdeal.Hand.mem_uc Cert.KernelIdeal.main_arg0 (by decide))).trans (Cert.KernelIdeal.Hand.W3_main_arg0 m c),
        (h c _ (Cert.KernelIdeal.Hand.mem_uc Cert.KernelIdeal.main_arg1 (by decide))).trans (Cert.KernelIdeal.Hand.W3_main_arg1 m c),
        (h c _ (Cert.KernelIdeal.Hand.mem_uc Cert.KernelIdeal.main_arg2 (by decide))).trans (Cert.KernelIdeal.Hand.W3_main_arg2 m c),
        (h c _ (Cert.KernelIdeal.Hand.mem_uc Cert.KernelIdeal.main_arg3 (by decide))).trans (Cert.KernelIdeal.Hand.W3_main_arg3 m c),
        (h c _ (Cert.KernelIdeal.Hand.mem_uc Cert.KernelIdeal.main_arg4 (by decide))).trans (Cert.KernelIdeal.Hand.W3_main_arg4 m c)⟩
  · -- the reference: its run, its two results read at an index, its arguments the kernel program's
    refine (θ_run Cert.ReferenceIdeal.defs _ _).mono (fun _ h c => ⟨?_, ?_, (h c).2.2⟩) (Cert.ReferenceIdeal.Value.run (F := Ideal) m' ρ')
    · refine (h c).1.trans ?_
      rw [Cert.ReferenceIdeal.Read.val_main_v28_eq, (hagree c).1, (hagree c).2.1, (hagree c).2.2.1, (hagree c).2.2.2.1, (hagree c).2.2.2.2]
      funext i
      obtain ⟨r, n, rfl⟩ : ∃ (r : Fin 8192) (n : Fin 16384), i = ix2 r n := ⟨i 0, i 1, eq_ix2 i⟩
      exact Cert.RefValue.neurons_apply _ _ _ _ _ r n
    · refine (h c).2.1.trans ?_
      rw [Cert.ReferenceIdeal.Read.val_main_v29_eq, (hagree c).1, (hagree c).2.1, (hagree c).2.2.1, (hagree c).2.2.2.1, (hagree c).2.2.2.2]
      funext i
      obtain ⟨r, q, rfl⟩ : ∃ (r : Fin 8192) (q : Fin 32), i = ix2 r q := ⟨i 0, i 1, eq_ix2 i⟩
      exact Cert.RefValue.heads_apply _ _ _ _ _ r q

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
